-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x8192 : Shape := ⟨2, ![512, 8192]⟩
abbrev S8192 : Shape := ⟨1, ![8192]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x8192 .f32) (main_arg1 : FVec F S8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S32x512 : Shape := ⟨2, ![32, 512]⟩
abbrev S32 : Shape := ⟨1, ![32]⟩
abbrev S_ : Shape := ⟨0, ![]⟩
abbrev S512 : Shape := ⟨1, ![512]⟩
abbrev S1x512 : Shape := ⟨2, ![1, 512]⟩
abbrev S1 : Shape := ⟨1, ![1]⟩
abbrev S1x256 : Shape := ⟨2, ![1, 256]⟩
abbrev S512x1 : Shape := ⟨2, ![512, 1]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S512x256, .f32⟩
  | .local _ .vmem, ⟨3, _⟩ => ⟨S32x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v412 : Index := Scalar.indexCast v2
  let c0_280 : Index := 0#32
  ![v412.toNat, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_292 : BitVec 32 := 0#32
  ![v2.toNat, 0]
def k0_dev32 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v416 : BitVec 32 := Scalar.addi v2 c1_i32_282
  let c32_i32_283 : BitVec 32 := 32#32
  let c0_i32_284 : BitVec 32 := 0#32
  let v417 : BitVec 1 := Scalar.cmpi .eq c32_i32_283 c0_i32_284
  let c1_i32_285 : BitVec 32 := 1#32
  let v418 : BitVec 32 := Scalar.select v417 c1_i32_285 c32_i32_283
  let v419 : BitVec 32 := Scalar.remsi v416 v418
  let c0_i32_287 : BitVec 32 := 0#32
  let v421 : BitVec 1 := Scalar.cmpi .slt v419 c0_i32_287
  let c0_i32_288 : BitVec 32 := 0#32
  let v422 : BitVec 1 := Scalar.cmpi .slt v418 c0_i32_288
  let v423 : BitVec 1 := Scalar.xori v421 v422
  let c0_i32_286 : BitVec 32 := 0#32
  let v420 : BitVec 1 := Scalar.cmpi .ne v419 c0_i32_286
  let v424 : BitVec 1 := Scalar.andi v423 v420
  let v425 : BitVec 32 := Scalar.addi v419 v418
  let v426 : BitVec 32 := Scalar.select v424 v425 v419
  let c1_i32_290 : BitVec 32 := 1#32
  let v427 : BitVec 32 := Scalar.muli v426 c1_i32_290
  let v428 : BitVec 32 := Scalar.addi c0_i32_291 v427
  v428.toNat
def k0_dev33 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_294 : BitVec 32 := 2#32
  let v437 : BitVec 32 := Scalar.addi v2 c2_i32_294
  let c32_i32_295 : BitVec 32 := 32#32
  let c0_i32_296 : BitVec 32 := 0#32
  let v438 : BitVec 1 := Scalar.cmpi .eq c32_i32_295 c0_i32_296
  let c1_i32_297 : BitVec 32 := 1#32
  let v439 : BitVec 32 := Scalar.select v438 c1_i32_297 c32_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c1_i32_302 : BitVec 32 := 1#32
  let v448 : BitVec 32 := Scalar.muli v447 c1_i32_302
  let v449 : BitVec 32 := Scalar.addi c0_i32_303 v448
  v449.toNat
def k0_dev34 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_306 : BitVec 32 := 3#32
  let v458 : BitVec 32 := Scalar.addi v2 c3_i32_306
  let c32_i32_307 : BitVec 32 := 32#32
  let c0_i32_308 : BitVec 32 := 0#32
  let v459 : BitVec 1 := Scalar.cmpi .eq c32_i32_307 c0_i32_308
  let c1_i32_309 : BitVec 32 := 1#32
  let v460 : BitVec 32 := Scalar.select v459 c1_i32_309 c32_i32_307
  let v461 : BitVec 32 := Scalar.remsi v458 v460
  let c0_i32_311 : BitVec 32 := 0#32
  let v463 : BitVec 1 := Scalar.cmpi .slt v461 c0_i32_311
  let c0_i32_312 : BitVec 32 := 0#32
  let v464 : BitVec 1 := Scalar.cmpi .slt v460 c0_i32_312
  let v465 : BitVec 1 := Scalar.xori v463 v464
  let c0_i32_310 : BitVec 32 := 0#32
  let v462 : BitVec 1 := Scalar.cmpi .ne v461 c0_i32_310
  let v466 : BitVec 1 := Scalar.andi v465 v462
  let v467 : BitVec 32 := Scalar.addi v461 v460
  let v468 : BitVec 32 := Scalar.select v466 v467 v461
  let c1_i32_314 : BitVec 32 := 1#32
  let v469 : BitVec 32 := Scalar.muli v468 c1_i32_314
  let v470 : BitVec 32 := Scalar.addi c0_i32_315 v469
  v470.toNat
def k0_dev35 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_318 : BitVec 32 := 4#32
  let v479 : BitVec 32 := Scalar.addi v2 c4_i32_318
  let c32_i32_319 : BitVec 32 := 32#32
  let c0_i32_320 : BitVec 32 := 0#32
  let v480 : BitVec 1 := Scalar.cmpi .eq c32_i32_319 c0_i32_320
  let c1_i32_321 : BitVec 32 := 1#32
  let v481 : BitVec 32 := Scalar.select v480 c1_i32_321 c32_i32_319
  let v482 : BitVec 32 := Scalar.remsi v479 v481
  let c0_i32_323 : BitVec 32 := 0#32
  let v484 : BitVec 1 := Scalar.cmpi .slt v482 c0_i32_323
  let c0_i32_324 : BitVec 32 := 0#32
  let v485 : BitVec 1 := Scalar.cmpi .slt v481 c0_i32_324
  let v486 : BitVec 1 := Scalar.xori v484 v485
  let c0_i32_322 : BitVec 32 := 0#32
  let v483 : BitVec 1 := Scalar.cmpi .ne v482 c0_i32_322
  let v487 : BitVec 1 := Scalar.andi v486 v483
  let v488 : BitVec 32 := Scalar.addi v482 v481
  let v489 : BitVec 32 := Scalar.select v487 v488 v482
  let c1_i32_326 : BitVec 32 := 1#32
  let v490 : BitVec 32 := Scalar.muli v489 c1_i32_326
  let v491 : BitVec 32 := Scalar.addi c0_i32_327 v490
  v491.toNat
def k0_dev36 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_330 : BitVec 32 := 5#32
  let v500 : BitVec 32 := Scalar.addi v2 c5_i32_330
  let c32_i32_331 : BitVec 32 := 32#32
  let c0_i32_332 : BitVec 32 := 0#32
  let v501 : BitVec 1 := Scalar.cmpi .eq c32_i32_331 c0_i32_332
  let c1_i32_333 : BitVec 32 := 1#32
  let v502 : BitVec 32 := Scalar.select v501 c1_i32_333 c32_i32_331
  let v503 : BitVec 32 := Scalar.remsi v500 v502
  let c0_i32_335 : BitVec 32 := 0#32
  let v505 : BitVec 1 := Scalar.cmpi .slt v503 c0_i32_335
  let c0_i32_336 : BitVec 32 := 0#32
  let v506 : BitVec 1 := Scalar.cmpi .slt v502 c0_i32_336
  let v507 : BitVec 1 := Scalar.xori v505 v506
  let c0_i32_334 : BitVec 32 := 0#32
  let v504 : BitVec 1 := Scalar.cmpi .ne v503 c0_i32_334
  let v508 : BitVec 1 := Scalar.andi v507 v504
  let v509 : BitVec 32 := Scalar.addi v503 v502
  let v510 : BitVec 32 := Scalar.select v508 v509 v503
  let c1_i32_338 : BitVec 32 := 1#32
  let v511 : BitVec 32 := Scalar.muli v510 c1_i32_338
  let v512 : BitVec 32 := Scalar.addi c0_i32_339 v511
  v512.toNat
def k0_dev37 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_342 : BitVec 32 := 6#32
  let v521 : BitVec 32 := Scalar.addi v2 c6_i32_342
  let c32_i32_343 : BitVec 32 := 32#32
  let c0_i32_344 : BitVec 32 := 0#32
  let v522 : BitVec 1 := Scalar.cmpi .eq c32_i32_343 c0_i32_344
  let c1_i32_345 : BitVec 32 := 1#32
  let v523 : BitVec 32 := Scalar.select v522 c1_i32_345 c32_i32_343
  let v524 : BitVec 32 := Scalar.remsi v521 v523
  let c0_i32_347 : BitVec 32 := 0#32
  let v526 : BitVec 1 := Scalar.cmpi .slt v524 c0_i32_347
  let c0_i32_348 : BitVec 32 := 0#32
  let v527 : BitVec 1 := Scalar.cmpi .slt v523 c0_i32_348
  let v528 : BitVec 1 := Scalar.xori v526 v527
  let c0_i32_346 : BitVec 32 := 0#32
  let v525 : BitVec 1 := Scalar.cmpi .ne v524 c0_i32_346
  let v529 : BitVec 1 := Scalar.andi v528 v525
  let v530 : BitVec 32 := Scalar.addi v524 v523
  let v531 : BitVec 32 := Scalar.select v529 v530 v524
  let c1_i32_350 : BitVec 32 := 1#32
  let v532 : BitVec 32 := Scalar.muli v531 c1_i32_350
  let v533 : BitVec 32 := Scalar.addi c0_i32_351 v532
  v533.toNat
def k0_dev38 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_354 : BitVec 32 := 7#32
  let v542 : BitVec 32 := Scalar.addi v2 c7_i32_354
  let c32_i32_355 : BitVec 32 := 32#32
  let c0_i32_356 : BitVec 32 := 0#32
  let v543 : BitVec 1 := Scalar.cmpi .eq c32_i32_355 c0_i32_356
  let c1_i32_357 : BitVec 32 := 1#32
  let v544 : BitVec 32 := Scalar.select v543 c1_i32_357 c32_i32_355
  let v545 : BitVec 32 := Scalar.remsi v542 v544
  let c0_i32_359 : BitVec 32 := 0#32
  let v547 : BitVec 1 := Scalar.cmpi .slt v545 c0_i32_359
  let c0_i32_360 : BitVec 32 := 0#32
  let v548 : BitVec 1 := Scalar.cmpi .slt v544 c0_i32_360
  let v549 : BitVec 1 := Scalar.xori v547 v548
  let c0_i32_358 : BitVec 32 := 0#32
  let v546 : BitVec 1 := Scalar.cmpi .ne v545 c0_i32_358
  let v550 : BitVec 1 := Scalar.andi v549 v546
  let v551 : BitVec 32 := Scalar.addi v545 v544
  let v552 : BitVec 32 := Scalar.select v550 v551 v545
  let c1_i32_362 : BitVec 32 := 1#32
  let v553 : BitVec 32 := Scalar.muli v552 c1_i32_362
  let v554 : BitVec 32 := Scalar.addi c0_i32_363 v553
  v554.toNat
def k0_dev39 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_366 : BitVec 32 := 8#32
  let v563 : BitVec 32 := Scalar.addi v2 c8_i32_366
  let c32_i32_367 : BitVec 32 := 32#32
  let c0_i32_368 : BitVec 32 := 0#32
  let v564 : BitVec 1 := Scalar.cmpi .eq c32_i32_367 c0_i32_368
  let c1_i32_369 : BitVec 32 := 1#32
  let v565 : BitVec 32 := Scalar.select v564 c1_i32_369 c32_i32_367
  let v566 : BitVec 32 := Scalar.remsi v563 v565
  let c0_i32_371 : BitVec 32 := 0#32
  let v568 : BitVec 1 := Scalar.cmpi .slt v566 c0_i32_371
  let c0_i32_372 : BitVec 32 := 0#32
  let v569 : BitVec 1 := Scalar.cmpi .slt v565 c0_i32_372
  let v570 : BitVec 1 := Scalar.xori v568 v569
  let c0_i32_370 : BitVec 32 := 0#32
  let v567 : BitVec 1 := Scalar.cmpi .ne v566 c0_i32_370
  let v571 : BitVec 1 := Scalar.andi v570 v567
  let v572 : BitVec 32 := Scalar.addi v566 v565
  let v573 : BitVec 32 := Scalar.select v571 v572 v566
  let c1_i32_374 : BitVec 32 := 1#32
  let v574 : BitVec 32 := Scalar.muli v573 c1_i32_374
  let v575 : BitVec 32 := Scalar.addi c0_i32_375 v574
  v575.toNat
def k0_dev40 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_378 : BitVec 32 := 9#32
  let v584 : BitVec 32 := Scalar.addi v2 c9_i32_378
  let c32_i32_379 : BitVec 32 := 32#32
  let c0_i32_380 : BitVec 32 := 0#32
  let v585 : BitVec 1 := Scalar.cmpi .eq c32_i32_379 c0_i32_380
  let c1_i32_381 : BitVec 32 := 1#32
  let v586 : BitVec 32 := Scalar.select v585 c1_i32_381 c32_i32_379
  let v587 : BitVec 32 := Scalar.remsi v584 v586
  let c0_i32_383 : BitVec 32 := 0#32
  let v589 : BitVec 1 := Scalar.cmpi .slt v587 c0_i32_383
  let c0_i32_384 : BitVec 32 := 0#32
  let v590 : BitVec 1 := Scalar.cmpi .slt v586 c0_i32_384
  let v591 : BitVec 1 := Scalar.xori v589 v590
  let c0_i32_382 : BitVec 32 := 0#32
  let v588 : BitVec 1 := Scalar.cmpi .ne v587 c0_i32_382
  let v592 : BitVec 1 := Scalar.andi v591 v588
  let v593 : BitVec 32 := Scalar.addi v587 v586
  let v594 : BitVec 32 := Scalar.select v592 v593 v587
  let c1_i32_386 : BitVec 32 := 1#32
  let v595 : BitVec 32 := Scalar.muli v594 c1_i32_386
  let v596 : BitVec 32 := Scalar.addi c0_i32_387 v595
  v596.toNat
def k0_dev41 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_390 : BitVec 32 := 10#32
  let v605 : BitVec 32 := Scalar.addi v2 c10_i32_390
  let c32_i32_391 : BitVec 32 := 32#32
  let c0_i32_392 : BitVec 32 := 0#32
  let v606 : BitVec 1 := Scalar.cmpi .eq c32_i32_391 c0_i32_392
  let c1_i32_393 : BitVec 32 := 1#32
  let v607 : BitVec 32 := Scalar.select v606 c1_i32_393 c32_i32_391
  let v608 : BitVec 32 := Scalar.remsi v605 v607
  let c0_i32_395 : BitVec 32 := 0#32
  let v610 : BitVec 1 := Scalar.cmpi .slt v608 c0_i32_395
  let c0_i32_396 : BitVec 32 := 0#32
  let v611 : BitVec 1 := Scalar.cmpi .slt v607 c0_i32_396
  let v612 : BitVec 1 := Scalar.xori v610 v611
  let c0_i32_394 : BitVec 32 := 0#32
  let v609 : BitVec 1 := Scalar.cmpi .ne v608 c0_i32_394
  let v613 : BitVec 1 := Scalar.andi v612 v609
  let v614 : BitVec 32 := Scalar.addi v608 v607
  let v615 : BitVec 32 := Scalar.select v613 v614 v608
  let c1_i32_398 : BitVec 32 := 1#32
  let v616 : BitVec 32 := Scalar.muli v615 c1_i32_398
  let v617 : BitVec 32 := Scalar.addi c0_i32_399 v616
  v617.toNat
def k0_dev42 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_402 : BitVec 32 := 11#32
  let v626 : BitVec 32 := Scalar.addi v2 c11_i32_402
  let c32_i32_403 : BitVec 32 := 32#32
  let c0_i32_404 : BitVec 32 := 0#32
  let v627 : BitVec 1 := Scalar.cmpi .eq c32_i32_403 c0_i32_404
  let c1_i32_405 : BitVec 32 := 1#32
  let v628 : BitVec 32 := Scalar.select v627 c1_i32_405 c32_i32_403
  let v629 : BitVec 32 := Scalar.remsi v626 v628
  let c0_i32_407 : BitVec 32 := 0#32
  let v631 : BitVec 1 := Scalar.cmpi .slt v629 c0_i32_407
  let c0_i32_408 : BitVec 32 := 0#32
  let v632 : BitVec 1 := Scalar.cmpi .slt v628 c0_i32_408
  let v633 : BitVec 1 := Scalar.xori v631 v632
  let c0_i32_406 : BitVec 32 := 0#32
  let v630 : BitVec 1 := Scalar.cmpi .ne v629 c0_i32_406
  let v634 : BitVec 1 := Scalar.andi v633 v630
  let v635 : BitVec 32 := Scalar.addi v629 v628
  let v636 : BitVec 32 := Scalar.select v634 v635 v629
  let c1_i32_410 : BitVec 32 := 1#32
  let v637 : BitVec 32 := Scalar.muli v636 c1_i32_410
  let v638 : BitVec 32 := Scalar.addi c0_i32_411 v637
  v638.toNat
def k0_dev43 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_414 : BitVec 32 := 12#32
  let v647 : BitVec 32 := Scalar.addi v2 c12_i32_414
  let c32_i32_415 : BitVec 32 := 32#32
  let c0_i32_416 : BitVec 32 := 0#32
  let v648 : BitVec 1 := Scalar.cmpi .eq c32_i32_415 c0_i32_416
  let c1_i32_417 : BitVec 32 := 1#32
  let v649 : BitVec 32 := Scalar.select v648 c1_i32_417 c32_i32_415
  let v650 : BitVec 32 := Scalar.remsi v647 v649
  let c0_i32_419 : BitVec 32 := 0#32
  let v652 : BitVec 1 := Scalar.cmpi .slt v650 c0_i32_419
  let c0_i32_420 : BitVec 32 := 0#32
  let v653 : BitVec 1 := Scalar.cmpi .slt v649 c0_i32_420
  let v654 : BitVec 1 := Scalar.xori v652 v653
  let c0_i32_418 : BitVec 32 := 0#32
  let v651 : BitVec 1 := Scalar.cmpi .ne v650 c0_i32_418
  let v655 : BitVec 1 := Scalar.andi v654 v651
  let v656 : BitVec 32 := Scalar.addi v650 v649
  let v657 : BitVec 32 := Scalar.select v655 v656 v650
  let c1_i32_422 : BitVec 32 := 1#32
  let v658 : BitVec 32 := Scalar.muli v657 c1_i32_422
  let v659 : BitVec 32 := Scalar.addi c0_i32_423 v658
  v659.toNat
def k0_dev44 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_426 : BitVec 32 := 13#32
  let v668 : BitVec 32 := Scalar.addi v2 c13_i32_426
  let c32_i32_427 : BitVec 32 := 32#32
  let c0_i32_428 : BitVec 32 := 0#32
  let v669 : BitVec 1 := Scalar.cmpi .eq c32_i32_427 c0_i32_428
  let c1_i32_429 : BitVec 32 := 1#32
  let v670 : BitVec 32 := Scalar.select v669 c1_i32_429 c32_i32_427
  let v671 : BitVec 32 := Scalar.remsi v668 v670
  let c0_i32_431 : BitVec 32 := 0#32
  let v673 : BitVec 1 := Scalar.cmpi .slt v671 c0_i32_431
  let c0_i32_432 : BitVec 32 := 0#32
  let v674 : BitVec 1 := Scalar.cmpi .slt v670 c0_i32_432
  let v675 : BitVec 1 := Scalar.xori v673 v674
  let c0_i32_430 : BitVec 32 := 0#32
  let v672 : BitVec 1 := Scalar.cmpi .ne v671 c0_i32_430
  let v676 : BitVec 1 := Scalar.andi v675 v672
  let v677 : BitVec 32 := Scalar.addi v671 v670
  let v678 : BitVec 32 := Scalar.select v676 v677 v671
  let c1_i32_434 : BitVec 32 := 1#32
  let v679 : BitVec 32 := Scalar.muli v678 c1_i32_434
  let v680 : BitVec 32 := Scalar.addi c0_i32_435 v679
  v680.toNat
def k0_dev45 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_438 : BitVec 32 := 14#32
  let v689 : BitVec 32 := Scalar.addi v2 c14_i32_438
  let c32_i32_439 : BitVec 32 := 32#32
  let c0_i32_440 : BitVec 32 := 0#32
  let v690 : BitVec 1 := Scalar.cmpi .eq c32_i32_439 c0_i32_440
  let c1_i32_441 : BitVec 32 := 1#32
  let v691 : BitVec 32 := Scalar.select v690 c1_i32_441 c32_i32_439
  let v692 : BitVec 32 := Scalar.remsi v689 v691
  let c0_i32_443 : BitVec 32 := 0#32
  let v694 : BitVec 1 := Scalar.cmpi .slt v692 c0_i32_443
  let c0_i32_444 : BitVec 32 := 0#32
  let v695 : BitVec 1 := Scalar.cmpi .slt v691 c0_i32_444
  let v696 : BitVec 1 := Scalar.xori v694 v695
  let c0_i32_442 : BitVec 32 := 0#32
  let v693 : BitVec 1 := Scalar.cmpi .ne v692 c0_i32_442
  let v697 : BitVec 1 := Scalar.andi v696 v693
  let v698 : BitVec 32 := Scalar.addi v692 v691
  let v699 : BitVec 32 := Scalar.select v697 v698 v692
  let c1_i32_446 : BitVec 32 := 1#32
  let v700 : BitVec 32 := Scalar.muli v699 c1_i32_446
  let v701 : BitVec 32 := Scalar.addi c0_i32_447 v700
  v701.toNat
def k0_dev46 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_450 : BitVec 32 := 15#32
  let v710 : BitVec 32 := Scalar.addi v2 c15_i32_450
  let c32_i32_451 : BitVec 32 := 32#32
  let c0_i32_452 : BitVec 32 := 0#32
  let v711 : BitVec 1 := Scalar.cmpi .eq c32_i32_451 c0_i32_452
  let c1_i32_453 : BitVec 32 := 1#32
  let v712 : BitVec 32 := Scalar.select v711 c1_i32_453 c32_i32_451
  let v713 : BitVec 32 := Scalar.remsi v710 v712
  let c0_i32_455 : BitVec 32 := 0#32
  let v715 : BitVec 1 := Scalar.cmpi .slt v713 c0_i32_455
  let c0_i32_456 : BitVec 32 := 0#32
  let v716 : BitVec 1 := Scalar.cmpi .slt v712 c0_i32_456
  let v717 : BitVec 1 := Scalar.xori v715 v716
  let c0_i32_454 : BitVec 32 := 0#32
  let v714 : BitVec 1 := Scalar.cmpi .ne v713 c0_i32_454
  let v718 : BitVec 1 := Scalar.andi v717 v714
  let v719 : BitVec 32 := Scalar.addi v713 v712
  let v720 : BitVec 32 := Scalar.select v718 v719 v713
  let c1_i32_458 : BitVec 32 := 1#32
  let v721 : BitVec 32 := Scalar.muli v720 c1_i32_458
  let v722 : BitVec 32 := Scalar.addi c0_i32_459 v721
  v722.toNat
def k0_dev47 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_462 : BitVec 32 := 16#32
  let v731 : BitVec 32 := Scalar.addi v2 c16_i32_462
  let c32_i32_463 : BitVec 32 := 32#32
  let c0_i32_464 : BitVec 32 := 0#32
  let v732 : BitVec 1 := Scalar.cmpi .eq c32_i32_463 c0_i32_464
  let c1_i32_465 : BitVec 32 := 1#32
  let v733 : BitVec 32 := Scalar.select v732 c1_i32_465 c32_i32_463
  let v734 : BitVec 32 := Scalar.remsi v731 v733
  let c0_i32_467 : BitVec 32 := 0#32
  let v736 : BitVec 1 := Scalar.cmpi .slt v734 c0_i32_467
  let c0_i32_468 : BitVec 32 := 0#32
  let v737 : BitVec 1 := Scalar.cmpi .slt v733 c0_i32_468
  let v738 : BitVec 1 := Scalar.xori v736 v737
  let c0_i32_466 : BitVec 32 := 0#32
  let v735 : BitVec 1 := Scalar.cmpi .ne v734 c0_i32_466
  let v739 : BitVec 1 := Scalar.andi v738 v735
  let v740 : BitVec 32 := Scalar.addi v734 v733
  let v741 : BitVec 32 := Scalar.select v739 v740 v734
  let c1_i32_470 : BitVec 32 := 1#32
  let v742 : BitVec 32 := Scalar.muli v741 c1_i32_470
  let v743 : BitVec 32 := Scalar.addi c0_i32_471 v742
  v743.toNat
def k0_dev48 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_474 : BitVec 32 := 17#32
  let v752 : BitVec 32 := Scalar.addi v2 c17_i32_474
  let c32_i32_475 : BitVec 32 := 32#32
  let c0_i32_476 : BitVec 32 := 0#32
  let v753 : BitVec 1 := Scalar.cmpi .eq c32_i32_475 c0_i32_476
  let c1_i32_477 : BitVec 32 := 1#32
  let v754 : BitVec 32 := Scalar.select v753 c1_i32_477 c32_i32_475
  let v755 : BitVec 32 := Scalar.remsi v752 v754
  let c0_i32_479 : BitVec 32 := 0#32
  let v757 : BitVec 1 := Scalar.cmpi .slt v755 c0_i32_479
  let c0_i32_480 : BitVec 32 := 0#32
  let v758 : BitVec 1 := Scalar.cmpi .slt v754 c0_i32_480
  let v759 : BitVec 1 := Scalar.xori v757 v758
  let c0_i32_478 : BitVec 32 := 0#32
  let v756 : BitVec 1 := Scalar.cmpi .ne v755 c0_i32_478
  let v760 : BitVec 1 := Scalar.andi v759 v756
  let v761 : BitVec 32 := Scalar.addi v755 v754
  let v762 : BitVec 32 := Scalar.select v760 v761 v755
  let c1_i32_482 : BitVec 32 := 1#32
  let v763 : BitVec 32 := Scalar.muli v762 c1_i32_482
  let v764 : BitVec 32 := Scalar.addi c0_i32_483 v763
  v764.toNat
def k0_dev49 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_486 : BitVec 32 := 18#32
  let v773 : BitVec 32 := Scalar.addi v2 c18_i32_486
  let c32_i32_487 : BitVec 32 := 32#32
  let c0_i32_488 : BitVec 32 := 0#32
  let v774 : BitVec 1 := Scalar.cmpi .eq c32_i32_487 c0_i32_488
  let c1_i32_489 : BitVec 32 := 1#32
  let v775 : BitVec 32 := Scalar.select v774 c1_i32_489 c32_i32_487
  let v776 : BitVec 32 := Scalar.remsi v773 v775
  let c0_i32_491 : BitVec 32 := 0#32
  let v778 : BitVec 1 := Scalar.cmpi .slt v776 c0_i32_491
  let c0_i32_492 : BitVec 32 := 0#32
  let v779 : BitVec 1 := Scalar.cmpi .slt v775 c0_i32_492
  let v780 : BitVec 1 := Scalar.xori v778 v779
  let c0_i32_490 : BitVec 32 := 0#32
  let v777 : BitVec 1 := Scalar.cmpi .ne v776 c0_i32_490
  let v781 : BitVec 1 := Scalar.andi v780 v777
  let v782 : BitVec 32 := Scalar.addi v776 v775
  let v783 : BitVec 32 := Scalar.select v781 v782 v776
  let c1_i32_494 : BitVec 32 := 1#32
  let v784 : BitVec 32 := Scalar.muli v783 c1_i32_494
  let v785 : BitVec 32 := Scalar.addi c0_i32_495 v784
  v785.toNat
def k0_dev50 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_498 : BitVec 32 := 19#32
  let v794 : BitVec 32 := Scalar.addi v2 c19_i32_498
  let c32_i32_499 : BitVec 32 := 32#32
  let c0_i32_500 : BitVec 32 := 0#32
  let v795 : BitVec 1 := Scalar.cmpi .eq c32_i32_499 c0_i32_500
  let c1_i32_501 : BitVec 32 := 1#32
  let v796 : BitVec 32 := Scalar.select v795 c1_i32_501 c32_i32_499
  let v797 : BitVec 32 := Scalar.remsi v794 v796
  let c0_i32_503 : BitVec 32 := 0#32
  let v799 : BitVec 1 := Scalar.cmpi .slt v797 c0_i32_503
  let c0_i32_504 : BitVec 32 := 0#32
  let v800 : BitVec 1 := Scalar.cmpi .slt v796 c0_i32_504
  let v801 : BitVec 1 := Scalar.xori v799 v800
  let c0_i32_502 : BitVec 32 := 0#32
  let v798 : BitVec 1 := Scalar.cmpi .ne v797 c0_i32_502
  let v802 : BitVec 1 := Scalar.andi v801 v798
  let v803 : BitVec 32 := Scalar.addi v797 v796
  let v804 : BitVec 32 := Scalar.select v802 v803 v797
  let c1_i32_506 : BitVec 32 := 1#32
  let v805 : BitVec 32 := Scalar.muli v804 c1_i32_506
  let v806 : BitVec 32 := Scalar.addi c0_i32_507 v805
  v806.toNat
def k0_dev51 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_510 : BitVec 32 := 20#32
  let v815 : BitVec 32 := Scalar.addi v2 c20_i32_510
  let c32_i32_511 : BitVec 32 := 32#32
  let c0_i32_512 : BitVec 32 := 0#32
  let v816 : BitVec 1 := Scalar.cmpi .eq c32_i32_511 c0_i32_512
  let c1_i32_513 : BitVec 32 := 1#32
  let v817 : BitVec 32 := Scalar.select v816 c1_i32_513 c32_i32_511
  let v818 : BitVec 32 := Scalar.remsi v815 v817
  let c0_i32_515 : BitVec 32 := 0#32
  let v820 : BitVec 1 := Scalar.cmpi .slt v818 c0_i32_515
  let c0_i32_516 : BitVec 32 := 0#32
  let v821 : BitVec 1 := Scalar.cmpi .slt v817 c0_i32_516
  let v822 : BitVec 1 := Scalar.xori v820 v821
  let c0_i32_514 : BitVec 32 := 0#32
  let v819 : BitVec 1 := Scalar.cmpi .ne v818 c0_i32_514
  let v823 : BitVec 1 := Scalar.andi v822 v819
  let v824 : BitVec 32 := Scalar.addi v818 v817
  let v825 : BitVec 32 := Scalar.select v823 v824 v818
  let c1_i32_518 : BitVec 32 := 1#32
  let v826 : BitVec 32 := Scalar.muli v825 c1_i32_518
  let v827 : BitVec 32 := Scalar.addi c0_i32_519 v826
  v827.toNat
def k0_dev52 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_522 : BitVec 32 := 21#32
  let v836 : BitVec 32 := Scalar.addi v2 c21_i32_522
  let c32_i32_523 : BitVec 32 := 32#32
  let c0_i32_524 : BitVec 32 := 0#32
  let v837 : BitVec 1 := Scalar.cmpi .eq c32_i32_523 c0_i32_524
  let c1_i32_525 : BitVec 32 := 1#32
  let v838 : BitVec 32 := Scalar.select v837 c1_i32_525 c32_i32_523
  let v839 : BitVec 32 := Scalar.remsi v836 v838
  let c0_i32_527 : BitVec 32 := 0#32
  let v841 : BitVec 1 := Scalar.cmpi .slt v839 c0_i32_527
  let c0_i32_528 : BitVec 32 := 0#32
  let v842 : BitVec 1 := Scalar.cmpi .slt v838 c0_i32_528
  let v843 : BitVec 1 := Scalar.xori v841 v842
  let c0_i32_526 : BitVec 32 := 0#32
  let v840 : BitVec 1 := Scalar.cmpi .ne v839 c0_i32_526
  let v844 : BitVec 1 := Scalar.andi v843 v840
  let v845 : BitVec 32 := Scalar.addi v839 v838
  let v846 : BitVec 32 := Scalar.select v844 v845 v839
  let c1_i32_530 : BitVec 32 := 1#32
  let v847 : BitVec 32 := Scalar.muli v846 c1_i32_530
  let v848 : BitVec 32 := Scalar.addi c0_i32_531 v847
  v848.toNat
def k0_dev53 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_534 : BitVec 32 := 22#32
  let v857 : BitVec 32 := Scalar.addi v2 c22_i32_534
  let c32_i32_535 : BitVec 32 := 32#32
  let c0_i32_536 : BitVec 32 := 0#32
  let v858 : BitVec 1 := Scalar.cmpi .eq c32_i32_535 c0_i32_536
  let c1_i32_537 : BitVec 32 := 1#32
  let v859 : BitVec 32 := Scalar.select v858 c1_i32_537 c32_i32_535
  let v860 : BitVec 32 := Scalar.remsi v857 v859
  let c0_i32_539 : BitVec 32 := 0#32
  let v862 : BitVec 1 := Scalar.cmpi .slt v860 c0_i32_539
  let c0_i32_540 : BitVec 32 := 0#32
  let v863 : BitVec 1 := Scalar.cmpi .slt v859 c0_i32_540
  let v864 : BitVec 1 := Scalar.xori v862 v863
  let c0_i32_538 : BitVec 32 := 0#32
  let v861 : BitVec 1 := Scalar.cmpi .ne v860 c0_i32_538
  let v865 : BitVec 1 := Scalar.andi v864 v861
  let v866 : BitVec 32 := Scalar.addi v860 v859
  let v867 : BitVec 32 := Scalar.select v865 v866 v860
  let c1_i32_542 : BitVec 32 := 1#32
  let v868 : BitVec 32 := Scalar.muli v867 c1_i32_542
  let v869 : BitVec 32 := Scalar.addi c0_i32_543 v868
  v869.toNat
def k0_dev54 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_546 : BitVec 32 := 23#32
  let v878 : BitVec 32 := Scalar.addi v2 c23_i32_546
  let c32_i32_547 : BitVec 32 := 32#32
  let c0_i32_548 : BitVec 32 := 0#32
  let v879 : BitVec 1 := Scalar.cmpi .eq c32_i32_547 c0_i32_548
  let c1_i32_549 : BitVec 32 := 1#32
  let v880 : BitVec 32 := Scalar.select v879 c1_i32_549 c32_i32_547
  let v881 : BitVec 32 := Scalar.remsi v878 v880
  let c0_i32_551 : BitVec 32 := 0#32
  let v883 : BitVec 1 := Scalar.cmpi .slt v881 c0_i32_551
  let c0_i32_552 : BitVec 32 := 0#32
  let v884 : BitVec 1 := Scalar.cmpi .slt v880 c0_i32_552
  let v885 : BitVec 1 := Scalar.xori v883 v884
  let c0_i32_550 : BitVec 32 := 0#32
  let v882 : BitVec 1 := Scalar.cmpi .ne v881 c0_i32_550
  let v886 : BitVec 1 := Scalar.andi v885 v882
  let v887 : BitVec 32 := Scalar.addi v881 v880
  let v888 : BitVec 32 := Scalar.select v886 v887 v881
  let c1_i32_554 : BitVec 32 := 1#32
  let v889 : BitVec 32 := Scalar.muli v888 c1_i32_554
  let v890 : BitVec 32 := Scalar.addi c0_i32_555 v889
  v890.toNat
def k0_dev55 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_558 : BitVec 32 := 24#32
  let v899 : BitVec 32 := Scalar.addi v2 c24_i32_558
  let c32_i32_559 : BitVec 32 := 32#32
  let c0_i32_560 : BitVec 32 := 0#32
  let v900 : BitVec 1 := Scalar.cmpi .eq c32_i32_559 c0_i32_560
  let c1_i32_561 : BitVec 32 := 1#32
  let v901 : BitVec 32 := Scalar.select v900 c1_i32_561 c32_i32_559
  let v902 : BitVec 32 := Scalar.remsi v899 v901
  let c0_i32_563 : BitVec 32 := 0#32
  let v904 : BitVec 1 := Scalar.cmpi .slt v902 c0_i32_563
  let c0_i32_564 : BitVec 32 := 0#32
  let v905 : BitVec 1 := Scalar.cmpi .slt v901 c0_i32_564
  let v906 : BitVec 1 := Scalar.xori v904 v905
  let c0_i32_562 : BitVec 32 := 0#32
  let v903 : BitVec 1 := Scalar.cmpi .ne v902 c0_i32_562
  let v907 : BitVec 1 := Scalar.andi v906 v903
  let v908 : BitVec 32 := Scalar.addi v902 v901
  let v909 : BitVec 32 := Scalar.select v907 v908 v902
  let c1_i32_566 : BitVec 32 := 1#32
  let v910 : BitVec 32 := Scalar.muli v909 c1_i32_566
  let v911 : BitVec 32 := Scalar.addi c0_i32_567 v910
  v911.toNat
def k0_dev56 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_570 : BitVec 32 := 25#32
  let v920 : BitVec 32 := Scalar.addi v2 c25_i32_570
  let c32_i32_571 : BitVec 32 := 32#32
  let c0_i32_572 : BitVec 32 := 0#32
  let v921 : BitVec 1 := Scalar.cmpi .eq c32_i32_571 c0_i32_572
  let c1_i32_573 : BitVec 32 := 1#32
  let v922 : BitVec 32 := Scalar.select v921 c1_i32_573 c32_i32_571
  let v923 : BitVec 32 := Scalar.remsi v920 v922
  let c0_i32_575 : BitVec 32 := 0#32
  let v925 : BitVec 1 := Scalar.cmpi .slt v923 c0_i32_575
  let c0_i32_576 : BitVec 32 := 0#32
  let v926 : BitVec 1 := Scalar.cmpi .slt v922 c0_i32_576
  let v927 : BitVec 1 := Scalar.xori v925 v926
  let c0_i32_574 : BitVec 32 := 0#32
  let v924 : BitVec 1 := Scalar.cmpi .ne v923 c0_i32_574
  let v928 : BitVec 1 := Scalar.andi v927 v924
  let v929 : BitVec 32 := Scalar.addi v923 v922
  let v930 : BitVec 32 := Scalar.select v928 v929 v923
  let c1_i32_578 : BitVec 32 := 1#32
  let v931 : BitVec 32 := Scalar.muli v930 c1_i32_578
  let v932 : BitVec 32 := Scalar.addi c0_i32_579 v931
  v932.toNat
def k0_dev57 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_582 : BitVec 32 := 26#32
  let v941 : BitVec 32 := Scalar.addi v2 c26_i32_582
  let c32_i32_583 : BitVec 32 := 32#32
  let c0_i32_584 : BitVec 32 := 0#32
  let v942 : BitVec 1 := Scalar.cmpi .eq c32_i32_583 c0_i32_584
  let c1_i32_585 : BitVec 32 := 1#32
  let v943 : BitVec 32 := Scalar.select v942 c1_i32_585 c32_i32_583
  let v944 : BitVec 32 := Scalar.remsi v941 v943
  let c0_i32_587 : BitVec 32 := 0#32
  let v946 : BitVec 1 := Scalar.cmpi .slt v944 c0_i32_587
  let c0_i32_588 : BitVec 32 := 0#32
  let v947 : BitVec 1 := Scalar.cmpi .slt v943 c0_i32_588
  let v948 : BitVec 1 := Scalar.xori v946 v947
  let c0_i32_586 : BitVec 32 := 0#32
  let v945 : BitVec 1 := Scalar.cmpi .ne v944 c0_i32_586
  let v949 : BitVec 1 := Scalar.andi v948 v945
  let v950 : BitVec 32 := Scalar.addi v944 v943
  let v951 : BitVec 32 := Scalar.select v949 v950 v944
  let c1_i32_590 : BitVec 32 := 1#32
  let v952 : BitVec 32 := Scalar.muli v951 c1_i32_590
  let v953 : BitVec 32 := Scalar.addi c0_i32_591 v952
  v953.toNat
def k0_dev58 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_594 : BitVec 32 := 27#32
  let v962 : BitVec 32 := Scalar.addi v2 c27_i32_594
  let c32_i32_595 : BitVec 32 := 32#32
  let c0_i32_596 : BitVec 32 := 0#32
  let v963 : BitVec 1 := Scalar.cmpi .eq c32_i32_595 c0_i32_596
  let c1_i32_597 : BitVec 32 := 1#32
  let v964 : BitVec 32 := Scalar.select v963 c1_i32_597 c32_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c1_i32_602 : BitVec 32 := 1#32
  let v973 : BitVec 32 := Scalar.muli v972 c1_i32_602
  let v974 : BitVec 32 := Scalar.addi c0_i32_603 v973
  v974.toNat
def k0_dev59 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_606 : BitVec 32 := 28#32
  let v983 : BitVec 32 := Scalar.addi v2 c28_i32_606
  let c32_i32_607 : BitVec 32 := 32#32
  let c0_i32_608 : BitVec 32 := 0#32
  let v984 : BitVec 1 := Scalar.cmpi .eq c32_i32_607 c0_i32_608
  let c1_i32_609 : BitVec 32 := 1#32
  let v985 : BitVec 32 := Scalar.select v984 c1_i32_609 c32_i32_607
  let v986 : BitVec 32 := Scalar.remsi v983 v985
  let c0_i32_611 : BitVec 32 := 0#32
  let v988 : BitVec 1 := Scalar.cmpi .slt v986 c0_i32_611
  let c0_i32_612 : BitVec 32 := 0#32
  let v989 : BitVec 1 := Scalar.cmpi .slt v985 c0_i32_612
  let v990 : BitVec 1 := Scalar.xori v988 v989
  let c0_i32_610 : BitVec 32 := 0#32
  let v987 : BitVec 1 := Scalar.cmpi .ne v986 c0_i32_610
  let v991 : BitVec 1 := Scalar.andi v990 v987
  let v992 : BitVec 32 := Scalar.addi v986 v985
  let v993 : BitVec 32 := Scalar.select v991 v992 v986
  let c1_i32_614 : BitVec 32 := 1#32
  let v994 : BitVec 32 := Scalar.muli v993 c1_i32_614
  let v995 : BitVec 32 := Scalar.addi c0_i32_615 v994
  v995.toNat
def k0_dev60 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_618 : BitVec 32 := 29#32
  let v1004 : BitVec 32 := Scalar.addi v2 c29_i32_618
  let c32_i32_619 : BitVec 32 := 32#32
  let c0_i32_620 : BitVec 32 := 0#32
  let v1005 : BitVec 1 := Scalar.cmpi .eq c32_i32_619 c0_i32_620
  let c1_i32_621 : BitVec 32 := 1#32
  let v1006 : BitVec 32 := Scalar.select v1005 c1_i32_621 c32_i32_619
  let v1007 : BitVec 32 := Scalar.remsi v1004 v1006
  let c0_i32_623 : BitVec 32 := 0#32
  let v1009 : BitVec 1 := Scalar.cmpi .slt v1007 c0_i32_623
  let c0_i32_624 : BitVec 32 := 0#32
  let v1010 : BitVec 1 := Scalar.cmpi .slt v1006 c0_i32_624
  let v1011 : BitVec 1 := Scalar.xori v1009 v1010
  let c0_i32_622 : BitVec 32 := 0#32
  let v1008 : BitVec 1 := Scalar.cmpi .ne v1007 c0_i32_622
  let v1012 : BitVec 1 := Scalar.andi v1011 v1008
  let v1013 : BitVec 32 := Scalar.addi v1007 v1006
  let v1014 : BitVec 32 := Scalar.select v1012 v1013 v1007
  let c1_i32_626 : BitVec 32 := 1#32
  let v1015 : BitVec 32 := Scalar.muli v1014 c1_i32_626
  let v1016 : BitVec 32 := Scalar.addi c0_i32_627 v1015
  v1016.toNat
def k0_dev61 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_630 : BitVec 32 := 30#32
  let v1025 : BitVec 32 := Scalar.addi v2 c30_i32_630
  let c32_i32_631 : BitVec 32 := 32#32
  let c0_i32_632 : BitVec 32 := 0#32
  let v1026 : BitVec 1 := Scalar.cmpi .eq c32_i32_631 c0_i32_632
  let c1_i32_633 : BitVec 32 := 1#32
  let v1027 : BitVec 32 := Scalar.select v1026 c1_i32_633 c32_i32_631
  let v1028 : BitVec 32 := Scalar.remsi v1025 v1027
  let c0_i32_635 : BitVec 32 := 0#32
  let v1030 : BitVec 1 := Scalar.cmpi .slt v1028 c0_i32_635
  let c0_i32_636 : BitVec 32 := 0#32
  let v1031 : BitVec 1 := Scalar.cmpi .slt v1027 c0_i32_636
  let v1032 : BitVec 1 := Scalar.xori v1030 v1031
  let c0_i32_634 : BitVec 32 := 0#32
  let v1029 : BitVec 1 := Scalar.cmpi .ne v1028 c0_i32_634
  let v1033 : BitVec 1 := Scalar.andi v1032 v1029
  let v1034 : BitVec 32 := Scalar.addi v1028 v1027
  let v1035 : BitVec 32 := Scalar.select v1033 v1034 v1028
  let c1_i32_638 : BitVec 32 := 1#32
  let v1036 : BitVec 32 := Scalar.muli v1035 c1_i32_638
  let v1037 : BitVec 32 := Scalar.addi c0_i32_639 v1036
  v1037.toNat
def k0_dev62 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_642 : BitVec 32 := 31#32
  let v1046 : BitVec 32 := Scalar.addi v2 c31_i32_642
  let c32_i32_643 : BitVec 32 := 32#32
  let c0_i32_644 : BitVec 32 := 0#32
  let v1047 : BitVec 1 := Scalar.cmpi .eq c32_i32_643 c0_i32_644
  let c1_i32_645 : BitVec 32 := 1#32
  let v1048 : BitVec 32 := Scalar.select v1047 c1_i32_645 c32_i32_643
  let v1049 : BitVec 32 := Scalar.remsi v1046 v1048
  let c0_i32_647 : BitVec 32 := 0#32
  let v1051 : BitVec 1 := Scalar.cmpi .slt v1049 c0_i32_647
  let c0_i32_648 : BitVec 32 := 0#32
  let v1052 : BitVec 1 := Scalar.cmpi .slt v1048 c0_i32_648
  let v1053 : BitVec 1 := Scalar.xori v1051 v1052
  let c0_i32_646 : BitVec 32 := 0#32
  let v1050 : BitVec 1 := Scalar.cmpi .ne v1049 c0_i32_646
  let v1054 : BitVec 1 := Scalar.andi v1053 v1050
  let v1055 : BitVec 32 := Scalar.addi v1049 v1048
  let v1056 : BitVec 32 := Scalar.select v1054 v1055 v1049
  let c1_i32_650 : BitVec 32 := 1#32
  let v1057 : BitVec 32 := Scalar.muli v1056 c1_i32_650
  let v1058 : BitVec 32 := Scalar.addi c0_i32_651 v1057
  v1058.toNat
def k0_off4 (d0 : Dev nD) (c1_i32_655 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1072 : BitVec 32 := Scalar.addi v2 c1_i32_655
  let c32_i32_656 : BitVec 32 := 32#32
  let c0_i32_657 : BitVec 32 := 0#32
  let v1073 : BitVec 1 := Scalar.cmpi .eq c32_i32_656 c0_i32_657
  let c1_i32_658 : BitVec 32 := 1#32
  let v1074 : BitVec 32 := Scalar.select v1073 c1_i32_658 c32_i32_656
  let v1075 : BitVec 32 := Scalar.remsi v1072 v1074
  let c0_i32_660 : BitVec 32 := 0#32
  let v1077 : BitVec 1 := Scalar.cmpi .slt v1075 c0_i32_660
  let c0_i32_661 : BitVec 32 := 0#32
  let v1078 : BitVec 1 := Scalar.cmpi .slt v1074 c0_i32_661
  let v1079 : BitVec 1 := Scalar.xori v1077 v1078
  let c0_i32_659 : BitVec 32 := 0#32
  let v1076 : BitVec 1 := Scalar.cmpi .ne v1075 c0_i32_659
  let v1080 : BitVec 1 := Scalar.andi v1079 v1076
  let v1081 : BitVec 32 := Scalar.addi v1075 v1074
  let v1082 : BitVec 32 := Scalar.select v1080 v1081 v1075
  ![v1082.toNat]
def k0_off5 (d0 : Dev nD) (c1_i32_655 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1072 : BitVec 32 := Scalar.addi v2 c1_i32_655
  let c32_i32_656 : BitVec 32 := 32#32
  let c0_i32_657 : BitVec 32 := 0#32
  let v1073 : BitVec 1 := Scalar.cmpi .eq c32_i32_656 c0_i32_657
  let c1_i32_658 : BitVec 32 := 1#32
  let v1074 : BitVec 32 := Scalar.select v1073 c1_i32_658 c32_i32_656
  let v1075 : BitVec 32 := Scalar.remsi v1072 v1074
  let c0_i32_660 : BitVec 32 := 0#32
  let v1077 : BitVec 1 := Scalar.cmpi .slt v1075 c0_i32_660
  let c0_i32_661 : BitVec 32 := 0#32
  let v1078 : BitVec 1 := Scalar.cmpi .slt v1074 c0_i32_661
  let v1079 : BitVec 1 := Scalar.xori v1077 v1078
  let c0_i32_659 : BitVec 32 := 0#32
  let v1076 : BitVec 1 := Scalar.cmpi .ne v1075 c0_i32_659
  let v1080 : BitVec 1 := Scalar.andi v1079 v1076
  let v1081 : BitVec 32 := Scalar.addi v1075 v1074
  let v1082 : BitVec 32 := Scalar.select v1080 v1081 v1075
  let c0_i32_665 : BitVec 32 := 0#32
  ![v1082.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S1x512 : S512.ShapeCasts S1x512
  h_S1x512 : 0 < S1x512.numel
  shapeCasts_S1x512_S1x512 : S1x512.ShapeCasts S1x512
  hamt_31 : (31#32 : BitVec 32).msb = false
  inb_S32_S1_1 : ∀ a, (![1] : Fin 1 → Nat) a + S1.size a ≤ S32.size a
  squeezes_S1_S_ : S1.Squeezes S_
  squeezes_S1x512_S512 : S1x512.Squeezes S512
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  inb_S32x512_S32x512_0_0 : ∀ a, (![0, 0] : Fin 2 → Nat) a + S32x512.size a ≤ S32x512.size a
  h_S32x512 : 0 < S32x512.numel
  reduces_S32x512_S512 : S32x512.Reduces [0] S512
  shapeCasts_S512_S512x1 : S512.ShapeCasts S512x1
  broadcasts_S512x1_S512x256 : S512x1.Broadcasts S512x256
  hcc0_scratch1 : 3 + S32.numel ≤ 67
  hcc0_scratch2 : 35 + S32.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x512.size a ≤ S32x512.size a
  k0_off2_inb : ∀ d0 : Dev nD, ∀ a, (k0_off2 d0) a + S1.size a ≤ S32.size a
  k0_off3_inb : ∀ d0 : Dev nD, ∀ a, (k0_off3 d0) a + S1x512.size a ≤ S32x512.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off4_inb : ∀ d0 : Dev nD, ∀ (r : Fin 31), ∀ a, (k0_off4 d0 (BitVec.ofNat 32 (1 + r.val))) a + S1.size a ≤ S32.size a
  k0_off5_inb : ∀ d0 : Dev nD, ∀ (r : Fin 31), ∀ a, (k0_off5 d0 (BitVec.ofNat 32 (1 + r.val))) a + S1x512.size a ≤ S32x512.size a
  hstage0_0 : ∀ j, (stage0_0 j).IsWhole
  hstage0_1 : ∀ j, (stage0_1 j).IsWhole
  hstage0_2 : ∀ j, (stage0_2 j).IsWhole

variable [Facts₀]

abbrev cc0_scratch1 : DmaSems sig S32 := SemArray.consecutive 3 S32 hcc0_scratch1
abbrev cc0_scratch2 : DmaSems sig S32 := SemArray.consecutive 35 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192 : Shape := ⟨1, ![8192]⟩
abbrev S_ : Shape := ⟨0, ![]⟩
abbrev S512 : Shape := ⟨1, ![512]⟩
abbrev S512x1 : Shape := ⟨2, ![512, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192, .f32⟩
  | .hbm, ⟨2, _⟩ => ⟨S512x8192, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x8192, .f32⟩
  | .hbm, ⟨14, _⟩ => ⟨S512x8192, .f32⟩
  | .hbm, ⟨15, _⟩ => ⟨S512x8192, .f32⟩
  | .hbm, ⟨16, _⟩ => ⟨S512x8192, .f32⟩
  | .hbm, ⟨17, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x8192_S512_d1 : S512x8192.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  bcast_S512x1_S512x8192_0_1 : S512x1.BroadcastsInDim S512x8192 (![0, 1] : Fin 2 → Fin S512x8192.rank)

variable [Facts₀]

class Facts : Prop extends Facts₀ where

variable [Facts]
-- ==== Proof.Kernel.Spec.lean ====
/-
  What every device of the mesh computes, as pure functions of the argument arrays.

  Device `s` holds a block `x_s` of 256 columns of `x` and the matching 256 entries `g_s` of `gamma`. Its partial
  row sums `part s r = ∑_j x_s[r, j]²` fill row `s` of a 32 × 512 table; once every device has sent its row to every
  other, all 32 devices hold the same table `comm`, and device `c` writes
  `(x_c[r, j] · g_c[j]) · rsqrt ((∑_s comm[s, r]) · 2⁻¹³ + ε)`.
-/
import proofs.«901006_g7700000000001007_dist_rmsnorm_colshard_i_m512_n256_v7x_i32_bf16_1_alg».proof.Proof.Gen.Kernel.Skeleton
import proofs.«901006_g7700000000001007_dist_rmsnorm_colshard_i_m512_n256_v7x_i32_bf16_1_alg».proof.Proof.Gen.Kernel.Launch
import Idealize.ShloMosaic.Lib.ValueIdx

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- Device `c`'s block of `x`, as the kernel's first window stages it. -/
def xin (c : Dev nD) : Vec F S512x256 .f32 :=
  (win0_0.blk t0_0).view.read (Elt F) (m ((c : Thread nD τ).loc main_arg0))

/-- Device `c`'s block of `gamma`, as the second window stages it. -/
def gin (c : Dev nD) : Vec F S256 .f32 :=
  (win0_1.blk t0_0).view.read (Elt F) (m ((c : Thread nD τ).loc main_arg1))

/-- Device `s`'s partial sums of squares, one per row of `x`, laid out as a 1 × 512 row. -/
def part (s : Dev nD) : FVec F S1x512 .f32 := k0_pay2 (xin m s)

/-- The gathered table: row `s` is device `s`'s partial sums. The same on every device. -/
def comm : Vec F S32x512 .f32 :=
  fun i => part m ⟨(i 0).val, ValueIdx.idx2_lt0 i⟩ (ValueIdx.ix2 (0 : Fin 1) (i 1))

/-- What device `c` leaves in its block of the result. -/
def outAt (c : Dev nD) : FVec F S512x256 .f32 :=
  k0_pay4 (k0_pay3 (k0_pay1 (xin m c)) (gin m c)) (comm m)

end Cert.Kernel.Hand

end
-- ==== Proof.Attr.lean ====
/-
  A rewrite set for the closed forms of the printed device chains.
-/
import Lean

/-- The closed forms of the kernel's printed device chains, as a rewrite set. -/
register_simp_attr dev_table
-- ==== Proof.Kernel.Mesh.lean ====
/-
  The mesh's arithmetic: the peer of device `c` at distance `j` round the 32 positions, and the closed forms of
  the kernel's printed device-id and offset chains (`(position + j) mod 32`, decided over the 32 devices).
-/
import proofs.«901006_g7700000000001007_dist_rmsnorm_colshard_i_m512_n256_v7x_i32_bf16_1_alg».proof.Proof.Gen.Kernel
import proofs.«901006_g7700000000001007_dist_rmsnorm_colshard_i_m512_n256_v7x_i32_bf16_1_alg».proof.Proof.Attr

set_option Elab.async false

namespace Cert.Kernel.Hand

open Idealize.ShloMosaic Idealize.SL.Sem
open Cert.Kernel Cert.Kernel.Gen

/-- The device `j` positions after `c` on the mesh's one axis, cyclically. -/
def pk (c : Dev nD) (j : ℕ) : Dev nD := ⟨(c.val + j) % 32, Nat.mod_lt _ (by decide)⟩

theorem pk_val (c : Dev nD) (j : ℕ) : (pk c j).val = (c.val + j) % 32 := rfl

/-- Going `j` on and then `32 - j` on comes back. -/
theorem pk_pk (c : Dev nD) (j : ℕ) (hj : j ≤ 32) : pk (pk c j) (32 - j) = c := by
  apply Fin.ext; simp only [pk_val]; have hc : c.val < 32 := c.isLt; omega

theorem pk_ne (c : Dev nD) (j : ℕ) (h1 : 1 ≤ j) (h2 : j ≤ 31) : pk c j ≠ c := by
  intro h; have := congrArg Fin.val h; simp only [pk_val] at this; have hc : c.val < 32 := c.isLt; omega

theorem pk_inj (c : Dev nD) {i j : ℕ} (hi : i < 32) (hj : j < 32) (h : pk c i = pk c j) : i = j := by
  have := congrArg Fin.val h; simp only [pk_val] at this; have hc : c.val < 32 := c.isLt; omega

/-- Every other device is a peer at exactly one distance `1 … 31`. -/
theorem exists_pk (c d : Dev nD) (h : d ≠ c) : ∃ j, 1 ≤ j ∧ j ≤ 31 ∧ pk c j = d := by
  refine ⟨(d.val + 32 - c.val) % 32, ?_, ?_, ?_⟩
  · have hc : c.val < 32 := c.isLt; have hd : d.val < 32 := d.isLt
    have : d.val ≠ c.val := fun e => h (Fin.ext e)
    omega
  · have hc : c.val < 32 := c.isLt; have hd : d.val < 32 := d.isLt; omega
  · apply Fin.ext; simp only [pk_val]; have hc : c.val < 32 := c.isLt; have hd : d.val < 32 := d.isLt; omega

/-! ## The printed offsets of the receive side -/

theorem off4_eq : ∀ (c : Dev nD) (r : Fin 31), k0_off4 c (BitVec.ofNat 32 (1 + r.val)) = ![(pk c (1 + r.val)).val] := by decide +kernel
theorem off5_eq : ∀ (c : Dev nD) (r : Fin 31), k0_off5 c (BitVec.ofNat 32 (1 + r.val)) = ![(pk c (1 + r.val)).val, 0] := by decide +kernel

end Cert.Kernel.Hand
-- ==== Proof.Kernel.MeshTable.lean ====
import proofs.«901006_g7700000000001007_dist_rmsnorm_colshard_i_m512_n256_v7x_i32_bf16_1_alg».proof.Proof.Kernel.Mesh

set_option Elab.async false

namespace Cert.Kernel.Hand

open Idealize.ShloMosaic Idealize.SL.Sem
open Cert.Kernel Cert.Kernel.Gen

@[dev_table] theorem dev1_eq (c : Dev nD) : (⟨k0_dev1 c, k0_dev1_lt c⟩ : Dev nD) = pk c 1 := by revert c; decide +kernel
@[dev_table] theorem dev2_eq (c : Dev nD) : (⟨k0_dev2 c, k0_dev2_lt c⟩ : Dev nD) = pk c 2 := by revert c; decide +kernel
@[dev_table] theorem dev3_eq (c : Dev nD) : (⟨k0_dev3 c, k0_dev3_lt c⟩ : Dev nD) = pk c 3 := by revert c; decide +kernel
@[dev_table] theorem dev4_eq (c : Dev nD) : (⟨k0_dev4 c, k0_dev4_lt c⟩ : Dev nD) = pk c 4 := by revert c; decide +kernel
@[dev_table] theorem dev5_eq (c : Dev nD) : (⟨k0_dev5 c, k0_dev5_lt c⟩ : Dev nD) = pk c 5 := by revert c; decide +kernel
@[dev_table] theorem dev6_eq (c : Dev nD) : (⟨k0_dev6 c, k0_dev6_lt c⟩ : Dev nD) = pk c 6 := by revert c; decide +kernel
@[dev_table] theorem dev7_eq (c : Dev nD) : (⟨k0_dev7 c, k0_dev7_lt c⟩ : Dev nD) = pk c 7 := by revert c; decide +kernel
@[dev_table] theorem dev8_eq (c : Dev nD) : (⟨k0_dev8 c, k0_dev8_lt c⟩ : Dev nD) = pk c 8 := by revert c; decide +kernel
@[dev_table] theorem dev9_eq (c : Dev nD) : (⟨k0_dev9 c, k0_dev9_lt c⟩ : Dev nD) = pk c 9 := by revert c; decide +kernel
@[dev_table] theorem dev10_eq (c : Dev nD) : (⟨k0_dev10 c, k0_dev10_lt c⟩ : Dev nD) = pk c 10 := by revert c; decide +kernel
@[dev_table] theorem dev11_eq (c : Dev nD) : (⟨k0_dev11 c, k0_dev11_lt c⟩ : Dev nD) = pk c 11 := by revert c; decide +kernel
@[dev_table] theorem dev12_eq (c : Dev nD) : (⟨k0_dev12 c, k0_dev12_lt c⟩ : Dev nD) = pk c 12 := by revert c; decide +kernel
@[dev_table] theorem dev13_eq (c : Dev nD) : (⟨k0_dev13 c, k0_dev13_lt c⟩ : Dev nD) = pk c 13 := by revert c; decide +kernel
@[dev_table] theorem dev14_eq (c : Dev nD) : (⟨k0_dev14 c, k0_dev14_lt c⟩ : Dev nD) = pk c 14 := by revert c; decide +kernel
@[dev_table] theorem dev15_eq (c : Dev nD) : (⟨k0_dev15 c, k0_dev15_lt c⟩ : Dev nD) = pk c 15 := by revert c; decide +kernel
@[dev_table] theorem dev16_eq (c : Dev nD) : (⟨k0_dev16 c, k0_dev16_lt c⟩ : Dev nD) = pk c 16 := by revert c; decide +kernel
@[dev_table] theorem dev17_eq (c : Dev nD) : (⟨k0_dev17 c, k0_dev17_lt c⟩ : Dev nD) = pk c 17 := by revert c; decide +kernel
@[dev_table] theorem dev18_eq (c : Dev nD) : (⟨k0_dev18 c, k0_dev18_lt c⟩ : Dev nD) = pk c 18 := by revert c; decide +kernel
@[dev_table] theorem dev19_eq (c : Dev nD) : (⟨k0_dev19 c, k0_dev19_lt c⟩ : Dev nD) = pk c 19 := by revert c; decide +kernel
@[dev_table] theorem dev20_eq (c : Dev nD) : (⟨k0_dev20 c, k0_dev20_lt c⟩ : Dev nD) = pk c 20 := by revert c; decide +kernel
@[dev_table] theorem dev21_eq (c : Dev nD) : (⟨k0_dev21 c, k0_dev21_lt c⟩ : Dev nD) = pk c 21 := by revert c; decide +kernel
@[dev_table] theorem dev22_eq (c : Dev nD) : (⟨k0_dev22 c, k0_dev22_lt c⟩ : Dev nD) = pk c 22 := by revert c; decide +kernel
@[dev_table] theorem dev23_eq (c : Dev nD) : (⟨k0_dev23 c, k0_dev23_lt c⟩ : Dev nD) = pk c 23 := by revert c; decide +kernel
@[dev_table] theorem dev24_eq (c : Dev nD) : (⟨k0_dev24 c, k0_dev24_lt c⟩ : Dev nD) = pk c 24 := by revert c; decide +kernel
@[dev_table] theorem dev25_eq (c : Dev nD) : (⟨k0_dev25 c, k0_dev25_lt c⟩ : Dev nD) = pk c 25 := by revert c; decide +kernel
@[dev_table] theorem dev26_eq (c : Dev nD) : (⟨k0_dev26 c, k0_dev26_lt c⟩ : Dev nD) = pk c 26 := by revert c; decide +kernel
@[dev_table] theorem dev27_eq (c : Dev nD) : (⟨k0_dev27 c, k0_dev27_lt c⟩ : Dev nD) = pk c 27 := by revert c; decide +kernel
@[dev_table] theorem dev28_eq (c : Dev nD) : (⟨k0_dev28 c, k0_dev28_lt c⟩ : Dev nD) = pk c 28 := by revert c; decide +kernel
@[dev_table] theorem dev29_eq (c : Dev nD) : (⟨k0_dev29 c, k0_dev29_lt c⟩ : Dev nD) = pk c 29 := by revert c; decide +kernel
@[dev_table] theorem dev30_eq (c : Dev nD) : (⟨k0_dev30 c, k0_dev30_lt c⟩ : Dev nD) = pk c 30 := by revert c; decide +kernel
@[dev_table] theorem dev31_eq (c : Dev nD) : (⟨k0_dev31 c, k0_dev31_lt c⟩ : Dev nD) = pk c 31 := by revert c; decide +kernel
@[dev_table] theorem dev32_eq (c : Dev nD) : (⟨k0_dev32 c, k0_dev32_lt c⟩ : Dev nD) = pk c 1 := by revert c; decide +kernel
@[dev_table] theorem dev33_eq (c : Dev nD) : (⟨k0_dev33 c, k0_dev33_lt c⟩ : Dev nD) = pk c 2 := by revert c; decide +kernel
@[dev_table] theorem dev34_eq (c : Dev nD) : (⟨k0_dev34 c, k0_dev34_lt c⟩ : Dev nD) = pk c 3 := by revert c; decide +kernel
@[dev_table] theorem dev35_eq (c : Dev nD) : (⟨k0_dev35 c, k0_dev35_lt c⟩ : Dev nD) = pk c 4 := by revert c; decide +kernel
@[dev_table] theorem dev36_eq (c : Dev nD) : (⟨k0_dev36 c, k0_dev36_lt c⟩ : Dev nD) = pk c 5 := by revert c; decide +kernel
@[dev_table] theorem dev37_eq (c : Dev nD) : (⟨k0_dev37 c, k0_dev37_lt c⟩ : Dev nD) = pk c 6 := by revert c; decide +kernel
@[dev_table] theorem dev38_eq (c : Dev nD) : (⟨k0_dev38 c, k0_dev38_lt c⟩ : Dev nD) = pk c 7 := by revert c; decide +kernel
@[dev_table] theorem dev39_eq (c : Dev nD) : (⟨k0_dev39 c, k0_dev39_lt c⟩ : Dev nD) = pk c 8 := by revert c; decide +kernel
@[dev_table] theorem dev40_eq (c : Dev nD) : (⟨k0_dev40 c, k0_dev40_lt c⟩ : Dev nD) = pk c 9 := by revert c; decide +kernel
@[dev_table] theorem dev41_eq (c : Dev nD) : (⟨k0_dev41 c, k0_dev41_lt c⟩ : Dev nD) = pk c 10 := by revert c; decide +kernel
@[dev_table] theorem dev42_eq (c : Dev nD) : (⟨k0_dev42 c, k0_dev42_lt c⟩ : Dev nD) = pk c 11 := by revert c; decide +kernel
@[dev_table] theorem dev43_eq (c : Dev nD) : (⟨k0_dev43 c, k0_dev43_lt c⟩ : Dev nD) = pk c 12 := by revert c; decide +kernel
@[dev_table] theorem dev44_eq (c : Dev nD) : (⟨k0_dev44 c, k0_dev44_lt c⟩ : Dev nD) = pk c 13 := by revert c; decide +kernel
@[dev_table] theorem dev45_eq (c : Dev nD) : (⟨k0_dev45 c, k0_dev45_lt c⟩ : Dev nD) = pk c 14 := by revert c; decide +kernel
@[dev_table] theorem dev46_eq (c : Dev nD) : (⟨k0_dev46 c, k0_dev46_lt c⟩ : Dev nD) = pk c 15 := by revert c; decide +kernel
@[dev_table] theorem dev47_eq (c : Dev nD) : (⟨k0_dev47 c, k0_dev47_lt c⟩ : Dev nD) = pk c 16 := by revert c; decide +kernel
@[dev_table] theorem dev48_eq (c : Dev nD) : (⟨k0_dev48 c, k0_dev48_lt c⟩ : Dev nD) = pk c 17 := by revert c; decide +kernel
@[dev_table] theorem dev49_eq (c : Dev nD) : (⟨k0_dev49 c, k0_dev49_lt c⟩ : Dev nD) = pk c 18 := by revert c; decide +kernel
@[dev_table] theorem dev50_eq (c : Dev nD) : (⟨k0_dev50 c, k0_dev50_lt c⟩ : Dev nD) = pk c 19 := by revert c; decide +kernel
@[dev_table] theorem dev51_eq (c : Dev nD) : (⟨k0_dev51 c, k0_dev51_lt c⟩ : Dev nD) = pk c 20 := by revert c; decide +kernel
@[dev_table] theorem dev52_eq (c : Dev nD) : (⟨k0_dev52 c, k0_dev52_lt c⟩ : Dev nD) = pk c 21 := by revert c; decide +kernel
@[dev_table] theorem dev53_eq (c : Dev nD) : (⟨k0_dev53 c, k0_dev53_lt c⟩ : Dev nD) = pk c 22 := by revert c; decide +kernel
@[dev_table] theorem dev54_eq (c : Dev nD) : (⟨k0_dev54 c, k0_dev54_lt c⟩ : Dev nD) = pk c 23 := by revert c; decide +kernel
@[dev_table] theorem dev55_eq (c : Dev nD) : (⟨k0_dev55 c, k0_dev55_lt c⟩ : Dev nD) = pk c 24 := by revert c; decide +kernel
@[dev_table] theorem dev56_eq (c : Dev nD) : (⟨k0_dev56 c, k0_dev56_lt c⟩ : Dev nD) = pk c 25 := by revert c; decide +kernel
@[dev_table] theorem dev57_eq (c : Dev nD) : (⟨k0_dev57 c, k0_dev57_lt c⟩ : Dev nD) = pk c 26 := by revert c; decide +kernel
@[dev_table] theorem dev58_eq (c : Dev nD) : (⟨k0_dev58 c, k0_dev58_lt c⟩ : Dev nD) = pk c 27 := by revert c; decide +kernel
@[dev_table] theorem dev59_eq (c : Dev nD) : (⟨k0_dev59 c, k0_dev59_lt c⟩ : Dev nD) = pk c 28 := by revert c; decide +kernel
@[dev_table] theorem dev60_eq (c : Dev nD) : (⟨k0_dev60 c, k0_dev60_lt c⟩ : Dev nD) = pk c 29 := by revert c; decide +kernel
@[dev_table] theorem dev61_eq (c : Dev nD) : (⟨k0_dev61 c, k0_dev61_lt c⟩ : Dev nD) = pk c 30 := by revert c; decide +kernel
@[dev_table] theorem dev62_eq (c : Dev nD) : (⟨k0_dev62 c, k0_dev62_lt c⟩ : Dev nD) = pk c 31 := by revert c; decide +kernel

end Cert.Kernel.Hand
-- ==== Proof.Kernel.Cells.lean ====
/-
  The semaphores, the cells and the rows of the gathered table.

  Every device owns a 32 × 512 table; row `s` of it is written by device `s` alone: by a store on device `s`
  itself, by device `s`'s transfer on every other device. A device hands each peer the peer's row of its table
  with its entry signal, lends a share of its own row to each of its 31 transfers, and gets the other 31 rows
  back, filled, at its receive waits.
-/
import proofs.«901006_g7700000000001007_dist_rmsnorm_colshard_i_m512_n256_v7x_i32_bf16_1_alg».proof.Proof.Kernel.Spec
import proofs.«901006_g7700000000001007_dist_rmsnorm_colshard_i_m512_n256_v7x_i32_bf16_1_alg».proof.Proof.Kernel.MeshTable
import Idealize.ShloMosaic.Lib.Pipeline.Launch
import Idealize.ShloMosaic.Lib.Pipeline.Kit
import Idealize.ShloMosaic.Lib.Ring
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the collective's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Semaphores and cells -/

/-- The entry semaphore: the one regular semaphore, shared by every launch with this collective id. -/
abbrev barS : Sem sig := (SemArray.scalar (sig.barrier 0 rfl) : Sems sig S_).sem

theorem inb_send (k : ℕ) (hk : k < 32) : ∀ a, (![k] : Fin 1 → Nat) a + S1.size a ≤ S32.size a := by
  intro a
  have ha : a = 0 := Subsingleton.elim _ _
  subst ha
  show k + 1 ≤ 32
  omega

/-- Send semaphore `k`, as the body slices it out of its array of 32. -/
abbrev sendSem (k : ℕ) (hk : k < 32) : DmaSem sig :=
  ((cc0_scratch1.slice (Rect.unit (s := S32) ![k] S1.size (inb_send k hk))).squeeze S_ squeezes_S1_S_).sem

/-- The receive semaphore a device's own transfers credit on their targets: the one at the device's position. -/
abbrev recvOwn (c : Dev nD) : DmaSem sig :=
  ((cc0_scratch2.slice (Rect.unit (s := S32) (k0_off2 c) S1.size (k0_off2_inb c))).squeeze S_ squeezes_S1_S_).sem

/-- The receive semaphore device `c` waits on for the peer at distance `1 + r`. -/
abbrev recvAt (c : Dev nD) (r : Fin 31) : DmaSem sig :=
  ((cc0_scratch2.slice (Rect.unit (s := S32) (k0_off4 c (BitVec.ofNat 32 (1 + r.val))) S1.size (k0_off4_inb c r))).squeeze S_ squeezes_S1_S_).sem

/-- The semaphores by position in the pool of 67: three for the staged windows, then 32 send, then 32 receive. -/
abbrev sendQ (k : Fin 32) : DmaSem sig := ⟨3 + k.val, by have := k.isLt; change 3 + k.val < 67; omega⟩
abbrev recvQ (s : Dev nD) : DmaSem sig := ⟨35 + s.val, by have hs : s.val < 32 := s.isLt; change 35 + s.val < 67; omega⟩

theorem sendSem_eq : ∀ k : Fin 32, sendSem k.val k.isLt = sendQ k := by decide +kernel
theorem recvOwn_eq : ∀ c : Dev nD, recvOwn c = recvQ c := by decide +kernel
theorem recvAt_eq : ∀ (c : Dev nD) (r : Fin 31), recvAt c r = recvQ (pk c (1 + r.val)) := by decide +kernel

abbrev barCell (c : Dev nD) : GSem nD τ sig := ((c : Thread nD τ), .reg barS)
abbrev sndCell (c : Dev nD) (k : Fin 32) : GSem nD τ sig := ((c : Thread nD τ), .dma (sendQ k))
abbrev rcvCell (c s : Dev nD) : GSem nD τ sig := ((c : Thread nD τ), .dma (recvQ s))

/-! ## The table and its rows -/

abbrev cM : Memref sig .tc .vmem S32x512 .f32 := Memref.whole cc0_scratch0

/-- Row `s` of the table as the body names it: the slice at the printed offset, squeezed to a vector of 512. -/
abbrev rowM (s : Dev nD) : Memref sig .tc .vmem S512 .f32 :=
  (cM.slice (Rect.unit (s := S32x512) (k0_off3 s) S1x512.size (k0_off3_inb s)) (fun _ => rfl)).squeeze S512 squeezes_S1x512_S512

/-- The row a receive wait names: the peer's, at the offset computed from the distance. -/
abbrev rowAtM (c : Dev nD) (r : Fin 31) : Memref sig .tc .vmem S512 .f32 :=
  (cM.slice (Rect.unit (s := S32x512) (k0_off5 c (BitVec.ofNat 32 (1 + r.val))) S1x512.size (k0_off5_inb c r)) (fun _ => rfl)).squeeze S512 squeezes_S1x512_S512

theorem off3_pk (c : Dev nD) (r : Fin 31) : k0_off5 c (BitVec.ofNat 32 (1 + r.val)) = k0_off3 (pk c (1 + r.val)) := by
  rw [off5_eq, k0_off3_eq]

theorem rowAtM_eq (c : Dev nD) (r : Fin 31) : rowAtM c r = rowM (pk c (1 + r.val)) := by
  unfold rowAtM rowM
  rw [Memref.slice_unit_congr cM (off3_pk c r) (k0_off5_inb c r) (k0_off3_inb (pk c (1 + r.val))) (fun _ => rfl) (fun _ => rfl)]

/-- The table on device `d`. -/
abbrev tloc (d : Dev nD) : Loc nD τ sig := (d : Thread nD τ).loc cc0_scratch0

/-- The credit of one row's transfer. -/
abbrev N : ℕ := (rowM (0 : Dev nD)).view.dmaCredit
theorem N_pos : 0 < N := View.dmaCredit_pos _ (by decide)

/-- The gathered table as the contents of device `d`'s buffer. -/
def commB (d : Dev nD) : Buf (Elt F) (tloc d) := comm m

/-- Row `s` of device `d`'s table held at share `q` with contents `f`. -/
def rowPts (q : PosShare TreeShare) (d s : Dev nD) (f : Buf (Elt F) ((rowM s).view.loc (d : Thread nD τ))) : sProp 𝕄 :=
  (rowM s).view.loc (d : Thread nD τ) ↦[(rowM s).view.set]{q} f

instance rowPts_storable (q : PosShare TreeShare) (d s : Dev nD) (f) : BI.Storable (upEmb : UEmb _ 𝕄) (rowPts (F := F) q d s f) := by
  unfold rowPts; infer_instance

/-- A row rewritten whole by what the same row of another table reads holds that table's row: what a landed
    transfer leaves agrees, on the row, with the source's contents. -/
theorem landed_row (s : Dev nD) (fd fs : (rowM s).view.ty.Contents (Elt F)) :
    ∀ i ∈ (rowM s).view.set, (rowM s).view.write (Elt F) fd ((rowM s).view.read (Elt F) fs) Finset.univ i = fs i := by
  intro i hi
  obtain ⟨x, -, rfl⟩ := Finset.mem_map.mp hi
  rw [View.write_emb_of_mem _ _ (Finset.mem_univ x), View.read_apply, cast_cast, cast_eq]

/-! ## Shares of a device's own row

The left half stays with the device (it reads its own row again while its transfers are in flight); the right half
is cut into 31 pieces, one lent to each transfer, by halving again and again. -/

def remShare : ℕ → PosShare TreeShare
  | 0 => fullShare.right
  | n + 1 => (remShare n).right

/-- The share lent to transfer `n + 1`. -/
def piece (n : ℕ) : PosShare TreeShare := (remShare n).left

theorem remShare_split (n : ℕ) : remShare n ∈ PCS.op (piece n) (remShare (n + 1)) := PosShare.mem_left_op_right (remShare n)

end Cert.Kernel.Hand

end
-- ==== Proof.Kernel.Sched.lean ====
/-
  The schedule of the collective, one round per cell.

  Device `c`'s entry cell has 31 duties of one unit, one per peer `d`: `d`'s signal hands `c` row `c` of `d`'s
  table, which `c`'s transfer to `d` will fill. Its send cell `k` has one duty, the row's credit, paid when transfer `k`
  has read `c`'s own row: the lent share of that row comes back. Its receive cell `s` has one duty, paid when device
  `s`'s transfer has landed: row `s` of `c`'s table, holding device `s`'s partial sums. What a device owes at launch,
  and in which order it pays, is counted here too; a wait is only ever for a cell below everything still owed
  (staging below entry cells below receive cells).
-/
import proofs.«901006_g7700000000001007_dist_rmsnorm_colshard_i_m512_n256_v7x_i32_bf16_1_alg».proof.Proof.Kernel.Cells

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule -/

/-- The device whose row a receive semaphore stands for. -/
def srcOf (q : DmaSem sig) : Dev nD := ⟨(q.val - 35) % 32, Nat.mod_lt _ (by decide)⟩

theorem srcOf_recvQ (s : Dev nD) : srcOf (recvQ s) = s :=
  Fin.ext (by show (35 + s.val - 35) % 32 = s.val; have hs : s.val < 32 := s.isLt; omega)

/-- Who pays a cell of device `c`: every peer the entry cell; `c` itself a send cell in use (1 … 31); the source
    a receive cell other than `c`'s own. -/
def dutiesOf (c : Dev nD) : SemLoc sig → Finset (Dev nD)
  | .reg _ => Finset.univ.erase c
  | .dma q => if 3 < q.val ∧ q.val < 35 then {c} else if 35 ≤ q.val ∧ srcOf q ≠ c then {srcOf q} else ∅

/-- What a duty hands the owner `c`. -/
def payOf (c : Dev nD) : SemLoc sig → Dev nD → sProp 𝕄
  | .reg _, d => iprop(∃ f, rowPts fullShare d c f)
  | .dma q, _ => if q.val < 35 then rowPts (piece (q.val - 4)) c c (commB m c) else rowPts fullShare c (srcOf q) (commB m c)

def ringRd : Rounds.Schedule (GSem nD τ sig) (Dev nD) 𝕄 where
  duties g r := if r = 0 ∧ g.1.2 = .tc then dutiesOf g.1.1 g.2 else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

instance ringRd_payload_storable (g : GSem nD τ sig) (r : ℕ) (d : Dev nD) :
    BI.Storable (upEmb : UEmb _ 𝕄) ((ringRd (F := F) m).payload g r d) := by
  show BI.Storable upEmb (payOf m g.1.1 g.2 d)
  unfold payOf
  (repeat' split) <;> infer_instance

section Sched
variable (c : Dev nD)

theorem snd_ne_bar (k : Fin 32) : (SemLoc.dma (sendQ k) : SemLoc sig) ≠ .reg barS := fun h => by cases h
theorem rcv_ne_bar (s : Dev nD) : (SemLoc.dma (recvQ s) : SemLoc sig) ≠ .reg barS := fun h => by cases h

theorem duties_bar : (ringRd (F := F) m).duties (barCell c) 0 = Finset.univ.erase c := by
  dsimp only [ringRd]; exact if_pos ⟨rfl, rfl⟩
theorem duties_snd (k : Fin 32) (hk : 1 ≤ k.val) : (ringRd (F := F) m).duties (sndCell c k) 0 = {c} := by
  dsimp only [ringRd]; rw [if_pos ⟨rfl, rfl⟩]
  show (if 3 < 3 + k.val ∧ 3 + k.val < 35 then ({c} : Finset (Dev nD)) else _) = {c}
  rw [if_pos ⟨by omega, by have := k.isLt; omega⟩]
theorem duties_rcv (s : Dev nD) (hs : s ≠ c) : (ringRd (F := F) m).duties (rcvCell c s) 0 = {s} := by
  dsimp only [ringRd]; rw [if_pos ⟨rfl, rfl⟩]
  show (if 3 < 35 + s.val ∧ 35 + s.val < 35 then ({c} : Finset (Dev nD)) else
    if 35 ≤ 35 + s.val ∧ srcOf (recvQ s) ≠ c then {srcOf (recvQ s)} else ∅) = {s}
  rw [if_neg (by omega), srcOf_recvQ, if_pos ⟨by omega, hs⟩]
theorem duties_later (g : GSem nD τ sig) : ∀ r, 1 ≤ r → (ringRd (F := F) m).duties g r = ∅ :=
  fun r hr => by dsimp only [ringRd]; rw [if_neg fun h => by omega]

theorem amount_bar (d : Dev nD) : (ringRd (F := F) m).amount (barCell c) 0 d = 1 := by dsimp only [ringRd]; exact if_pos rfl
theorem amount_snd (k : Fin 32) (d : Dev nD) : (ringRd (F := F) m).amount (sndCell c k) 0 d = N := by
  dsimp only [ringRd]; exact if_neg (snd_ne_bar k)
theorem amount_rcv (s d : Dev nD) : (ringRd (F := F) m).amount (rcvCell c s) 0 d = N := by
  dsimp only [ringRd]; exact if_neg (rcv_ne_bar s)

theorem expect_bar : (ringRd (F := F) m).expect (barCell c) 0 = 31 := by
  unfold Schedule.expect Schedule.amountOf
  rw [duties_bar, Finset.sum_congr rfl fun d _ => amount_bar m c d, Finset.sum_const, Finset.card_erase_of_mem (Finset.mem_univ c),
    Finset.card_univ, Fintype.card_fin, smul_eq_mul]
  all_goals (first | rfl | decide)
theorem expect_snd (k : Fin 32) (hk : 1 ≤ k.val) : (ringRd (F := F) m).expect (sndCell c k) 0 = N := by
  unfold Schedule.expect Schedule.amountOf; rw [duties_snd m c k hk, Finset.sum_singleton, amount_snd]
theorem expect_rcv (s : Dev nD) (hs : s ≠ c) : (ringRd (F := F) m).expect (rcvCell c s) 0 = N := by
  unfold Schedule.expect Schedule.amountOf; rw [duties_rcv m c s hs, Finset.sum_singleton, amount_rcv]

theorem payload_bar (d : Dev nD) : (ringRd (F := F) m).payload (barCell c) 0 d = iprop(∃ f, rowPts fullShare d c f) := rfl
theorem payload_snd (k : Fin 32) (hk : 1 ≤ k.val) (d : Dev nD) :
    (ringRd (F := F) m).payload (sndCell c k) 0 d = rowPts (piece (k.val - 1)) c c (commB m c) := by
  show (if 3 + k.val < 35 then rowPts (piece (3 + k.val - 4)) c c (commB m c) else _) = _
  rw [if_pos (by have := k.isLt; omega), show 3 + k.val - 4 = k.val - 1 by omega]
theorem payload_rcv (s d : Dev nD) : (ringRd (F := F) m).payload (rcvCell c s) 0 d = rowPts fullShare c s (commB m c) := by
  show (if 35 + s.val < 35 then _ else rowPts fullShare c (srcOf (recvQ s)) (commB m c)) = _
  rw [if_neg (by omega), srcOf_recvQ]

/-- The whole of a send cell's round: the lent share of the device's own row. -/
theorem rest_snd (k : Fin 32) (hk : 1 ≤ k.val) :
    bigSep ((ringRd (F := F) m).duties (sndCell c k) 0 \ ∅) (fun d => (ringRd (F := F) m).payload (sndCell c k) 0 d)
      = rowPts (piece (k.val - 1)) c c (commB m c) := by
  rw [Finset.sdiff_empty, duties_snd m c k hk, bigSep_singleton, payload_snd m c k hk]
/-- The whole of a receive cell's round: the source's row, filled. -/
theorem rest_rcv (s : Dev nD) (hs : s ≠ c) :
    bigSep ((ringRd (F := F) m).duties (rcvCell c s) 0 \ ∅) (fun d => (ringRd (F := F) m).payload (rcvCell c s) 0 d)
      = rowPts fullShare c s (commB m c) := by
  rw [Finset.sdiff_empty, duties_rcv m c s hs, bigSep_singleton, payload_rcv]
/-- The whole of the entry cell's round: from every peer, this device's row of the peer's table. -/
theorem rest_bar :
    bigSep ((ringRd (F := F) m).duties (barCell c) 0 \ ∅) (fun d => (ringRd (F := F) m).payload (barCell c) 0 d)
      = bigSep (Finset.univ.erase c) (fun d => iprop(∃ f, rowPts (F := F) fullShare d c f)) := by
  rw [Finset.sdiff_empty, duties_bar]; rfl

end Sched

/-! ## What a device owes, in the order it pays -/

/-- Owed with `n` transfers still to make: the receive credit of the peers at distance `32 - n … 31`. -/
def Osend (c : Dev nD) : ℕ → CellTallies nD τ sig Unit
  | 0 => 0
  | n + 1 => Osend c n + tallyAt (rcvCell (pk c (31 - n)) c) () N

/-- Owed with `n` entry signals still to send: those peers' entry units, and every transfer. -/
def Osig (c : Dev nD) : ℕ → CellTallies nD τ sig Unit
  | 0 => Osend c 31
  | n + 1 => Osig c n + tallyAt (barCell (pk c (31 - n))) () 1

/-- What a device owes at launch. -/
def O₀ (c : Dev nD) : CellTallies nD τ sig Unit := Osig c 31

theorem Osend_step (c : Dev nD) (j : ℕ) (h1 : 1 ≤ j) (h2 : j ≤ 31) :
    Osend c (32 - j) = Osend c (31 - j) + tallyAt (rcvCell (pk c j) c) () N := by
  have e : 32 - j = (31 - j) + 1 := by omega
  rw [e]; show Osend c (31 - j) + tallyAt (rcvCell (pk c (31 - (31 - j))) c) () N = _
  rw [show 31 - (31 - j) = j by omega]

theorem Osig_step (c : Dev nD) (j : ℕ) (h1 : 1 ≤ j) (h2 : j ≤ 31) :
    Osig c (32 - j) = Osig c (31 - j) + tallyAt (barCell (pk c j)) () 1 := by
  have e : 32 - j = (31 - j) + 1 := by omega
  rw [e]; show Osig c (31 - j) + tallyAt (barCell (pk c (31 - (31 - j)))) () 1 = _
  rw [show 31 - (31 - j) = j by omega]

theorem Osend_pos {c : Dev nD} {n : ℕ} {g : GSem nD τ sig} {u : Unit} (h : 0 < Osend c n g u) : ∃ p : Dev nD, g = rcvCell p c := by
  induction n with
  | zero => exact absurd h (Nat.lt_irrefl 0)
  | succ n ih =>
    rcases Pipeline.add_pos_cases (D₁ := Osend c n) (D₂ := tallyAt (rcvCell (pk c (31 - n)) c) () N) h with h' | h'
    · exact ih h'
    · exact ⟨_, (Pipeline.tallyAt_pos h').1⟩

theorem Osig_pos {c : Dev nD} {n : ℕ} {g : GSem nD τ sig} {u : Unit} (h : 0 < Osig c n g u) :
    (∃ p : Dev nD, g = barCell p) ∨ ∃ p : Dev nD, g = rcvCell p c := by
  induction n with
  | zero => exact Or.inr (Osend_pos h)
  | succ n ih =>
    rcases Pipeline.add_pos_cases (D₁ := Osig c n) (D₂ := tallyAt (barCell (pk c (31 - n))) () 1) h with h' | h'
    · exact ih h'
    · exact Or.inl ⟨_, (Pipeline.tallyAt_pos h').1⟩

/-! ## The levels -/

def L (g : GSem nD τ sig) : Finset Unit := if g.1.2 = .tc then {()} else ∅

/-- Entry cells at 1, receive cells at 2, everything else (staging, send) at 0. -/
def lvS : SemLoc sig → ℕ
  | .reg _ => 1
  | .dma q => if 35 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (p : Dev nD) (u : Unit) : lv (barCell p) u = 1 := rfl
theorem lv_rcv (p s : Dev nD) (u : Unit) : lv (rcvCell p s) u = 2 := by
  show (if 35 ≤ 35 + s.val then 2 else 0) = 2
  rw [if_pos (by omega)]

/-- A wait on a cell at level 0 (the staging cells of the three windows) sits below everything a device may owe. -/
theorem mayWait_low (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases Osig_pos hg with ⟨p, rfl⟩ | ⟨p, rfl⟩ <;> (rw [L_tc]; exact Finset.mem_singleton_self _))
      (fun p hp => by
        rw [Finset.mem_singleton.mp hp]; show (if 35 ≤ q.val then 2 else 0) ≤ 0
        rw [if_neg (by omega)])
      (fun g u hg => by
        rcases Osig_pos hg with ⟨p, rfl⟩ | ⟨p, rfl⟩
        · rw [lv_bar]; decide
        · rw [lv_rcv]; decide)
  · rw [MayWait_zero]; iintro -; iempintro

/-- At its entry wait a device owes receive credit only: receive cells sit above its entry cell. -/
theorem mayWait_bar (c : Dev nD) :
    (levAts L lv : sProp 𝕄) ⊢ MayWait (c : Thread nD τ) (.reg barS) () (Osend c 31) :=
  MayOwe.of_cut (L := L) (lev := lv) 1 (fun p hp => by rw [Finset.mem_singleton.mp hp, L_tc]; exact Finset.mem_singleton_self _)
    (fun g u hg => by
      obtain ⟨p, rfl⟩ := Osend_pos hg
      rw [L_tc]; exact Finset.mem_singleton_self _)
    (fun p hp => by rw [Finset.mem_singleton.mp hp]; exact le_refl _)
    (fun g u hg => by
      obtain ⟨p, rfl⟩ := Osend_pos hg
      rw [lv_rcv]; decide)

end Cert.Kernel.Hand

end
-- ==== Proof.Kernel.Steps.lean ====
/-
  One step of each kind of the protocol, at a symbolic device `c` and a symbolic distance `j` (1 … 31).

  A device's state between steps is kept as the debts still to pay and the resources of the steps still to come,
  laid out over the distances `j … 31`; each step takes the head of the run and leaves the rest.
-/
import proofs.«901006_g7700000000001007_dist_rmsnorm_colshard_i_m512_n256_v7x_i32_bf16_1_alg».proof.Proof.Kernel.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, indexed: the entry cell, 32 send cells, 32 receive cells per device -/

def csem (i : Fin 65) : SemLoc sig :=
  if i.val = 0 then .reg barS
  else if i.val < 33 then .dma (sendQ ⟨(i.val - 1) % 32, Nat.mod_lt _ (by decide)⟩)
  else .dma (recvQ ⟨(i.val - 33) % 32, Nat.mod_lt _ (by decide)⟩)

abbrev kcell (ck : Dev nD × Fin 65) : GSem nD τ sig := ((ck.1 : Thread nD τ), csem ck.2)

def sIx (k : Fin 32) : Fin 65 := ⟨1 + k.val, by have := k.isLt; omega⟩
def rIx (s : Dev nD) : Fin 65 := ⟨33 + s.val, by have hs : s.val < 32 := s.isLt; omega⟩

theorem csem_zero : csem 0 = .reg barS := if_pos rfl
theorem csem_sIx : ∀ k : Fin 32, csem (sIx k) = .dma (sendQ k) := by decide +kernel
theorem csem_rIx : ∀ s : Dev nD, csem (rIx s) = .dma (recvQ s) := by decide +kernel

theorem kcell_bar (p : Dev nD) : kcell (p, 0) = barCell p := by show ((p : Thread nD τ), csem 0) = _; rw [csem_zero]
theorem kcell_snd (c : Dev nD) (k : Fin 32) : kcell (c, sIx k) = sndCell c k := by show ((c : Thread nD τ), csem (sIx k)) = _; rw [csem_sIx]
theorem kcell_rcv (c s : Dev nD) : kcell (c, rIx s) = rcvCell c s := by show ((c : Thread nD τ), csem (rIx s)) = _; rw [csem_rIx]

/-- The names the cells' invariants were allocated at, and that every cell's round 0 is reached. -/
def records (K : Dev nD × Fin 65 → ℕ) : sProp 𝕄 :=
  iprop((bigSep Finset.univ fun ck : Dev nD × Fin 65 => cellInv ER (ringRd m) (K ck) (kcell ck))
    ∗ bigSep Finset.univ fun ck : Dev nD × Fin 65 => reached ER (kcell ck) 0)

instance records_persistent (K : Dev nD × Fin 65 → ℕ) : BI.Persistent (records m K) := by unfold records; infer_instance

section Recs
variable (K : Dev nD × Fin 65 → ℕ)

theorem inv_at0 (ck : Dev nD × Fin 65) :
    (bigSep Finset.univ fun ck : Dev nD × Fin 65 => (cellInv ER (ringRd m) (K ck) (kcell ck) : sProp 𝕄)) ⊢ cellInv ER (ringRd m) (K ck) (kcell ck) :=
  bigSep_elim (Finset.mem_univ ck)
theorem reached_at0 (ck : Dev nD × Fin 65) :
    (bigSep Finset.univ fun ck : Dev nD × Fin 65 => (reached ER (kcell ck) 0 : sProp 𝕄)) ⊢ reached ER (kcell ck) 0 :=
  bigSep_elim (Finset.mem_univ ck)

theorem inv_at (ck : Dev nD × Fin 65) : records m K ⊢ cellInv ER (ringRd m) (K ck) (kcell ck) := by
  unfold records; iintro ⟨HI, -⟩; iapply (inv_at0 m K ck); iexact HI
theorem reached_at (ck : Dev nD × Fin 65) : records m K ⊢ reached ER (kcell ck) 0 := by
  unfold records; iintro ⟨-, HR⟩; iapply (reached_at0 (F := F) ck); iexact HR

theorem inv_bar (p : Dev nD) : records m K ⊢ cellInv ER (ringRd m) (K (p, 0)) (barCell p) := by
  have := inv_at m K (p, 0); rwa [kcell_bar] at this
theorem inv_snd (c : Dev nD) (k : Fin 32) : records m K ⊢ cellInv ER (ringRd m) (K (c, sIx k)) (sndCell c k) := by
  have := inv_at m K (c, sIx k); rwa [kcell_snd] at this
theorem inv_rcv (c s : Dev nD) : records m K ⊢ cellInv ER (ringRd m) (K (c, rIx s)) (rcvCell c s) := by
  have := inv_at m K (c, rIx s); rwa [kcell_rcv] at this
theorem reached_bar (p : Dev nD) : records m K ⊢ reached ER (barCell p) 0 := by
  have := reached_at m K (p, 0); rwa [kcell_bar] at this
theorem reached_snd (c : Dev nD) (k : Fin 32) : records m K ⊢ reached ER (sndCell c k) 0 := by
  have := reached_at m K (c, sIx k); rwa [kcell_snd] at this
theorem reached_rcv (c s : Dev nD) : records m K ⊢ reached ER (rcvCell c s) 0 := by
  have := reached_at m K (c, rIx s); rwa [kcell_rcv] at this

end Recs

/-! ## Runs over the distances -/

/-- A distance as a send-semaphore index. -/
def fk (i : ℕ) : Fin 32 := ⟨i % 32, Nat.mod_lt _ (by decide)⟩
theorem fk_val (i : ℕ) (h : i < 32) : (fk i).val = i := Nat.mod_eq_of_lt h
theorem fk_eq (i : ℕ) (h : i < 32) : fk i = ⟨i, h⟩ := Fin.ext (Nat.mod_eq_of_lt h)

/-- The other 31 devices are the peers at distances 1 … 31. -/
theorem bigSep_peers (c : Dev nD) (Φ : Dev nD → sProp 𝕄) :
    bigSep (Finset.univ.erase c) Φ = bigSep (Finset.Ico 1 32) (fun j => Φ (pk c j)) := by
  have hs : Finset.univ.erase c = (Finset.Ico 1 32).image (pk c) := by
    ext d
    simp only [Finset.mem_erase, Finset.mem_univ, and_true, Finset.mem_image, Finset.mem_Ico]
    constructor
    · intro h
      obtain ⟨j, h1, h2, rfl⟩ := exists_pk c d h
      exact ⟨j, ⟨h1, by omega⟩, rfl⟩
    · rintro ⟨j, ⟨h1, h2⟩, rfl⟩
      exact pk_ne c j h1 (by omega)
  rw [hs]
  exact bigSep_image_of_injOn (f := pk c) (s := Finset.Ico 1 32)
    (fun i hi j hj h => pk_inj c (by have := Finset.mem_Ico.mp (Finset.mem_coe.mp hi); omega)
      (by have := Finset.mem_Ico.mp (Finset.mem_coe.mp hj); omega) h) Φ

/-- A run over `a ≤ k < b + 1` with its last number set apart. -/
theorem bigSep_Ico_last {a b : ℕ} (h : a ≤ b) (A : ℕ → sProp 𝕄) :
    bigSep (Finset.Ico a (b + 1)) A = iprop(A b ∗ bigSep (Finset.Ico a b) A) := by
  have e : Finset.Ico a (b + 1) = insert b (Finset.Ico a b) := by
    ext x; simp only [Finset.mem_Ico, Finset.mem_insert]; omega
  rw [e, bigSep_insert (by simp)]; rfl

/-! ## The entry signals -/

/-- What signal `i` takes: the token of the peer's duty, and the peer's row of this device's table. -/
def sigRes (c : Dev nD) (i : ℕ) : sProp 𝕄 :=
  iprop(dutyTok ER (barCell (pk c i)) 0 c ∗ ∃ f, rowPts (F := F) fullShare c (pk c i) f)

/-- Before signal `j`. -/
def SigSt (c : Dev nD) (W : Waits sig Unit) (j : ℕ) : sProp 𝕄 :=
  iprop(owes (c : Thread nD τ) (Osig c (32 - j)) W ∗ bigSep (Finset.Ico j 32) (fun i => sigRes (F := F) c i))

theorem sig_step (K : Dev nD × Fin 65 → ℕ) (c : Dev nD) (W : Waits sig Unit) (j : ℕ) (h1 : 1 ≤ j) (h2 : j ≤ 31)
    {α : Type} {Q : α → sProp 𝕄} {k : PUnit → Prog (TpuEff nD τ sig (Elt F) Λ₀ .tc) α} :
    iprop(records m K ∗ SigSt (F := F) c W j)
      ⊢ iprop((SigSt (F := F) c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((pk c j : Dev nD) : Thread nD τ) barS (1#32 : BitVec 32).toNat) k) Q) := by
  unfold SigSt
  iintro ⟨#HR, HO, Hall⟩ Hk
  ihave Hall' := (Entails.of_eq (Ring.bigSep_Ico_succ (by omega : j < 32) (fun i => sigRes (F := F) c i))) $$ Hall
  beta_reduce
  icases Hall' with ⟨Hhd, Hrest⟩
  unfold sigRes
  icases Hhd with ⟨Htok, ⟨%f, Hrow⟩⟩
  iapply (Rounds.wp_signal 𝒱₀ ER (ringRd m) (c : Thread nD τ) none (dst := ((pk c j : Dev nD) : Thread nD τ)) (κ := K (pk c j, 0))
      (d := c) (by rw [duties_bar]; exact Finset.mem_erase.mpr ⟨(pk_ne c j h1 h2).symm, Finset.mem_univ _⟩)
      ((amount_bar m (pk c j) c).trans (by decide)) () (Osig c (31 - j)) (Osig_step c j h1 h2))
    $$ [HO Htok Hrow]
  · isplitr; · iapply (inv_bar m K (pk c j)); iexact HR
    isplitl [HO]; · iexact HO
    isplitl [Htok]; · iexact Htok
    isplitl [Hrow]; · rw [payload_bar]; iexists f; iexact Hrow
    iapply (reached_bar m K (pk c j)); iexact HR
  iintro HO
  iapply Hk
  isplitl [HO]
  · rw [show 32 - (j + 1) = 31 - j by omega]; iexact HO
  · iexact Hrest

/-! ## The transfers -/

/-- What transfer `i` takes: its two duties' tokens and the target row on the peer. -/
def sendRes (c : Dev nD) (i : ℕ) : sProp 𝕄 :=
  iprop(dutyTok ER (sndCell c (fk i)) 0 c ∗ dutyTok ER (rcvCell (pk c i) c) 0 c ∗ ∃ f, rowPts (F := F) fullShare (pk c i) c f)

/-- Before transfer `j`: the receive credits still owed, the transfers still to come, what is left of the right
    half of the device's own row, and the send credits of the transfers made. -/
def SendSt (c : Dev nD) (W : Waits sig Unit) (j : ℕ) : sProp 𝕄 :=
  iprop((∃ W', owes (c : Thread nD τ) (Osend c (32 - j)) W') ∗ bigSep (Finset.Ico j 32) (fun i => sendRes (F := F) c i)
    ∗ rowPts (remShare (j - 1)) c c (commB m c)
    ∗ bigSep (Finset.Ico 1 j) (fun i => cred (tallyAt (sndCell c (fk i)) () N)))

theorem send_step (K : Dev nD × Fin 65 → ℕ) (c : Dev nD) (W : Waits sig Unit) (j : ℕ) (h1 : 1 ≤ j) (h2 : j ≤ 31)
    (n : Dev nD) (hn : n = pk c j) (q1 q2 : DmaSem sig) (hq1 : q1 = sendQ (fk j)) (hq2 : q2 = recvQ c)
    {hsc : (rowM c : Memref sig (Dev.tc n : Thread nD τ).2.kind .vmem S512 .f32).view.ref.isScScratch = false}
    {hsrc : (rowM c : Memref sig .tc .vmem S512 .f32).view.WordExact} {hdst : (rowM c : Memref sig .tc .vmem S512 .f32).view.WordExact}
    {hsem : DmaTarget.Typed .vmem (.dma q2) (.remote (Dev.tc n : Thread nD τ) (rowM c : Memref sig .tc .vmem S512 .f32) (.dma q1) hsc)}
    {α : Type} {Q : α → sProp 𝕄} {k : PUnit → Prog (TpuEff nD τ sig (Elt F) Λ₀ .tc) α} :
    iprop(records m K ∗ SendSt m c W j)
      ⊢ iprop((SendSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma q1) hsc) (.dma q2) hsrc hdst hsem) k) Q) := by
  subst hn hq1 hq2
  have hj : 1 ≤ (fk j).val := by rw [fk_val j (by omega)]; exact h1
  have hne : c ≠ pk c j := (pk_ne c j h1 h2).symm
  unfold SendSt
  iintro ⟨#HR, ⟨%W', HO⟩, Hall, Hown, Hcr⟩ Hk
  ihave Hall' := (Entails.of_eq (Ring.bigSep_Ico_succ (by omega : j < 32) (fun i => sendRes (F := F) c i))) $$ Hall
  beta_reduce
  icases Hall' with ⟨Hhd, Hrest⟩
  unfold sendRes
  icases Hhd with ⟨HtS, HtR, ⟨%fd, Hdst⟩⟩
  -- the share of the device's own row lent to this transfer
  unfold rowPts
  ihave Hsp := (pointsTo_share (remShare_split (j - 1))).1 $$ Hown
  icases Hsp with ⟨Hpc, Hrem⟩
  iapply (Rounds.wp_send_pointsTo 𝒱₀ ER (ringRd m) (c : Thread nD τ) none (κ₁ := K (c, sIx (fk j))) (κ₂ := K (pk c j, rIx c))
      (r₁ := 0) (r₂ := 0) (d₁ := c) (d₂ := c) (q := piece (j - 1)) (fs := commB m c) (fd := fd)
      (by rw [duties_snd m c (fk j) hj]; exact Finset.mem_singleton_self _)
      (by rw [duties_rcv m (pk c j) c hne]; exact Finset.mem_singleton_self _)
      () () N rfl (amount_snd m c (fk j) c) (amount_rcv m (pk c j) c c) (Osend c (31 - j)) (Osend_step c j h1 h2) (W := W')
      (by rw [payload_snd m c (fk j) hj, fk_val j (by omega)]; exact BI.Entails.refl _)
      (by rw [payload_rcv]; unfold rowPts; exact Entails.of_eq (pointsTo_congr (landed_row c fd (commB m c)))))
    $$ [HO HtS HtR Hdst Hpc]
  · isplitr; · iapply (inv_snd m K c (fk j)); iexact HR
    isplitr; · iapply (inv_rcv m K (pk c j) c); iexact HR
    isplitl [Hpc]; · iexact Hpc
    isplitl [Hdst]; · iexact Hdst
    isplitl [HO]; · iexact HO
    isplitl [HtS]; · iexact HtS
    isplitr; · iapply (reached_snd m K c (fk j)); iexact HR
    isplitl [HtR]; · iexact HtR
    iapply (reached_rcv m K (pk c j) c); iexact HR
  iintro ⟨Hc, HO⟩
  iapply Hk
  isplitl [HO]; · rw [show 32 - (j + 1) = 31 - j by omega]; iexists W'; iexact HO
  isplitl [Hrest]; · iexact Hrest
  isplitl [Hrem]; · rw [show j + 1 - 1 = (j - 1) + 1 by omega]; iexact Hrem
  iapply (Entails.of_eq (bigSep_Ico_last (by omega : 1 ≤ j) (fun i => cred (tallyAt (sndCell c (fk i)) () N))).symm)
  isplitl [Hc]; · iexact Hc
  iexact Hcr

/-! ## The receive waits -/

/-- What receive wait `i` takes: the credit token and the device's position on that cell. -/
def recvRes (c : Dev nD) (i : ℕ) : sProp 𝕄 :=
  iprop(cred (tallyAt (rcvCell c (pk c i)) () N) ∗ atPos ER (rcvCell c (pk c i)) 0 ∅ 0)

/-- What it leaves: the peer's row, filled, and the cell closed at zero. -/
def recvGot (c : Dev nD) (i : ℕ) : sProp 𝕄 :=
  iprop(rowPts fullShare c (pk c i) (commB m c) ∗ semVal (rcvCell c (pk c i)) 0)

def RecvSt (c : Dev nD) (W : Waits sig Unit) (j : ℕ) : sProp 𝕄 :=
  iprop((∃ W', owes (c : Thread nD τ) 0 W') ∗ bigSep (Finset.Ico j 32) (fun i => recvRes (F := F) c i)
    ∗ bigSep (Finset.Ico 1 j) (fun i => recvGot m c i))

theorem recv_step (K : Dev nD × Fin 65 → ℕ) (c : Dev nD) (W : Waits sig Unit) (j : ℕ) (h1 : 1 ≤ j) (h2 : j ≤ 31)
    (q : DmaSem sig) (hq : q = recvQ (pk c j)) (dM : Memref sig .tc .vmem S512 .f32) (hdM : dM = rowM (pk c j))
    {sM : Memref sig .tc .vmem S512 .f32} {hsrc : sM.view.WordExact} {hdst : dM.view.WordExact}
    {α : Type} {Q : α → sProp 𝕄} {k : PUnit → Prog (TpuEff nD τ sig (Elt F) Λ₀ .tc) α} :
    iprop(records m K ∗ RecvSt m c W j)
      ⊢ iprop((RecvSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q sM dM hsrc hdst) k) Q) := by
  subst hq hdM
  have hne : pk c j ≠ c := pk_ne c j h1 h2
  unfold RecvSt
  iintro ⟨#HR, ⟨%W', HO⟩, Hall, Hgot⟩ Hk
  ihave Hall' := (Entails.of_eq (Ring.bigSep_Ico_succ (by omega : j < 32) (fun i => recvRes (F := F) c i))) $$ Hall
  beta_reduce
  icases Hall' with ⟨Hhd, Hrest⟩
  unfold recvRes
  icases Hhd with ⟨Hc, Hat⟩
  iapply (Rounds.wp_wait_rest_token 𝒱₀ ER (ringRd m) (c : Thread nD τ) none (κ := K (c, rIx (pk c j)))
      (wpE_waitDma2_eq 𝒱₀ (c : Thread nD τ) none Set.univ) (Set.mem_univ _) () (O := 0) (W := W') (R := 0) (m := 0) (T := ∅)
      (by rw [Nat.zero_add, expect_rcv m c (pk c j) hne]; first | done | rfl)) $$ [Hc HO Hat]
  · isplitr; · iapply (inv_rcv m K c (pk c j)); iexact HR
    isplitl [Hc]; · iexact Hc
    isplitl [HO]; · iexact HO
    isplitr; · rw [MayWait_zero]; iempintro
    iexact Hat
  iintro ⟨HO, Hat, -, Hpay⟩
  ihave Hrow := (Entails.of_eq (rest_rcv m c (pk c j) hne)) $$ Hpay
  imod (Rounds.cell_close ER (ringRd m) (Set.mem_univ (K (c, rIx (pk c j)))) (fun h => h) (R := 0 + 1) (duties_later m (rcvCell c (pk c j)))) $$ [Hat] with Hz
  · isplitr; · iapply (inv_rcv m K c (pk c j)); iexact HR
    iexact Hat
  iapply Hk
  isplitl [HO]; · iexists _; iexact HO
  isplitl [Hrest]; · iexact Hrest
  iapply (Entails.of_eq (bigSep_Ico_last (by omega : 1 ≤ j) (fun i => recvGot m c i)).symm)
  isplitl [Hrow Hz]
  · unfold recvGot; isplitl [Hrow]; · iexact Hrow
    iexact Hz
  iexact Hgot

/-! ## The send waits -/

/-- What send wait `i` takes: the credit the transfer returned, and the device's position on that cell. -/
def swRes (c : Dev nD) (i : ℕ) : sProp 𝕄 :=
  iprop(cred (tallyAt (sndCell c (fk i)) () N) ∗ atPos ER (sndCell c (fk i)) 0 ∅ 0)

/-- What it leaves: the share lent to the transfer, and the cell closed at zero. -/
def swGot (c : Dev nD) (i : ℕ) : sProp 𝕄 :=
  iprop(rowPts (piece (i - 1)) c c (commB m c) ∗ semVal (sndCell c (fk i)) 0)

def SwSt (c : Dev nD) (W : Waits sig Unit) (j : ℕ) : sProp 𝕄 :=
  iprop((∃ W', owes (c : Thread nD τ) 0 W') ∗ bigSep (Finset.Ico j 32) (fun i => swRes (F := F) c i)
    ∗ bigSep (Finset.Ico 1 j) (fun i => swGot m c i))

theorem sw_step (K : Dev nD × Fin 65 → ℕ) (c : Dev nD) (W : Waits sig Unit) (j : ℕ) (h1 : 1 ≤ j) (h2 : j ≤ 31)
    (q : DmaSem sig) (hq : q = sendQ (fk j))
    {sM dM : Memref sig .tc .vmem S512 .f32} (hdM : dM.view.dmaCredit = N) {hsrc : sM.view.WordExact} {hdst : dM.view.WordExact}
    {α : Type} {Q : α → sProp 𝕄} {k : PUnit → Prog (TpuEff nD τ sig (Elt F) Λ₀ .tc) α} :
    iprop(records m K ∗ SwSt m c W j)
      ⊢ iprop((SwSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q sM dM hsrc hdst) k) Q) := by
  subst hq
  have hj : 1 ≤ (fk j).val := by rw [fk_val j (by omega)]; exact h1
  unfold SwSt
  iintro ⟨#HR, ⟨%W', HO⟩, Hall, Hgot⟩ Hk
  ihave Hall' := (Entails.of_eq (Ring.bigSep_Ico_succ (by omega : j < 32) (fun i => swRes (F := F) c i))) $$ Hall
  beta_reduce
  icases Hall' with ⟨Hhd, Hrest⟩
  unfold swRes
  icases Hhd with ⟨Hc, Hat⟩
  iapply (Rounds.wp_wait_rest_token 𝒱₀ ER (ringRd m) (c : Thread nD τ) none (κ := K (c, sIx (fk j)))
      (wpE_waitDma2_eq 𝒱₀ (c : Thread nD τ) none Set.univ) (Set.mem_univ _) () (O := 0) (W := W') (R := 0) (m := 0) (T := ∅)
      (by rw [Nat.zero_add, expect_snd m c (fk j) hj, hdM])) $$ [Hc HO Hat]
  · isplitr; · iapply (inv_snd m K c (fk j)); iexact HR
    isplitl [Hc]; · rw [hdM]; iexact Hc
    isplitl [HO]; · iexact HO
    isplitr; · rw [MayWait_zero]; iempintro
    iexact Hat
  iintro ⟨HO, Hat, -, Hpay⟩
  ihave Hrow := (Entails.of_eq ((rest_snd m c (fk j) hj).trans (by rw [fk_val j (by omega)]))) $$ Hpay
  imod (Rounds.cell_close ER (ringRd m) (Set.mem_univ (K (c, sIx (fk j)))) (fun h => h) (R := 0 + 1) (duties_later m (sndCell c (fk j)))) $$ [Hat] with Hz
  · isplitr; · iapply (inv_snd m K c (fk j)); iexact HR
    iexact Hat
  iapply Hk
  isplitl [HO]; · iexists _; iexact HO
  isplitl [Hrest]; · iexact Hrest
  iapply (Entails.of_eq (bigSep_Ico_last (by omega : 1 ≤ j) (fun i => swGot m c i)).symm)
  isplitl [Hrow Hz]
  · unfold swGot; isplitl [Hrow]; · iexact Hrow
    iexact Hz
  iexact Hgot

end Cert.Kernel.Hand

end
-- ==== Proof.Kernel.Data.lean ====
/-
  The proof data of the one region: what a device's body starts from and what it leaves.

  It starts holding, for every peer at distance `j`: the token of the peer's entry duty, of its own send duty `j` and of
  the peer's receive duty for this device's row; its positions on its own cells; the credit of its entry cell's 31
  units and of its 31 receive cells; and its table, whole, at any contents. It ends with the table whole again and
  its 64 own semaphores back at zero. Its result block is `outAt`; its two staged inputs are left as found.
-/
import proofs.«901006_g7700000000001007_dist_rmsnorm_colshard_i_m512_n256_v7x_i32_bf16_1_alg».proof.Proof.Kernel.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores as the launch indexes them: 32 send, then 32 receive. -/
abbrev osem : Fin 64 → SemLoc sig := fun i => .dma ⟨3 + i.val, by have := i.isLt; change 3 + i.val < 67; omega⟩

/-- The tokens a device pays with, per peer distance. -/
def payTok (c : Dev nD) (j : ℕ) : sProp 𝕄 :=
  iprop(dutyTok ER (barCell (pk c j)) 0 c ∗ dutyTok ER (sndCell c (fk j)) 0 c ∗ dutyTok ER (rcvCell (pk c j) c) 0 c)

/-- The collective's ghost state device `c` starts from. -/
def ghost (K : Dev nD × Fin 65 → ℕ) (c : Dev nD) : sProp 𝕄 :=
  iprop(records m K
    ∗ atPos ER (barCell c) 0 ∅ 0
    ∗ (bigSep (Finset.Ico 1 32) fun j => atPos ER (sndCell c (fk j)) 0 ∅ 0)
    ∗ (bigSep (Finset.Ico 1 32) fun j => atPos ER (rcvCell c (pk c j)) 0 ∅ 0)
    ∗ atPos ER (sndCell c 0) 0 ∅ 0 ∗ atPos ER (rcvCell c c) 0 ∅ 0
    ∗ bigSep (Finset.Ico 1 32) (fun j => payTok (F := F) c j))

/-- What device `c`'s body starts from, the table apart. -/
def start (c : Dev nD) : sProp 𝕄 :=
  iprop((∃ K, ghost m K c) ∗ cred (tallyAt (barCell c) () 31)
    ∗ (bigSep (Finset.Ico 1 32) fun j => cred (tallyAt (rcvCell c (pk c j)) () N)) ∗ levAts L lv)

def Φ₀ (c : Dev nD) : sProp 𝕄 := iprop(start m c ∗ ∃ f, (((c : Thread nD τ).loc cc0_scratch0) ↦{fullShare} f))

/-- After the point: the table whole, the 64 own cells closed at zero (the entry cell is not the launch's). -/
def Φ₁ (c : Dev nD) : sProp 𝕄 :=
  iprop((∃ f, (((c : Thread nD τ).loc cc0_scratch0) ↦{fullShare} f))
    ∗ semVal (sndCell c 0) 0 ∗ semVal (rcvCell c c) 0
    ∗ (bigSep (Finset.Ico 1 32) fun j => semVal (sndCell c (fk j)) 0)
    ∗ bigSep (Finset.Ico 1 32) fun j => semVal (rcvCell c (pk c j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => gin m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Hand

end
-- ==== Proof.Kernel.Body.lean ====
/-
  The body of one device, stepped from its start state to its end state.

  In program order: 31 entry signals (each hands a peer its row of this device's table); the partial sums stored
  into the device's own row; the entry wait (every peer's copy of this device's row comes in); 31 transfers of the own
  row, each on a share of its right half; the scaled block `x · gamma`; 31 receive waits (the peers' rows, filled); the
  whole table read (the own row at its left half, the others' left halves split off for the read); the result stored;
  31 send waits (the lent shares back). Then the rows are joined into the table again.
-/
import proofs.«901006_g7700000000001007_dist_rmsnorm_colshard_i_m512_n256_v7x_i32_bf16_1_alg».proof.Proof.Kernel.Data
import proofs.«901006_g7700000000001007_dist_rmsnorm_colshard_i_m512_n256_v7x_i32_bf16_1_alg».proof.Proof.Gen.Kernel.Points
import proofs.«901006_g7700000000001007_dist_rmsnorm_colshard_i_m512_n256_v7x_i32_bf16_1_alg».proof.Proof.Gen.Kernel.Frame

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The table by rows -/

/-- The elements of row `s`, as elements of device `c`'s table. -/
abbrev rows (c s : Dev nD) : Finset (Idx ((c : Thread nD τ).loc cc0_scratch0)) := (rowM s).view.set

/-- The row a device stores its partial sums through. -/
abbrev R1 (c : Dev nD) : Rect S32x512 := Rect.unit (s := S32x512) (k0_off1 c) S1x512.size (k0_off1_inb c)
abbrev R3 (s : Dev nD) : Rect S32x512 := Rect.unit (s := S32x512) (k0_off3 s) S1x512.size (k0_off3_inb s)

theorem rows_eq (c s : Dev nD) : rows c s = (R3 s).set := by
  show ((cM.view.slice (R3 s)).reshape S512 _).set = _
  rw [View.set_reshape]
  exact View.set_slice_whole cc0_scratch0 (R3 s)

theorem R1_set (c : Dev nD) : (R1 c).set = (R3 c).set := by
  ext i; rw [Rect.mem_set_unit, Rect.mem_set_unit, k0_off1_eq, k0_off3_eq]

theorem acc_set (c : Dev nD) : ((cM.access (R1 c)) : View sig .tc _ _ _).set = rows c c := by
  rw [rows_eq, ← R1_set]
  exact View.set_slice_whole cc0_scratch0 (R1 c)

theorem rows_disjoint (c : Dev nD) (b b' : Dev nD) (h : b ≠ b') : Disjoint (rows c b) (rows c b') := by
  rw [rows_eq, rows_eq]
  exact Ring.lead_disjoint (s := S32x512) (NB := 32) (0 : Fin 2) 1 k0_off3 S1x512.size k0_off3_inb
    (fun b => by rw [k0_off3_eq]; simp) rfl b b' h

theorem fin2_of_ne_zero (a : Fin 2) (ha : a ≠ 0) : a = 1 := by
  have h2 : a.val < 2 := a.isLt
  have h0 : a.val ≠ 0 := fun e => ha (Fin.ext e)
  exact Fin.ext (by show a.val = 1; omega)

theorem rows_cover (c : Dev nD) : Finset.univ.biUnion (fun s => rows c s) = Finset.univ := by
  have h := Ring.lead_cover (s := S32x512) (NB := 32) (0 : Fin 2) 1 k0_off3 S1x512.size k0_off3_inb
    (fun b => by rw [k0_off3_eq]; simp)
    (fun b a ha => by rw [fin2_of_ne_zero a ha, k0_off3_eq]; rfl)
    rfl
    (fun a ha => by rw [fin2_of_ne_zero a ha]; rfl)
    (by decide)
  rw [← h]
  exact Finset.biUnion_congr rfl fun s _ => rows_eq c s

/-- At an element of its own row, the table holds what the device stored there. -/
theorem comm_own (c : Dev nD) (x : S1x512.Idx) : comm m ((R1 c).emb x) = k0_pay2 (xin m c) x := by
  unfold comm part
  have hx0 : (x 0).val = 0 := by have h : (x 0).val < 1 := (x 0).isLt; omega
  have h0 : (⟨(((R1 c).emb x) 0).val, ValueIdx.idx2_lt0 ((R1 c).emb x)⟩ : Dev nD) = c := by
    apply Fin.ext
    show k0_off1 c 0 + 1 * (x 0).val = c.val
    rw [k0_off1_eq, hx0]
    show c.val + 1 * 0 = c.val
    omega
  have h1 : ValueIdx.ix2 (0 : Fin 1) (((R1 c).emb x) 1) = x := by
    funext a
    match a with
    | ⟨0, _⟩ => exact Fin.ext hx0.symm
    | ⟨1, _⟩ =>
      apply Fin.ext
      show k0_off1 c 1 + 1 * (x 1).val = (x 1).val
      rw [k0_off1_eq]
      show 0 + 1 * (x 1).val = (x 1).val
      omega
  rw [h0]
  exact congrArg (k0_pay2 (xin m c)) h1

/-- After the device's store its own row holds the gathered table's row. -/
theorem own_written (c : Dev nD) (f : Buf (Elt F) ((c : Thread nD τ).loc cc0_scratch0)) :
    ∀ i ∈ rows c c, ((cM.access (R1 c)) : View sig .tc _ _ _).write (Elt F) f (k0_pay2 (xin m c)) Finset.univ i = commB m c i := by
  intro i hi
  rw [← acc_set c] at hi
  obtain ⟨x, -, rfl⟩ := Finset.mem_map.mp hi
  rw [View.write_emb_of_mem _ _ (Finset.mem_univ x)]
  exact (comm_own m c x).symm

theorem hz2 : (![0, 0] : Fin 2 → Nat) = fun _ => 0 := funext fun a => by fin_cases a <;> rfl
theorem hz1 : (![0] : Fin 1 → Nat) = fun _ => 0 := funext fun a => by fin_cases a; rfl

abbrev rX : Rect S512x256 := Rect.unit (s := S512x256) ![0, 0] S512x256.size inb_S512x256_S512x256_0_0
abbrev rG : Rect S256 := Rect.unit (s := S256) ![0] S256.size inb_S256_S256_0
abbrev rT : Rect S32x512 := Rect.unit (s := S32x512) ![0, 0] S32x512.size inb_S32x512_S32x512_0_0

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0

theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
theorem read_g (f : (cc0_stg1_0 : Ref sig .tc).ty.Contents (Elt F)) : (gM : Memref sig .tc .vmem S256 .f32).view.readAt (Elt F) rG.toLoadRect f = f :=
  Memref.readAt_unit_zero (Elt F) cc0_stg1_0 hz1 _ f
theorem read_t (f : (cc0_scratch0 : Ref sig .tc).ty.Contents (Elt F)) : (cM : Memref sig .tc .vmem S32x512 .f32).view.readAt (Elt F) rT.toLoadRect f = f :=
  Memref.readAt_unit_zero (Elt F) cc0_scratch0 hz2 _ f
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-! ## Shares of rows -/

/-- A row held whole is its two halves. -/
theorem row_halves (d s : Dev nD) (f : Buf (Elt F) ((rowM s).view.loc (d : Thread nD τ))) :
    (rowPts (F := F) fullShare d s f) ⊣⊢ iprop(rowPts fullShare.left d s f ∗ rowPts fullShare.right d s f) := by
  unfold rowPts; exact pointsTo_share (PosShare.mem_left_op_right fullShare)

/-- The pieces lent to the first `n` transfers and what is left after them make up the right half. -/
theorem pieces_join (d s : Dev nD) (f : Buf (Elt F) ((rowM s).view.loc (d : Thread nD τ))) (n : ℕ) :
    iprop((bigSep (Finset.Ico 1 (n + 1)) fun i => rowPts (F := F) (piece (i - 1)) d s f) ∗ rowPts (remShare n) d s f)
      ⊢ rowPts (F := F) fullShare.right d s f := by
  induction n with
  | zero =>
    rw [show Finset.Ico 1 (0 + 1) = (∅ : Finset ℕ) by simp, bigSep_empty]
    iintro ⟨-, H⟩; iexact H
  | succ n ih =>
    rw [bigSep_Ico_last (by omega : 1 ≤ n + 1)]
    iintro ⟨⟨Hp, Hrest⟩, Hrem⟩
    iapply ih
    isplitl [Hrest]; · iexact Hrest
    unfold rowPts
    iapply (pointsTo_share (remShare_split n)).2
    isplitl [Hp]
    · rw [show n + 1 - 1 = n by omega]; iexact Hp
    · iexact Hrem

/-! ## The staged windows -/

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The two own cells no transfer uses -/

theorem duties_snd0 (c : Dev nD) : ∀ r, 0 ≤ r → (ringRd (F := F) m).duties (sndCell c 0) r = ∅ := by
  intro r _
  dsimp only [ringRd]
  by_cases h : r = 0 ∧ ((c : Thread nD τ), SemLoc.dma (sendQ 0)).1.2 = .tc
  · rw [if_pos h]
    show (if 3 < 3 + (0 : Fin 32).val ∧ 3 + (0 : Fin 32).val < 35 then ({c} : Finset (Dev nD)) else
      if 35 ≤ 3 + (0 : Fin 32).val ∧ srcOf (sendQ 0) ≠ c then {srcOf (sendQ 0)} else ∅) = ∅
    rw [if_neg (by decide), if_neg (fun h => absurd h.1 (by decide))]
  · rw [if_neg h]

theorem duties_rcvself (c : Dev nD) : ∀ r, 0 ≤ r → (ringRd (F := F) m).duties (rcvCell c c) r = ∅ := by
  intro r _
  dsimp only [ringRd]
  by_cases h : r = 0 ∧ ((c : Thread nD τ), SemLoc.dma (recvQ c)).1.2 = .tc
  · rw [if_pos h]
    show (if 3 < 35 + c.val ∧ 35 + c.val < 35 then ({c} : Finset (Dev nD)) else
      if 35 ≤ 35 + c.val ∧ srcOf (recvQ c) ≠ c then {srcOf (recvQ c)} else ∅) = ∅
    rw [if_neg (by omega), srcOf_recvQ, if_neg (fun h => h.2 rfl)]
  · rw [if_neg h]

/-! ## Building the runs' first states -/

theorem rowPts_eq (q : PosShare TreeShare) (d s : Dev nD) (f : Buf (Elt F) ((d : Thread nD τ).loc cc0_scratch0)) :
    rowPts (F := F) q d s f = ((((d : Thread nD τ).loc cc0_scratch0) ↦[rows d s]{q} f : sProp 𝕄)) := rfl

theorem own_pts_eq (c : Dev nD) (f : Buf (Elt F) ((c : Thread nD τ).loc cc0_scratch0)) :
    ((((cM.access (R1 c)) : View sig .tc _ _ _).loc (c : Thread nD τ) ↦[rows c c]{fullShare} f : sProp 𝕄)) = rowPts (F := F) fullShare c c f := rfl

theorem row_ex (c s : Dev nD) (f0 : Buf (Elt F) ((c : Thread nD τ).loc cc0_scratch0)) :
    (rowPts (F := F) fullShare c s f0) ⊢ iprop(∃ f, rowPts (F := F) fullShare c s f) := by
  iintro H; iexists f0; iexact H

theorem rows_ex (c : Dev nD) (f0 : Buf (Elt F) ((c : Thread nD τ).loc cc0_scratch0)) :
    (bigSep (Finset.Ico 1 32) fun j => rowPts (F := F) fullShare c (pk c j) f0)
      ⊢ bigSep (Finset.Ico 1 32) fun j => iprop(∃ f, rowPts (F := F) fullShare c (pk c j) f) :=
  bigSep_mono fun j _ => row_ex c (pk c j) f0

theorem sigSt_intro (c : Dev nD) (W : Waits sig Unit) (f0 : Buf (Elt F) ((c : Thread nD τ).loc cc0_scratch0)) :
    iprop(owes (c : Thread nD τ) (O₀ c) W ∗ (bigSep (Finset.Ico 1 32) fun j => dutyTok ER (barCell (pk c j)) 0 c)
        ∗ bigSep (Finset.Ico 1 32) fun j => rowPts (F := F) fullShare c (pk c j) f0)
      ⊢ SigSt (F := F) c W 1 := by
  unfold SigSt sigRes
  rw [bigSep_sep']
  iintro ⟨HO, Ht, Hr⟩
  isplitl [HO]; · iexact HO
  isplitl [Ht]; · iexact Ht
  iapply (rows_ex c f0)
  iexact Hr

theorem sendSt_intro (c : Dev nD) (W W' : Waits sig Unit) :
    iprop(owes (c : Thread nD τ) (Osend c 31) W' ∗ (bigSep (Finset.Ico 1 32) fun j => dutyTok ER (sndCell c (fk j)) 0 c)
        ∗ (bigSep (Finset.Ico 1 32) fun j => dutyTok ER (rcvCell (pk c j) c) 0 c)
        ∗ (bigSep (Finset.Ico 1 32) fun j => iprop(∃ f, rowPts (F := F) fullShare (pk c j) c f))
        ∗ rowPts fullShare.right c c (commB m c))
      ⊢ SendSt m c W 1 := by
  unfold SendSt sendRes
  rw [bigSep_sep', bigSep_sep', show Finset.Ico 1 1 = (∅ : Finset ℕ) by simp, bigSep_empty]
  iintro ⟨HO, Ht1, Ht2, Hr, Hown⟩
  isplitl [HO]; · iexists W'; iexact HO
  isplitl [Ht1 Ht2 Hr]
  · isplitl [Ht1]; · iexact Ht1
    isplitl [Ht2]; · iexact Ht2
    iexact Hr
  isplitl [Hown]; · iexact Hown
  iempintro

theorem recvSt_intro (c : Dev nD) (W W' : Waits sig Unit) :
    iprop(owes (c : Thread nD τ) 0 W' ∗ (bigSep (Finset.Ico 1 32) fun j => cred (tallyAt (rcvCell c (pk c j)) () N))
        ∗ bigSep (Finset.Ico 1 32) fun j => atPos ER (rcvCell c (pk c j)) 0 ∅ 0)
      ⊢ RecvSt m c W 1 := by
  unfold RecvSt recvRes
  rw [bigSep_sep', show Finset.Ico 1 1 = (∅ : Finset ℕ) by simp, bigSep_empty]
  iintro ⟨HO, Hc, Hat⟩
  isplitl [HO]; · iexists W'; iexact HO
  isplitl [Hc Hat]
  · isplitl [Hc]; · iexact Hc
    iexact Hat
  iempintro

theorem swSt_intro (c : Dev nD) (W W' : Waits sig Unit) :
    iprop(owes (c : Thread nD τ) 0 W' ∗ (bigSep (Finset.Ico 1 32) fun j => cred (tallyAt (sndCell c (fk j)) () N))
        ∗ bigSep (Finset.Ico 1 32) fun j => atPos ER (sndCell c (fk j)) 0 ∅ 0)
      ⊢ SwSt m c W 1 := by
  unfold SwSt swRes
  rw [bigSep_sep', show Finset.Ico 1 1 = (∅ : Finset ℕ) by simp, bigSep_empty]
  iintro ⟨HO, Hc, Hat⟩
  isplitl [HO]; · iexists W'; iexact HO
  isplitl [Hc Hat]
  · isplitl [Hc]; · iexact Hc
    iexact Hat
  iempintro

/-- The table at one share is its 32 rows at that share: the device's own row, and the peers' by distance. -/
theorem rows_join (q : PosShare TreeShare) (c : Dev nD) (f : Buf (Elt F) ((c : Thread nD τ).loc cc0_scratch0)) :
    ((((c : Thread nD τ).loc cc0_scratch0) ↦{q} f : sProp 𝕄))
      = iprop(rowPts (F := F) q c c f ∗ bigSep (Finset.Ico 1 32) fun i => rowPts (F := F) q c (pk c i) f) := by
  rw [Ring.pointsTo_blocks (Ix := Unit) (Name := ℕ) (U := UU) (Lvl := ℕ) (ℓ := (c : Thread nD τ).loc cc0_scratch0) (q := q)
      (fun s : Dev nD => rows c s) (rows_disjoint c) (rows_cover c) f,
    bigSep_univ_split c, bigSep_peers c]
  rfl

/-- A run of rows held whole is the run of their left halves and the run of their right halves. -/
theorem run_halves (c : Dev nD) (f : Buf (Elt F) ((c : Thread nD τ).loc cc0_scratch0)) :
    (bigSep (Finset.Ico 1 32) fun i => rowPts (F := F) fullShare c (pk c i) f)
      ⊣⊢ iprop((bigSep (Finset.Ico 1 32) fun i => rowPts (F := F) fullShare.left c (pk c i) f)
          ∗ bigSep (Finset.Ico 1 32) fun i => rowPts (F := F) fullShare.right c (pk c i) f) := by
  rw [← bigSep_sep']
  constructor
  · exact bigSep_mono fun i _ => (row_halves c (pk c i) f).1
  · exact bigSep_mono fun i _ => (row_halves c (pk c i) f).2

/-! ## The body -/

section Body

variable (K : Dev nD × Fin 65 → ℕ)

def bodyPre (c : Dev nD) : sProp 𝕄 :=
  iprop((ghost m K c ∗ cred (tallyAt (barCell c) () 31)
      ∗ (bigSep (Finset.Ico 1 32) fun j => cred (tallyAt (rcvCell c (pk c j)) () N)) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xin m c) ∗ stg c cc0_stg1_0 (gin m c) ∗ stg c cc0_stg2_0 (outAt m c))

set_option hygiene false in
local macro "sigS " j:num : term => `(sig_step m K c W $j (by decide) (by decide))
set_option hygiene false in
local macro "sendS " j:num dv:ident : term =>
  `(send_step m K c W $j (by decide) (by decide) _ ($dv c) _ _ (sendSem_eq ⟨$j, by decide⟩) (recvOwn_eq c))
set_option hygiene false in
local macro "recvS " j:num r:num : term =>
  `(recv_step m K c W $j (by decide) (by decide) (recvAt c $r) (recvAt_eq c $r) (rowAtM c $r) (rowAtM_eq c $r))
set_option hygiene false in
local macro "swS " j:num : term =>
  `(sw_step m K c W $j (by decide) (by decide) (sendSem $j (by decide)) (sendSem_eq ⟨$j, by decide⟩) (dM := rowM c) rfl)

set_option maxHeartbeats 0 in
set_option maxRecDepth 65536 in
/-- The body, stepped from `bodyPre` to `bodyPost` in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel k0_part23_skel k0_part24_skel
    k0_part25_skel k0_part26_skel k0_part27_skel k0_part28_skel k0_part29_skel k0_part30_skel k0_part31_skel k0_part32_skel
    k0_part33_skel k0_part34_skel k0_part35_skel k0_part36_skel k0_part37_skel k0_part38_skel k0_part39_skel k0_part40_skel
    k0_part41_skel k0_part42_skel k0_part43_skel k0_part44_skel k0_part45_skel k0_part46_skel k0_part47_skel k0_part48_skel
    k0_part49_skel k0_part50_skel k0_part51_skel k0_part52_skel k0_part53_skel
  simp only [semSignalWord, semWaitWord, Prog.lift, Prog.bind_op, Prog.bind_ret, Prog.pure_eq_ret, wp_deviceId]
  simp only [dev_table]
  unfold bodyPre ghost
  iintro ⟨⟨⟨⟨#HR, HatB, HatS, HatV, HatS0, HatVc, Htoks⟩, HcB, HcV, #Hlev, ⟨%f0, Hscr⟩⟩, Ho, ⟨%d0, %g0, %hg0, Hx⟩, ⟨%d1, %g1, %hg1, Hg⟩,
    ⟨%d2, %g2, %hg2, Hout⟩⟩, Hk⟩
  have hx : g0 = xin m c := by rw [hg0]; unfold Dat.before; rw [if_pos (fetch0_0 t₀)]; rfl
  have hgm : g1 = gin m c := by rw [hg1]; unfold Dat.before; rw [if_pos (fetch0_1 t₀)]; rfl
  subst hx hgm
  unfold Dat.owesAt Pipeline.owesWithin
  icases Ho with ⟨%W, %hW, HO⟩
  rw [show (dats m ρ 0 c).owed t₀.castSucc = O₀ c from rfl]
  -- the tokens by kind: entry, send, receive
  unfold payTok
  ihave Ht := (Entails.of_eq (bigSep_sep' (Finset.Ico 1 32) (fun j => dutyTok ER (barCell (pk c j)) 0 c)
    (fun j => iprop(dutyTok ER (sndCell c (fk j)) 0 c ∗ dutyTok ER (rcvCell (pk c j) c) 0 c)))) $$ Htoks
  icases Ht with ⟨HtB, Ht2⟩
  ihave Ht3 := (Entails.of_eq (bigSep_sep' (Finset.Ico 1 32) (fun j => dutyTok ER (sndCell c (fk j)) 0 c)
    (fun j => dutyTok ER (rcvCell (pk c j) c) 0 c))) $$ Ht2
  icases Ht3 with ⟨HtS, HtR⟩
  -- the table by rows: the device's own row apart, the others by distance
  ihave Hrows := (Entails.of_eq (rows_join fullShare c f0)) $$ Hscr
  icases Hrows with ⟨Hown, Hoth⟩
  -- the 31 entry signals: each peer is handed its row of this device's table
  ihave HS := (sigSt_intro c W f0) $$ [HO HtB Hoth]
  · isplitl [HO]; · iexact HO
    isplitl [HtB]; · iexact HtB
    iexact Hoth
  iapply (sigS 1) $$ [HS]; (isplitr; iexact HR; iexact HS); iintro HS
  iapply (sigS 2) $$ [HS]; (isplitr; iexact HR; iexact HS); iintro HS
  iapply (sigS 3) $$ [HS]; (isplitr; iexact HR; iexact HS); iintro HS
  iapply (sigS 4) $$ [HS]; (isplitr; iexact HR; iexact HS); iintro HS
  iapply (sigS 5) $$ [HS]; (isplitr; iexact HR; iexact HS); iintro HS
  iapply (sigS 6) $$ [HS]; (isplitr; iexact HR; iexact HS); iintro HS
  iapply (sigS 7) $$ [HS]; (isplitr; iexact HR; iexact HS); iintro HS
  iapply (sigS 8) $$ [HS]; (isplitr; iexact HR; iexact HS); iintro HS
  iapply (sigS 9) $$ [HS]; (isplitr; iexact HR; iexact HS); iintro HS
  iapply (sigS 10) $$ [HS]; (isplitr; iexact HR; iexact HS); iintro HS
  iapply (sigS 11) $$ [HS]; (isplitr; iexact HR; iexact HS); iintro HS
  iapply (sigS 12) $$ [HS]; (isplitr; iexact HR; iexact HS); iintro HS
  iapply (sigS 13) $$ [HS]; (isplitr; iexact HR; iexact HS); iintro HS
  iapply (sigS 14) $$ [HS]; (isplitr; iexact HR; iexact HS); iintro HS
  iapply (sigS 15) $$ [HS]; (isplitr; iexact HR; iexact HS); iintro HS
  iapply (sigS 16) $$ [HS]; (isplitr; iexact HR; iexact HS); iintro HS
  iapply (sigS 17) $$ [HS]; (isplitr; iexact HR; iexact HS); iintro HS
  iapply (sigS 18) $$ [HS]; (isplitr; iexact HR; iexact HS); iintro HS
  iapply (sigS 19) $$ [HS]; (isplitr; iexact HR; iexact HS); iintro HS
  iapply (sigS 20) $$ [HS]; (isplitr; iexact HR; iexact HS); iintro HS
  iapply (sigS 21) $$ [HS]; (isplitr; iexact HR; iexact HS); iintro HS
  iapply (sigS 22) $$ [HS]; (isplitr; iexact HR; iexact HS); iintro HS
  iapply (sigS 23) $$ [HS]; (isplitr; iexact HR; iexact HS); iintro HS
  iapply (sigS 24) $$ [HS]; (isplitr; iexact HR; iexact HS); iintro HS
  iapply (sigS 25) $$ [HS]; (isplitr; iexact HR; iexact HS); iintro HS
  iapply (sigS 26) $$ [HS]; (isplitr; iexact HR; iexact HS); iintro HS
  iapply (sigS 27) $$ [HS]; (isplitr; iexact HR; iexact HS); iintro HS
  iapply (sigS 28) $$ [HS]; (isplitr; iexact HR; iexact HS); iintro HS
  iapply (sigS 29) $$ [HS]; (isplitr; iexact HR; iexact HS); iintro HS
  iapply (sigS 30) $$ [HS]; (isplitr; iexact HR; iexact HS); iintro HS
  iapply (sigS 31) $$ [HS]; (isplitr; iexact HR; iexact HS); iintro HS
  unfold SigSt
  simp only [Nat.reduceAdd, Finset.Ico_self, bigSep_empty]
  icases HS with ⟨HO, -⟩
  -- the block of x; the partial sums into the device's own row
  iapply (wp_load 𝒱₀ (c : Thread nD τ) none Set.univ (m := xM) (Finset.subset_univ _)) $$ Hx; iintro Hx
  rw [read_x]
  ihave Hown := (Entails.of_eq (rowPts_eq fullShare c c f0)) $$ Hown
  iapply (wp_load 𝒱₀ (c : Thread nD τ) none Set.univ (m := cM) (S := rows c c)
    (by rw [← acc_set c]; exact (View.set_slice (v := cM.view) (R1 c)).symm.subset)) $$ Hown; iintro Hown
  iapply (wp_store 𝒱₀ (c : Thread nD τ) none Set.univ (m := cM) (r := R1 c) (Mk := Finset.univ) (S := rows c c)
    (by rw [View.setOn_univ, acc_set])) $$ Hown; iintro Hown
  ihave Hown := (Entails.of_eq (pointsTo_congr (own_written m c f0))) $$ Hown
  ihave Hown := (Entails.of_eq (own_pts_eq c (commB m c))) $$ Hown
  -- the entry wait: from every peer, this device's row of the peer's table
  iapply (Rounds.wp_wait_rest_token 𝒱₀ ER (ringRd m) (c : Thread nD τ) none (κ := K (c, 0))
      (wpE_semWait_eq 𝒱₀ (c : Thread nD τ) none Set.univ) (Set.mem_univ _) () (O := Osend c 31) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (bigSep_peers c _))) $$ Hpay
  -- the own row at its two halves; the 31 transfers on pieces of the right half
  ihave Hh := (row_halves c c (commB m c)).1 $$ Hown
  icases Hh with ⟨HownL, HownR⟩
  ihave HS := (sendSt_intro m c W _) $$ [HO HtS HtR Hp HownR]
  · isplitl [HO]; · iexact HO
    isplitl [HtS]; · iexact HtS
    isplitl [HtR]; · iexact HtR
    isplitl [Hp]; · iexact Hp
    iexact HownR
  iapply (sendS 1 dev32_eq) $$ [HS]; (isplitr; iexact HR; iexact HS); iintro HS
  iapply (sendS 2 dev33_eq) $$ [HS]; (isplitr; iexact HR; iexact HS); iintro HS
  iapply (sendS 3 dev34_eq) $$ [HS]; (isplitr; iexact HR; iexact HS); iintro HS
  iapply (sendS 4 dev35_eq) $$ [HS]; (isplitr; iexact HR; iexact HS); iintro HS
  iapply (sendS 5 dev36_eq) $$ [HS]; (isplitr; iexact HR; iexact HS); iintro HS
  iapply (sendS 6 dev37_eq) $$ [HS]; (isplitr; iexact HR; iexact HS); iintro HS
  iapply (sendS 7 dev38_eq) $$ [HS]; (isplitr; iexact HR; iexact HS); iintro HS
  iapply (sendS 8 dev39_eq) $$ [HS]; (isplitr; iexact HR; iexact HS); iintro HS
  iapply (sendS 9 dev40_eq) $$ [HS]; (isplitr; iexact HR; iexact HS); iintro HS
  iapply (sendS 10 dev41_eq) $$ [HS]; (isplitr; iexact HR; iexact HS); iintro HS
  iapply (sendS 11 dev42_eq) $$ [HS]; (isplitr; iexact HR; iexact HS); iintro HS
  iapply (sendS 12 dev43_eq) $$ [HS]; (isplitr; iexact HR; iexact HS); iintro HS
  iapply (sendS 13 dev44_eq) $$ [HS]; (isplitr; iexact HR; iexact HS); iintro HS
  iapply (sendS 14 dev45_eq) $$ [HS]; (isplitr; iexact HR; iexact HS); iintro HS
  iapply (sendS 15 dev46_eq) $$ [HS]; (isplitr; iexact HR; iexact HS); iintro HS
  iapply (sendS 16 dev47_eq) $$ [HS]; (isplitr; iexact HR; iexact HS); iintro HS
  iapply (sendS 17 dev48_eq) $$ [HS]; (isplitr; iexact HR; iexact HS); iintro HS
  iapply (sendS 18 dev49_eq) $$ [HS]; (isplitr; iexact HR; iexact HS); iintro HS
  iapply (sendS 19 dev50_eq) $$ [HS]; (isplitr; iexact HR; iexact HS); iintro HS
  iapply (sendS 20 dev51_eq) $$ [HS]; (isplitr; iexact HR; iexact HS); iintro HS
  iapply (sendS 21 dev52_eq) $$ [HS]; (isplitr; iexact HR; iexact HS); iintro HS
  iapply (sendS 22 dev53_eq) $$ [HS]; (isplitr; iexact HR; iexact HS); iintro HS
  iapply (sendS 23 dev54_eq) $$ [HS]; (isplitr; iexact HR; iexact HS); iintro HS
  iapply (sendS 24 dev55_eq) $$ [HS]; (isplitr; iexact HR; iexact HS); iintro HS
  iapply (sendS 25 dev56_eq) $$ [HS]; (isplitr; iexact HR; iexact HS); iintro HS
  iapply (sendS 26 dev57_eq) $$ [HS]; (isplitr; iexact HR; iexact HS); iintro HS
  iapply (sendS 27 dev58_eq) $$ [HS]; (isplitr; iexact HR; iexact HS); iintro HS
  iapply (sendS 28 dev59_eq) $$ [HS]; (isplitr; iexact HR; iexact HS); iintro HS
  iapply (sendS 29 dev60_eq) $$ [HS]; (isplitr; iexact HR; iexact HS); iintro HS
  iapply (sendS 30 dev61_eq) $$ [HS]; (isplitr; iexact HR; iexact HS); iintro HS
  iapply (sendS 31 dev62_eq) $$ [HS]; (isplitr; iexact HR; iexact HS); iintro HS
  unfold SendSt
  simp only [Nat.reduceAdd, Finset.Ico_self, bigSep_empty]
  icases HS with ⟨⟨%W2, HO⟩, -, Hrem, Hcr⟩
  -- the block of gamma
  iapply (wp_load 𝒱₀ (c : Thread nD τ) none Set.univ (m := gM) (Finset.subset_univ _)) $$ Hg; iintro Hg
  rw [read_g]
  -- the 31 receive waits: the peers' rows, filled
  ihave HS := (recvSt_intro m c W W2) $$ [HO HcV HatV]
  · isplitl [HO]; · iexact HO
    isplitl [HcV]; · iexact HcV
    iexact HatV
  iapply (recvS 1 0) $$ [HS]; (isplitr; iexact HR; iexact HS); iintro HS
  iapply (recvS 2 1) $$ [HS]; (isplitr; iexact HR; iexact HS); iintro HS
  iapply (recvS 3 2) $$ [HS]; (isplitr; iexact HR; iexact HS); iintro HS
  iapply (recvS 4 3) $$ [HS]; (isplitr; iexact HR; iexact HS); iintro HS
  iapply (recvS 5 4) $$ [HS]; (isplitr; iexact HR; iexact HS); iintro HS
  iapply (recvS 6 5) $$ [HS]; (isplitr; iexact HR; iexact HS); iintro HS
  iapply (recvS 7 6) $$ [HS]; (isplitr; iexact HR; iexact HS); iintro HS
  iapply (recvS 8 7) $$ [HS]; (isplitr; iexact HR; iexact HS); iintro HS
  iapply (recvS 9 8) $$ [HS]; (isplitr; iexact HR; iexact HS); iintro HS
  iapply (recvS 10 9) $$ [HS]; (isplitr; iexact HR; iexact HS); iintro HS
  iapply (recvS 11 10) $$ [HS]; (isplitr; iexact HR; iexact HS); iintro HS
  iapply (recvS 12 11) $$ [HS]; (isplitr; iexact HR; iexact HS); iintro HS
  iapply (recvS 13 12) $$ [HS]; (isplitr; iexact HR; iexact HS); iintro HS
  iapply (recvS 14 13) $$ [HS]; (isplitr; iexact HR; iexact HS); iintro HS
  iapply (recvS 15 14) $$ [HS]; (isplitr; iexact HR; iexact HS); iintro HS
  iapply (recvS 16 15) $$ [HS]; (isplitr; iexact HR; iexact HS); iintro HS
  iapply (recvS 17 16) $$ [HS]; (isplitr; iexact HR; iexact HS); iintro HS
  iapply (recvS 18 17) $$ [HS]; (isplitr; iexact HR; iexact HS); iintro HS
  iapply (recvS 19 18) $$ [HS]; (isplitr; iexact HR; iexact HS); iintro HS
  iapply (recvS 20 19) $$ [HS]; (isplitr; iexact HR; iexact HS); iintro HS
  iapply (recvS 21 20) $$ [HS]; (isplitr; iexact HR; iexact HS); iintro HS
  iapply (recvS 22 21) $$ [HS]; (isplitr; iexact HR; iexact HS); iintro HS
  iapply (recvS 23 22) $$ [HS]; (isplitr; iexact HR; iexact HS); iintro HS
  iapply (recvS 24 23) $$ [HS]; (isplitr; iexact HR; iexact HS); iintro HS
  iapply (recvS 25 24) $$ [HS]; (isplitr; iexact HR; iexact HS); iintro HS
  iapply (recvS 26 25) $$ [HS]; (isplitr; iexact HR; iexact HS); iintro HS
  iapply (recvS 27 26) $$ [HS]; (isplitr; iexact HR; iexact HS); iintro HS
  iapply (recvS 28 27) $$ [HS]; (isplitr; iexact HR; iexact HS); iintro HS
  iapply (recvS 29 28) $$ [HS]; (isplitr; iexact HR; iexact HS); iintro HS
  iapply (recvS 30 29) $$ [HS]; (isplitr; iexact HR; iexact HS); iintro HS
  iapply (recvS 31 30) $$ [HS]; (isplitr; iexact HR; iexact HS); iintro HS
  unfold RecvSt
  simp only [Nat.reduceAdd, Finset.Ico_self, bigSep_empty]
  icases HS with ⟨⟨%W3, HO⟩, -, Hgot⟩
  unfold recvGot
  ihave Hgot' := (Entails.of_eq (bigSep_sep' (Finset.Ico 1 32) (fun i => rowPts (F := F) fullShare c (pk c i) (commB m c))
    (fun i => semVal (rcvCell c (pk c i)) 0))) $$ Hgot
  icases Hgot' with ⟨Hpeers, HzV⟩
  -- the whole table read at its left half
  ihave Hph := (run_halves c (commB m c)).1 $$ Hpeers
  icases Hph with ⟨HpL, HpR⟩
  ihave Htab := (Entails.of_eq (rows_join fullShare.left c (commB m c)).symm) $$ [HownL HpL]
  · isplitl [HownL]; · iexact HownL
    iexact HpL
  iapply (wp_load 𝒱₀ (c : Thread nD τ) none Set.univ (m := cM) (Finset.subset_univ _)) $$ Htab; iintro Htab
  rw [read_t]
  -- the result stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the 31 send waits: the lent shares back
  ihave HS := (swSt_intro m c W W3) $$ [HO Hcr HatS]
  · isplitl [HO]; · iexact HO
    isplitl [Hcr]; · iexact Hcr
    iexact HatS
  iapply (swS 1) $$ [HS]; (isplitr; iexact HR; iexact HS); iintro HS
  iapply (swS 2) $$ [HS]; (isplitr; iexact HR; iexact HS); iintro HS
  iapply (swS 3) $$ [HS]; (isplitr; iexact HR; iexact HS); iintro HS
  iapply (swS 4) $$ [HS]; (isplitr; iexact HR; iexact HS); iintro HS
  iapply (swS 5) $$ [HS]; (isplitr; iexact HR; iexact HS); iintro HS
  iapply (swS 6) $$ [HS]; (isplitr; iexact HR; iexact HS); iintro HS
  iapply (swS 7) $$ [HS]; (isplitr; iexact HR; iexact HS); iintro HS
  iapply (swS 8) $$ [HS]; (isplitr; iexact HR; iexact HS); iintro HS
  iapply (swS 9) $$ [HS]; (isplitr; iexact HR; iexact HS); iintro HS
  iapply (swS 10) $$ [HS]; (isplitr; iexact HR; iexact HS); iintro HS
  iapply (swS 11) $$ [HS]; (isplitr; iexact HR; iexact HS); iintro HS
  iapply (swS 12) $$ [HS]; (isplitr; iexact HR; iexact HS); iintro HS
  iapply (swS 13) $$ [HS]; (isplitr; iexact HR; iexact HS); iintro HS
  iapply (swS 14) $$ [HS]; (isplitr; iexact HR; iexact HS); iintro HS
  iapply (swS 15) $$ [HS]; (isplitr; iexact HR; iexact HS); iintro HS
  iapply (swS 16) $$ [HS]; (isplitr; iexact HR; iexact HS); iintro HS
  iapply (swS 17) $$ [HS]; (isplitr; iexact HR; iexact HS); iintro HS
  iapply (swS 18) $$ [HS]; (isplitr; iexact HR; iexact HS); iintro HS
  iapply (swS 19) $$ [HS]; (isplitr; iexact HR; iexact HS); iintro HS
  iapply (swS 20) $$ [HS]; (isplitr; iexact HR; iexact HS); iintro HS
  iapply (swS 21) $$ [HS]; (isplitr; iexact HR; iexact HS); iintro HS
  iapply (swS 22) $$ [HS]; (isplitr; iexact HR; iexact HS); iintro HS
  iapply (swS 23) $$ [HS]; (isplitr; iexact HR; iexact HS); iintro HS
  iapply (swS 24) $$ [HS]; (isplitr; iexact HR; iexact HS); iintro HS
  iapply (swS 25) $$ [HS]; (isplitr; iexact HR; iexact HS); iintro HS
  iapply (swS 26) $$ [HS]; (isplitr; iexact HR; iexact HS); iintro HS
  iapply (swS 27) $$ [HS]; (isplitr; iexact HR; iexact HS); iintro HS
  iapply (swS 28) $$ [HS]; (isplitr; iexact HR; iexact HS); iintro HS
  iapply (swS 29) $$ [HS]; (isplitr; iexact HR; iexact HS); iintro HS
  iapply (swS 30) $$ [HS]; (isplitr; iexact HR; iexact HS); iintro HS
  iapply (swS 31) $$ [HS]; (isplitr; iexact HR; iexact HS); iintro HS
  unfold SwSt
  simp only [Nat.reduceAdd, Finset.Ico_self, bigSep_empty]
  icases HS with ⟨⟨%W4, HO⟩, -, Hsw⟩
  unfold swGot
  ihave Hsw' := (Entails.of_eq (bigSep_sep' (Finset.Ico 1 32) (fun i => rowPts (F := F) (piece (i - 1)) c c (commB m c))
    (fun i => semVal (sndCell c (fk i)) 0))) $$ Hsw
  icases Hsw' with ⟨Hpcs, HzS⟩
  -- the two own cells no transfer used close at zero
  imod (Rounds.cell_close ER (ringRd m) (Set.mem_univ (K (c, sIx 0))) (fun h => h) (R := 0) (duties_snd0 m c)) $$ [HatS0] with HzS0
  · isplitr; · iapply (inv_snd m K c 0); iexact HR
    iexact HatS0
  imod (Rounds.cell_close ER (ringRd m) (Set.mem_univ (K (c, rIx c))) (fun h => h) (R := 0) (duties_rcvself m c)) $$ [HatVc] with HzVc
  · isplitr; · iapply (inv_rcv m K c c); iexact HR
    iexact HatVc
  -- the rows joined into the table again
  ihave HownR := (pieces_join c c (commB m c) 31) $$ [Hpcs Hrem]
  · isplitl [Hpcs]; · iexact Hpcs
    iexact Hrem
  ihave Hrows := (Entails.of_eq (rows_join fullShare.left c (commB m c))) $$ Htab
  icases Hrows with ⟨HownL, HpL⟩
  ihave Hown := (row_halves c c (commB m c)).2 $$ [HownL HownR]
  · isplitl [HownL]; · iexact HownL
    iexact HownR
  ihave Hpeers := (run_halves c (commB m c)).2 $$ [HpL HpR]
  · isplitl [HpL]; · iexact HpL
    iexact HpR
  ihave Htab := (Entails.of_eq (rows_join fullShare c (commB m c)).symm) $$ [Hown Hpeers]
  · isplitl [Hown]; · iexact Hown
    iexact Hpeers
  rw [wp_ret]; imodintro
  iapply Hk
  unfold bodyPost Φ₁ Dat.owesAt Pipeline.owesWithin
  rw [show (dats m ρ 0 c).owed t₀.succ = 0 from rfl]
  isplitl [Htab HzS0 HzVc HzS HzV]
  · isplitl [Htab]; · iexists (commB m c); iexact Htab
    isplitl [HzS0]; · iexact HzS0
    isplitl [HzVc]; · iexact HzVc
    isplitl [HzS]; · iexact HzS
    iexact HzV
  isplitl [HO]
  · iexists W4
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

end Body

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hgh⟩, Hrest⟩, Hscr⟩, Ho, Hx, Hgm, Hout⟩
  iapply (sound_body m ρ K c fun _ => bodyPost m ρ c)
  unfold bodyPre
  isplitr []
  · isplitl [Hgh Hrest Hscr]
    · isplitl [Hgh]; · iexact Hgh
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgm]; · iexact Hgm
    iexact Hout
  · iintro H; iexact H

end Cert.Kernel.Hand

end
-- ==== Proof.Kernel.Launch.lean ====
/-
  The launch of the one region: from each device's body obligation to the run of the whole mesh.

  The collective's ghost state is funded for all 32 devices at once: every device's 65 cells (its entry cell, 32 send
  cells, 32 receive cells) get their invariants under one update, and every duty's token goes to the device that
  pays it. What the peers owe a device at launch comes to it as credit: 31 units on its entry cell and one row's
  credit on each of its 31 receive cells in use.
-/
import proofs.«901006_g7700000000001007_dist_rmsnorm_colshard_i_m512_n256_v7x_i32_bf16_1_alg».proof.Proof.Kernel.Data
import proofs.«901006_g7700000000001007_dist_rmsnorm_colshard_i_m512_n256_v7x_i32_bf16_1_alg».proof.Proof.Gen.Kernel.Launch
import proofs.«901006_g7700000000001007_dist_rmsnorm_colshard_i_m512_n256_v7x_i32_bf16_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout's side conditions -/

/-- The 64 semaphores of the kernel's own are scoped, pairwise distinct, and none stages a window. -/
theorem ownSemFacts : Pipeline.OwnSemFacts cfg0.spec osem where
  isScoped := by decide +kernel
  inj := fun i j h => by
    have h1 : 3 + i.val = 3 + j.val := congrArg Fin.val (SemLoc.dma.inj h)
    exact Fin.ext (by omega)
  disj := by decide +kernel

theorem share_eq (c : Dev nD) (w : Fin cfg0.W) : (dats (F := F) m ρ 0 c).share w = fullShare :=
  Pipeline.Dat.share_full _ (fun _ => rfl) w

/-! ## The cells of the collective, and the tokens of its duties -/

/-- A cell's place among a device's 65, read back off the semaphore: the left inverse of `csem`. -/
def cidx : SemLoc sig → ℕ
  | .reg _ => 0
  | .dma q => q.val - 2

theorem cidx_reg (s : Sem sig) : cidx (.reg s) = 0 := rfl
theorem cidx_snd (k : Fin 32) : cidx (.dma (sendQ k)) = 1 + k.val := by
  show 3 + k.val - 2 = 1 + k.val; omega
theorem cidx_rcv (s : Dev nD) : cidx (.dma (recvQ s)) = 33 + s.val := by
  show 35 + s.val - 2 = 33 + s.val; omega

theorem cidx_csem (i : Fin 65) : cidx (csem i) = i.val := by
  have hi := i.isLt
  unfold csem
  by_cases h0 : i.val = 0
  · rw [if_pos h0, cidx_reg]; exact h0.symm
  · rw [if_neg h0]
    by_cases h1 : i.val < 33
    · rw [if_pos h1, cidx_snd]; show 1 + (i.val - 1) % 32 = i.val; omega
    · rw [if_neg h1, cidx_rcv]; show 33 + (i.val - 33) % 32 = i.val; omega

theorem kcell_injective : Function.Injective (kcell : Dev nD × Fin 65 → GSem nD τ sig) := by
  rintro ⟨c, k⟩ ⟨c', k'⟩ h
  have h1 : c = c' := congrArg (fun g : GSem nD τ sig => g.1.1) h
  have h2 : csem k = csem k' := congrArg Prod.snd h
  have h3 : k = k' := Fin.ext ((cidx_csem k).symm.trans ((congrArg cidx h2).trans (cidx_csem k')))
  rw [h1, h3]

def ringCells : Finset (GSem nD τ sig) := Finset.univ.map ⟨kcell, kcell_injective⟩

/-- The token of each duty, indexed by the device that PAYS it, the distance `1 + r` of the peer concerned, and the
    kind: the peer's entry duty, the payer's own send duty, the peer's receive duty for the payer's row. -/
def tokOf (x : Dev nD × Fin 31 × Fin 3) : GSem nD τ sig × ℕ × Dev nD :=
  if x.2.2.val = 0 then (barCell (pk x.1 (1 + x.2.1.val)), 0, x.1)
  else if x.2.2.val = 1 then (sndCell x.1 (fk (1 + x.2.1.val)), 0, x.1)
  else (rcvCell (pk x.1 (1 + x.2.1.val)) x.1, 0, x.1)

theorem tokOf_zero (c : Dev nD) (r : Fin 31) : tokOf (c, r, 0) = (barCell (pk c (1 + r.val)), 0, c) := rfl
theorem tokOf_one (c : Dev nD) (r : Fin 31) : tokOf (c, r, 1) = (sndCell c (fk (1 + r.val)), 0, c) := rfl
theorem tokOf_two (c : Dev nD) (r : Fin 31) : tokOf (c, r, 2) = (rcvCell (pk c (1 + r.val)) c, 0, c) := rfl

/-- What tells a token's index: the payer, the place of its cell among a device's 65, and the cell's device. -/
theorem tokOf_key (c : Dev nD) (r : Fin 31) (k : Fin 3) :
    (tokOf (c, r, k)).2.2 = c ∧
      ((k = 0 ∧ cidx (tokOf (c, r, k)).1.2 = 0 ∧ (tokOf (c, r, k)).1.1.1 = pk c (1 + r.val))
        ∨ (k = 1 ∧ cidx (tokOf (c, r, k)).1.2 = 2 + r.val)
        ∨ (k = 2 ∧ cidx (tokOf (c, r, k)).1.2 = 33 + c.val ∧ (tokOf (c, r, k)).1.1.1 = pk c (1 + r.val))) := by
  have hr := r.isLt
  have hk : k = 0 ∨ k = 1 ∨ k = 2 := by revert k; decide
  rcases hk with rfl | rfl | rfl
  · rw [tokOf_zero]; exact ⟨rfl, Or.inl ⟨rfl, rfl, rfl⟩⟩
  · rw [tokOf_one]
    refine ⟨rfl, Or.inr (Or.inl ⟨rfl, ?_⟩)⟩
    show cidx (.dma (sendQ (fk (1 + r.val)))) = 2 + r.val
    rw [cidx_snd, fk_val (1 + r.val) (by omega)]; omega
  · rw [tokOf_two]
    exact ⟨rfl, Or.inr (Or.inr ⟨rfl, cidx_rcv c, rfl⟩)⟩

theorem tokOf_injective : Function.Injective (tokOf : Dev nD × Fin 31 × Fin 3 → GSem nD τ sig × ℕ × Dev nD) := by
  rintro ⟨c, r, k⟩ ⟨c', r', k'⟩ h
  obtain ⟨hc, hk⟩ := tokOf_key c r k
  obtain ⟨hc', hk'⟩ := tokOf_key c' r' k'
  have e : c = c' := hc.symm.trans ((congrArg (fun x : GSem nD τ sig × ℕ × Dev nD => x.2.2) h).trans hc')
  subst e
  rw [h] at hk
  have hr := r.isLt; have hr' := r'.isLt; have hcl := c.isLt
  have hinj : ∀ {a b : Fin 31}, pk c (1 + a.val) = pk c (1 + b.val) → a = b := fun {a b} hp =>
    Fin.ext (by have := pk_inj c (by have := a.isLt; omega) (by have := b.isLt; omega) hp; omega)
  rcases hk with ⟨rfl, h0, hd⟩ | ⟨rfl, h1⟩ | ⟨rfl, h2, hd⟩ <;> rcases hk' with ⟨rfl, h0', hd'⟩ | ⟨rfl, h1'⟩ | ⟨rfl, h2', hd'⟩
  · rw [hinj (hd.symm.trans hd')]
  · omega
  · omega
  · omega
  · rw [show r = r' from Fin.ext (by omega)]
  · omega
  · omega
  · omega
  · rw [hinj (hd.symm.trans hd')]

def ringToks : Finset (GSem nD τ sig × ℕ × Dev nD) := Finset.univ.map ⟨tokOf, tokOf_injective⟩

/-- The launch element: the pipeline's staging cells, and the collective's cells and duty tokens. -/
def u₀ : UU :=
  (initOf (Pipeline.cells cfgs cellOf_inj) (Pipeline.launchToks cfgs cellOf_inj), initOf ringCells ringToks)

/-! ## What the launch element deals each device -/

/-- The tokens device `c` pays with, as minted: per distance, the three kinds. -/
def toks (c : Dev nD) : sProp 𝕄 :=
  bigSep Finset.univ fun r : Fin 31 => bigSep Finset.univ fun k : Fin 3 =>
    dutyTok ER (tokOf (c, r, k)).1 (tokOf (c, r, k)).2.1 (tokOf (c, r, k)).2.2

/-- What the launch element deals device `c` (the launch theorem's `G`): its own 65 cells' round states, its positions
    on them, that their round 0 is reached, and the tokens of the duties it pays. -/
def G (c : Dev nD) : sProp 𝕄 :=
  iprop((bigSep Finset.univ fun k : Fin 65 => roundState ER (ringRd m) (kcell (c, k)) 0)
    ∗ (bigSep Finset.univ fun k : Fin 65 => iprop(atPos ER (kcell (c, k)) 0 ∅ 0 ∗ reached ER (kcell (c, k)) 0)) ∗ toks (F := F) c)

/-- What the global step makes of it (`G'`). -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 65 => Φ (kcell (c, k)) := by
    unfold ringCells; rw [bigSep_map, bigSep_univ_prod] <;> rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_prod] <;> rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's 65 cells laid out: its entry cell, its 32 send cells, its 32 receive cells -/

/-- A family over `Fin (a + b)` is the family over the first `a` numbers and the family over the last `b`. -/
theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) :=
  (bigSep_univ_equiv (finSumFinEquiv (m := a) (n := b)) Φ).trans (bigSep_univ_sum _)

theorem ix_snd (k : Fin 32) : (Fin.natAdd 1 (Fin.castAdd 32 k : Fin 64) : Fin 65) = sIx k := Fin.ext rfl
theorem ix_rcv (s : Dev nD) : (Fin.natAdd 1 (Fin.natAdd 32 s : Fin 64) : Fin 65) = rIx s :=
  Fin.ext (by show 1 + (32 + s.val) = 33 + s.val; omega)

theorem cells_layout (c : Dev nD) (Φ : GSem nD τ sig → sProp 𝕄) :
    bigSep Finset.univ (fun k : Fin 65 => Φ (kcell (c, k)))
      = iprop(Φ (barCell c) ∗ (bigSep Finset.univ fun k : Fin 32 => Φ (sndCell c k)) ∗ bigSep Finset.univ fun s : Dev nD => Φ (rcvCell c s)) := by
  have e1 : bigSep Finset.univ (fun k : Fin 65 => Φ (kcell (c, k)))
      = iprop((bigSep Finset.univ fun i : Fin 1 => Φ (kcell (c, (Fin.castAdd 64 i : Fin 65))))
          ∗ bigSep Finset.univ fun j : Fin 64 => Φ (kcell (c, (Fin.natAdd 1 j : Fin 65)))) :=
    bigSep_fin_add 1 64 (fun k : Fin 65 => Φ (kcell (c, k)))
  have e2 : (bigSep Finset.univ fun j : Fin 64 => Φ (kcell (c, (Fin.natAdd 1 j : Fin 65))))
      = iprop((bigSep Finset.univ fun k : Fin 32 => Φ (kcell (c, (Fin.natAdd 1 (Fin.castAdd 32 k : Fin 64) : Fin 65))))
          ∗ bigSep Finset.univ fun s : Fin 32 => Φ (kcell (c, (Fin.natAdd 1 (Fin.natAdd 32 s : Fin 64) : Fin 65)))) :=
    bigSep_fin_add 32 32 (fun j : Fin 64 => Φ (kcell (c, (Fin.natAdd 1 j : Fin 65))))
  have h0 : (bigSep Finset.univ fun i : Fin 1 => Φ (kcell (c, (Fin.castAdd 64 i : Fin 65)))) = Φ (barCell c) :=
    (bigSep_univ_of_subsingleton (0 : Fin 1)).trans (congrArg Φ (kcell_bar c))
  have hS : (bigSep Finset.univ fun k : Fin 32 => Φ (kcell (c, (Fin.natAdd 1 (Fin.castAdd 32 k : Fin 64) : Fin 65))))
      = bigSep Finset.univ fun k : Fin 32 => Φ (sndCell c k) :=
    bigSep_congr fun k _ => congrArg Φ ((congrArg (fun i : Fin 65 => kcell (c, i)) (ix_snd k)).trans (kcell_snd c k))
  have hR : (bigSep Finset.univ fun s : Fin 32 => Φ (kcell (c, (Fin.natAdd 1 (Fin.natAdd 32 s : Fin 64) : Fin 65))))
      = bigSep Finset.univ fun s : Dev nD => Φ (rcvCell c s) :=
    bigSep_congr fun s _ => congrArg Φ ((congrArg (fun i : Fin 65 => kcell (c, i)) (ix_rcv s)).trans (kcell_rcv c s))
  rw [e1, e2, h0, hS, hR]

/-! ## The semaphores at zero -/

/-- The kernel's own 64 semaphores are the 32 send and the 32 receive cells; -/
theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 32 => semVal (sndCell c k) 0) ∗ bigSep Finset.univ fun s : Dev nD => semVal (rcvCell c s) 0) := by
  unfold Pipeline.ownSems0
  have e := bigSep_fin_add 32 32 (fun i : Fin 64 => (semVal ((c : Thread nD τ), osem i) 0 : sProp 𝕄))
  have hS : (bigSep Finset.univ fun k : Fin 32 => (semVal ((c : Thread nD τ), osem (Fin.castAdd 32 k : Fin 64)) 0 : sProp 𝕄))
      = bigSep Finset.univ fun k : Fin 32 => semVal (sndCell c k) 0 := rfl
  have hR : (bigSep Finset.univ fun s : Fin 32 => (semVal ((c : Thread nD τ), osem (Fin.natAdd 32 s : Fin 64)) 0 : sProp 𝕄))
      = bigSep Finset.univ fun s : Dev nD => semVal (rcvCell c s) 0 :=
    bigSep_congr fun s _ => by
      have hs : osem (Fin.natAdd 32 s : Fin 64) = .dma (recvQ s) :=
        congrArg SemLoc.dma (Fin.ext (by show 3 + (32 + s.val) = 35 + s.val; omega))
      rw [hs]
  exact e.trans (by rw [hS, hR])

/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)] <;> rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [ownSems0_eq, unscopedSems0_eq, cells_layout c (fun g => (semVal g 0 : sProp 𝕄))]
  iintro ⟨⟨HS, HV⟩, HB⟩
  isplitl [HB]; · iexact HB
  isplitl [HS] <;> iassumption

/-- Every cell of device `c` gets its invariant: its counter at zero and its round state at zero are the invariant's body. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 65 => iprop(∃ κ : ℕ, cellInv ER (ringRd m) κ (kcell (c, k))))
          ∗ (bigSep Finset.univ fun k : Fin 65 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (ringRd m) (kcell (c, k)) 0)
      ⊢ (|={Set.univ}=> bigSep Finset.univ fun k : Fin 65 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: names for the invariants, and everything laid out as the proof data spells it -/

/-- A family over the 32 send semaphores: the unused one at 0 apart, the others by the distance they serve. -/
theorem bigSep_fin32 (Ψ : Fin 32 → sProp 𝕄) :
    bigSep Finset.univ Ψ = iprop(Ψ 0 ∗ bigSep (Finset.Ico 1 32) fun j => Ψ (fk j)) := by
  have e1 := Ring.bigSep_fin_eq_range 32 Ψ (fun t => Ψ (fk t)) (fun t h => congrArg Ψ (fk_eq t h))
  have e2 := Ring.bigSep_Ico_succ (by decide : 0 < 32) (fun t => Ψ (fk t))
  rw [Finset.range_eq_Ico] at e1
  exact e1.trans e2

theorem range_shift : (Finset.range 31).image (fun t => 1 + t) = Finset.Ico 1 32 := by
  ext x
  simp only [Finset.mem_image, Finset.mem_range, Finset.mem_Ico]
  constructor
  · rintro ⟨t, ht, rfl⟩; omega
  · intro h; exact ⟨x - 1, by omega, by omega⟩

/-- A family over the 31 distances, numbered from 0, is the run over the distances 1 … 31. -/
theorem bigSep_fin31 (A : ℕ → sProp 𝕄) : bigSep Finset.univ (fun r : Fin 31 => A (1 + r.val)) = bigSep (Finset.Ico 1 32) A := by
  have e1 := Ring.bigSep_fin_eq_range 31 (fun r : Fin 31 => A (1 + r.val)) (fun t => A (1 + t)) (fun t h => rfl)
  have e2 := bigSep_image_of_injOn (f := fun t : ℕ => 1 + t) (s := Finset.range 31)
    (fun a _ b _ h => by have h' : 1 + a = 1 + b := h; omega) A
  rw [range_shift] at e2
  exact e1.trans e2.symm

/-- The tokens a device was dealt are, per distance, the three it pays with. -/
theorem toks_eq (c : Dev nD) : toks (F := F) c = bigSep (Finset.Ico 1 32) (fun j => payTok (F := F) c j) := by
  unfold toks
  rw [← bigSep_fin31 (fun j => payTok (F := F) c j)]
  exact bigSep_congr fun r _ => (bigSep_W0 _).trans rfl

/-- What stays with device `c` besides the invariants' names: its positions and the tokens it pays with. -/
def linear (c : Dev nD) : sProp 𝕄 :=
  iprop((bigSep Finset.univ fun k : Fin 65 => atPos ER (kcell (c, k)) 0 ∅ 0) ∗ toks (F := F) c)

theorem ghost_intro (K : Dev nD × Fin 65 → ℕ) (c : Dev nD) : iprop(records m K ∗ linear (F := F) c) ⊢ G' m c := by
  unfold linear G' ghost
  rw [cells_layout c (fun g => (atPos ER g 0 ∅ 0 : sProp 𝕄)), bigSep_fin32 (fun k => (atPos ER (sndCell c k) 0 ∅ 0 : sProp 𝕄)),
    bigSep_univ_at (fun s : Dev nD => (atPos ER (rcvCell c s) 0 ∅ 0 : sProp 𝕄)) c,
    bigSep_peers c (fun s => (atPos ER (rcvCell c s) 0 ∅ 0 : sProp 𝕄)), toks_eq]
  iintro ⟨#HR, ⟨HaB, ⟨HaS0, HaS⟩, HaR0, HaR⟩, Htok⟩
  iexists K
  isplitr; · iexact HR
  isplitl [HaB]; · iexact HaB
  isplitl [HaS]; · iexact HaS
  isplitl [HaR]; · iexact HaR
  isplitl [HaS0]; · iexact HaS0
  isplitl [HaR0]; · iexact HaR0
  iexact Htok

theorem regroup :
    (bigSep Finset.univ fun c : Dev nD => iprop((bigSep Finset.univ fun k : Fin 65 => iprop(∃ κ : ℕ, cellInv ER (ringRd m) κ (kcell (c, k))))
          ∗ (bigSep Finset.univ fun k : Fin 65 => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 65 => iprop(∃ κ : ℕ, cellInv ER (ringRd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 65 => (atPos ER (kcell (c, k)) 0 ∅ 0 : sProp 𝕄))
        (fun c => toks (F := F) c)).symm).trans
      (bigSep_mono fun c _ => show _ ⊢ linear (F := F) c from Entails.of_eq (by unfold linear; rfl)))
    isplitl [Hat]; · iexact Hat
    iexact Htok

/-- The global step (`hglob`): the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes, at launch, one unit to the entry cell of every peer and one row's credit to the receive cell for its
row on every peer. Summed over the devices, device `c`'s entry cell is owed 31 units and its receive cell for a
peer's row that row's credit. -/

theorem Osend_sum (d : Dev nD) : ∀ n, n ≤ 31 →
    Osend d n = ∑ i ∈ Finset.Ico (32 - n) 32, (tallyAt (rcvCell (pk d i) d) () N : CellTallies nD τ sig Unit)
  | 0, _ => by
    show (0 : CellTallies nD τ sig Unit) = _
    rw [show 32 - 0 = 32 from rfl, Finset.Ico_self, Finset.sum_empty]
  | n + 1, h => by
    rw [show 32 - (n + 1) = 31 - n by omega, Ring.sum_Ico_succ (by omega : 31 - n < 32), show 31 - n + 1 = 32 - n by omega,
      ← Osend_sum d n (by omega)]
    show Osend d n + tallyAt (rcvCell (pk d (31 - n)) d) () N = _
    exact add_comm _ _

theorem Osig_sum (d : Dev nD) : ∀ n, n ≤ 31 →
    Osig d n = Osend d 31 + ∑ i ∈ Finset.Ico (32 - n) 32, (tallyAt (barCell (pk d i)) () 1 : CellTallies nD τ sig Unit)
  | 0, _ => by
    show Osend d 31 = _
    rw [show 32 - 0 = 32 from rfl, Finset.Ico_self, Finset.sum_empty, add_zero]
  | n + 1, h => by
    rw [show 32 - (n + 1) = 31 - n by omega, Ring.sum_Ico_succ (by omega : 31 - n < 32), show 31 - n + 1 = 32 - n by omega]
    show Osig d n + tallyAt (barCell (pk d (31 - n))) () 1 = _
    rw [Osig_sum d n (by omega), add_assoc,
      add_comm (∑ i ∈ Finset.Ico (32 - n) 32, (tallyAt (barCell (pk d i)) () 1 : CellTallies nD τ sig Unit))]

theorem Osend31 (d : Dev nD) :
    Osend d 31 = ∑ i ∈ Finset.Ico 1 32, (tallyAt (rcvCell (pk d i) d) () N : CellTallies nD τ sig Unit) := Osend_sum d 31 le_rfl
theorem O₀_sum (d : Dev nD) :
    O₀ d = Osend d 31 + ∑ i ∈ Finset.Ico 1 32, (tallyAt (barCell (pk d i)) () 1 : CellTallies nD τ sig Unit) := Osig_sum d 31 le_rfl

/-- A sum of one-cell tallies over a run of numbers, read at a cell. -/
theorem sum_tally_apply (S : Finset ℕ) (cell : ℕ → GSem nD τ sig) (k : ℕ) (g : GSem nD τ sig) :
    (∑ i ∈ S, (tallyAt (cell i) () k : CellTallies nD τ sig Unit)) g () = ∑ i ∈ S, if g = cell i then k else 0 := by
  rw [Finset.sum_apply, Finsupp.finsetSum_apply]
  exact Finset.sum_congr rfl fun i _ => by rw [tallyAt_apply]; exact if_congr (and_iff_left rfl) rfl rfl

theorem O₀_apply (d : Dev nD) (g : GSem nD τ sig) :
    O₀ d g () = (∑ i ∈ Finset.Ico 1 32, if g = rcvCell (pk d i) d then N else 0) + ∑ i ∈ Finset.Ico 1 32, if g = barCell (pk d i) then 1 else 0 := by
  rw [O₀_sum, Osend31, Pi.add_apply, Finsupp.add_apply,
    sum_tally_apply (Finset.Ico 1 32) (fun i => rcvCell (pk d i) d) N g, sum_tally_apply (Finset.Ico 1 32) (fun i => barCell (pk d i)) 1 g]

theorem bar_ne_rcv (c p s : Dev nD) : barCell c ≠ rcvCell p s := fun h => rcv_ne_bar s (congrArg Prod.snd h).symm
theorem rcv_ne_bar' (c s p : Dev nD) : rcvCell c s ≠ barCell p := fun h => rcv_ne_bar s (congrArg Prod.snd h)
theorem bar_inj {a b : Dev nD} (h : barCell a = barCell b) : a = b := congrArg (fun g : GSem nD τ sig => g.1.1) h
theorem rcv_inj {a b s t : Dev nD} (h : rcvCell a s = rcvCell b t) : a = b ∧ s = t :=
  ⟨congrArg (fun g : GSem nD τ sig => g.1.1) h, by
    have h2 : (SemLoc.dma (recvQ s) : SemLoc sig) = .dma (recvQ t) := congrArg Prod.snd h
    have h3 : 35 + s.val = 35 + t.val := congrArg Fin.val (SemLoc.dma.inj h2)
    exact Fin.ext (by omega)⟩

/-- Device `d` owes device `c`'s entry cell one unit, unless it is `c` itself. -/
theorem owed_bar (d c : Dev nD) : O₀ d (barCell c) () = if d = c then 0 else 1 := by
  have hz : (∑ i ∈ Finset.Ico 1 32, if barCell c = rcvCell (pk d i) d then N else 0) = 0 :=
    Finset.sum_eq_zero fun i _ => if_neg (bar_ne_rcv c _ _)
  rw [O₀_apply, hz, Nat.zero_add]
  by_cases h : d = c
  · subst h
    rw [if_pos rfl]
    exact Finset.sum_eq_zero fun i hi => if_neg fun e => by
      have := Finset.mem_Ico.mp hi
      exact pk_ne d i this.1 (by omega) (bar_inj e).symm
  · rw [if_neg h]
    obtain ⟨j, h1, h2, hj⟩ := exists_pk d c (fun e => h e.symm)
    exact (Finset.sum_eq_single_of_mem j (Finset.mem_Ico.mpr ⟨h1, by omega⟩) (fun i hi hne => if_neg fun e => hne (by
      have := Finset.mem_Ico.mp hi
      exact pk_inj d (by omega) (by omega) ((bar_inj e).symm.trans hj.symm)))).trans (if_pos (by rw [hj]))

/-- Device `d` owes device `c`'s receive cell for a peer `s`'s row that row's credit when it is `s`, else nothing. -/
theorem owed_rcv (d c s : Dev nD) (hs : s ≠ c) : O₀ d (rcvCell c s) () = if d = s then N else 0 := by
  have hz : (∑ i ∈ Finset.Ico 1 32, if rcvCell c s = barCell (pk d i) then 1 else 0) = 0 :=
    Finset.sum_eq_zero fun i _ => if_neg (rcv_ne_bar' c s _)
  rw [O₀_apply, hz, Nat.add_zero]
  by_cases h : d = s
  · subst h
    rw [if_pos rfl]
    obtain ⟨j, h1, h2, hj⟩ := exists_pk d c (fun e => hs e.symm)
    exact (Finset.sum_eq_single_of_mem j (Finset.mem_Ico.mpr ⟨h1, by omega⟩) (fun i hi hne => if_neg fun e => hne (by
      have := Finset.mem_Ico.mp hi
      exact pk_inj d (by omega) (by omega) ((rcv_inj e).1.symm.trans hj.symm)))).trans (if_pos (by rw [hj]))
  · rw [if_neg h]
    exact Finset.sum_eq_zero fun i _ => if_neg fun e => h (rcv_inj e).2.symm

theorem sum_others : ∀ c : Dev nD, (∑ d : Dev nD, if d = c then 0 else 1) = 31 := by decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_rcv (c s : Dev nD) (hs : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s hs,
    Finset.sum_ite_eq' Finset.univ s fun _ => N, if_pos (Finset.mem_univ _)]

theorem rcv_sems_sub (c : Dev nD) :
    (Finset.Ico 1 32).image (fun j => (SemLoc.dma (recvQ (pk c j)) : SemLoc sig)) ⊆ Finset.univ.erase (SemLoc.reg barS) := fun sm h => by
  obtain ⟨j, -, rfl⟩ := Finset.mem_image.mp h
  exact Finset.mem_erase.mpr ⟨rcv_ne_bar _, Finset.mem_univ _⟩

theorem rcv_sems_inj (c : Dev nD) :
    Set.InjOn (fun j => (SemLoc.dma (recvQ (pk c j)) : SemLoc sig)) (Finset.Ico 1 32 : Finset ℕ) := fun i hi j hj h => by
  have hi' := Finset.mem_Ico.mp (Finset.mem_coe.mp hi)
  have hj' := Finset.mem_Ico.mp (Finset.mem_coe.mp hj)
  have h2 : (SemLoc.dma (recvQ (pk c i)) : SemLoc sig) = .dma (recvQ (pk c j)) := h
  have h3 : 35 + (pk c i).val = 35 + (pk c j).val := congrArg Fin.val (SemLoc.dma.inj h2)
  exact pk_inj c (by omega) (by omega) (Fin.ext (by omega))

/-- Of a family over a device's semaphores other than the entry one, the members at the receive semaphores of its 31 peers. -/
theorem rest_to_run (c : Dev nD) (Ψ : SemLoc sig → sProp 𝕄) (s : Finset (SemLoc sig)) (hs : s = Finset.univ.erase (SemLoc.reg barS)) :
    bigSep s Ψ ⊢ bigSep (Finset.Ico 1 32) fun j => Ψ (.dma (recvQ (pk c j))) :=
  (bigSep_subset (hs ▸ rcv_sems_sub c)).trans (Entails.of_eq (bigSep_image_of_injOn (rcv_sems_inj c) Ψ))

/-- One receive cell's launch credit is the row's credit. -/
theorem cred_rcv (c : Dev nD) (j : ℕ) (h1 : 1 ≤ j) (h2 : j ≤ 31) :
    (cred (tallyOn (rcvCell c (pk c j)) (launchCredit (Pipeline.owing O₀) 0 (rcvCell c (pk c j)))) : sProp 𝕄)
      ⊢ cred (tallyAt (rcvCell c (pk c j)) () N) :=
  Entails.of_eq (congrArg cred (launch_rcv c (pk c j) (pk_ne c j h1 h2)))

/-- The credit the launch deals device `c`: its entry cell's 31 units and, per peer, that peer's row's credit. -/
theorem creds (c : Dev nD) :
    (Pipeline.launchCred O₀ c : sProp 𝕄)
      ⊢ iprop(cred (tallyAt (barCell c) () 31) ∗ bigSep (Finset.Ico 1 32) fun j => cred (tallyAt (rcvCell c (pk c j)) () N)) := by
  unfold Pipeline.launchCred
  rw [bigSep_univ_at _ (SemLoc.reg barS), launch_bar]
  refine sep_mono_right ((rest_to_run c _ _ rfl).trans (bigSep_mono fun j hj => ?_))
  have hj' := Finset.mem_Ico.mp hj
  exact cred_rcv c j hj'.1 (by omega)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m c from rfl, scopedRest0_eq]
  unfold Φ₀
  iintro ⟨Hs, -, ⟨%f, Hr⟩⟩
  isplitl [Hs]; · iexact Hs
  iexists f; iexact Hr

/-- At the end the 64 own cells stand closed at zero: the 31 send and the 31 receive cells the body waited on, and the
    two it never used. -/
theorem phi1_exit (c : Dev nD) :
    (dats (F := F) m ρ 0 c).Φ (Fin.last cfg0.N) ⊢ iprop(emp ∗ Pipeline.ownSems0 osem c ∗ Pipeline.scopedRest cfg0.spec c) := by
  rw [show (dats (F := F) m ρ 0 c).Φ (Fin.last cfg0.N) = Φ₁ (F := F) c from rfl, scopedRest0_eq, ownSems0_eq,
    bigSep_fin32 (fun k => (semVal (sndCell c k) 0 : sProp 𝕄)), bigSep_univ_at (fun s : Dev nD => (semVal (rcvCell c s) 0 : sProp 𝕄)) c,
    bigSep_peers c (fun s => (semVal (rcvCell c s) 0 : sProp 𝕄))]
  unfold Φ₁
  iintro ⟨Hr, HS0, HR0, HS, HR⟩
  isplitr; · iempintro
  isplitl [HS0 HS HR0 HR]
  · isplitl [HS0 HS]
    · isplitl [HS0] <;> iassumption
    · isplitl [HR0] <;> iassumption
  iexact Hr

/-- The pipeline's own waits are on the three staging cells, below everything a device may owe. -/
theorem waits (c : Dev nD) : (levAts L lv : sProp 𝕄) ⊢ Pipeline.cellsWaits cfgs (dats (F := F) m ρ) () 0 c :=
  Pipeline.cellsWaits_intro cfgs (dats (F := F) m ρ) () 0 c fun w s t =>
    mayWait_low c _ (by fin_cases w <;> fin_cases s <;> decide) _ (by
      rcases t with ⟨_ | _, ht⟩
      · exact Or.inl rfl
      · exact Or.inr rfl)

/-! ## The arrays at the end -/

theorem final_in0 (c : Dev nD) :
    (dats (F := F) m ρ 0 c).arrAt (0 : Fin cfg0.W) cfg0.N = m ((c : Thread nD τ).loc main_arg0) :=
  (dats (F := F) m ρ 0 c).arrAt_in (0 : Fin cfg0.W) rfl _

theorem final_in1 (c : Dev nD) :
    (dats (F := F) m ρ 0 c).arrAt (1 : Fin cfg0.W) cfg0.N = m ((c : Thread nD τ).loc main_arg1) :=
  (dats (F := F) m ρ 0 c).arrAt_in (1 : Fin cfg0.W) rfl _

/-- The result array is written once, whole, by the write-back of the one point: it ends as what the body left staged. -/
theorem final_out (c : Dev nD) : (dats (F := F) m ρ 0 c).arrAt (2 : Fin cfg0.W) cfg0.N = outAt m c := by
  have e : (dats (F := F) m ρ 0 c).arrAt (2 : Fin cfg0.W) cfg0.N
      = (dats (F := F) m ρ 0 c).arrAt (2 : Fin cfg0.W) ((t₀ : Fin cfg0.N).val + 1) :=
    congrArg ((dats (F := F) m ρ 0 c).arrAt (2 : Fin cfg0.W)) cfg0_N
  rw [e, (dats (F := F) m ρ 0 c).arrAt_succ (2 : Fin cfg0.W) t₀, flush0_2 t₀, if_pos rfl]
  exact Memref.write_access_unit_zero_univ (Elt F) main_v1 (off := fun a => (cfg0.win 2).index t₀ a * (cfg0.win 2).size a)
    (funext fun a => Nat.zero_mul _) _ _ _

/-! ## The run -/

set_option maxRecDepth 8000 in
/-- At the compiled mesh of 32 devices, for any float values, from any memory with zero counters: if every device's body
    meets its obligation, every weakly fair execution of @main terminates, and every final state has each device's
    result block at `outAt` and its two argument blocks as they were. -/
theorem run_of_body (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats (F := F) m ρ) () cellOf_inj (0 : Fin 1)
    winFacts0.to₀ ownSemFacts (Pipeline.PreFacts.none _) EP defs₀ 𝒱₀ m ρ main
    (hmain := fun _ => rfl)
    (hbody := fun c => Pipeline.BodyObligation.loose (h := hbody c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin cfg0.W)).trans (final_out m ρ c), ((h c).1 (0 : Fin cfg0.W)).trans (final_in0 m ρ c),
      ((h c).1 (1 : Fin cfg0.W)).trans (final_in1 m ρ c)⟩)

/-- info: 'Cert.Kernel.Hand.run_of_body' depends on axioms: [propext, Classical.choice, Quot.sound] -/
#guard_msgs in #print axioms run_of_body

end Cert.Kernel.Hand

end
-- ==== Proof.Kernel.Run.lean ====
/-
  The run of the whole mesh: from any memory with every semaphore at zero, every fair interleaving of the 32
  devices' kernels terminates, each device's result block is `outAt` of all devices' argument blocks, and the
  arguments are left as they were.
-/
import proofs.«901006_g7700000000001007_dist_rmsnorm_colshard_i_m512_n256_v7x_i32_bf16_1_alg».proof.Proof.Kernel.Body
import proofs.«901006_g7700000000001007_dist_rmsnorm_colshard_i_m512_n256_v7x_i32_bf16_1_alg».proof.Proof.Kernel.Launch

noncomputable section

namespace Cert.Kernel.Hand

open Cert.Kernel Cert.Kernel.Gen

open Idealize.ShloMosaic
open Idealize.ShloMosaic.TcCoe
open Idealize.SL Idealize.SL.Sem

variable {F : FTy → Type} [FloatOps F]

theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_body m ρ (body_obligation m ρ)

/-- info: 'Cert.Kernel.Hand.run_main' depends on axioms: [propext, Classical.choice, Quot.sound] -/
#guard_msgs in #print axioms run_main

end Cert.Kernel.Hand

end
-- ==== Proof.KernelIdeal.Spec.lean ====
/-
  What every device of the mesh computes, as pure functions of the argument arrays.

  Device `s` holds a block `x_s` of 256 columns of `x` and the matching 256 entries `g_s` of `gamma`. Its partial
  row sums `part s r = ∑_j x_s[r, j]²` fill row `s` of a 32 × 512 table; once every device has sent its row to every
  other, all 32 devices hold the same table `comm`, and device `c` writes
  `(x_c[r, j] · g_c[j]) · rsqrt ((∑_s comm[s, r]) · 2⁻¹³ + ε)`.
-/
import proofs.«901006_g7700000000001007_dist_rmsnorm_colshard_i_m512_n256_v7x_i32_bf16_1_alg».proof.Proof.Gen.KernelIdeal.Skeleton
import proofs.«901006_g7700000000001007_dist_rmsnorm_colshard_i_m512_n256_v7x_i32_bf16_1_alg».proof.Proof.Gen.KernelIdeal.Launch
import Idealize.ShloMosaic.Lib.ValueIdx

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Device `c`'s block of `x`, as the kernel's first window stages it. -/
def xin (c : Dev nD) : Vec F S512x256 .f32 :=
  (win0_0.blk t0_0).view.read (Elt F) (m ((c : Thread nD τ).loc main_arg0))

/-- Device `c`'s block of `gamma`, as the second window stages it. -/
def gin (c : Dev nD) : Vec F S256 .f32 :=
  (win0_1.blk t0_0).view.read (Elt F) (m ((c : Thread nD τ).loc main_arg1))

/-- Device `s`'s partial sums of squares, one per row of `x`, laid out as a 1 × 512 row. -/
def part (s : Dev nD) : FVec F S1x512 .f32 := k0_pay2 (xin m s)

/-- The gathered table: row `s` is device `s`'s partial sums. The same on every device. -/
def comm : Vec F S32x512 .f32 :=
  fun i => part m ⟨(i 0).val, ValueIdx.idx2_lt0 i⟩ (ValueIdx.ix2 (0 : Fin 1) (i 1))

/-- What device `c` leaves in its block of the result. -/
def outAt (c : Dev nD) : FVec F S512x256 .f32 :=
  k0_pay4 (k0_pay3 (k0_pay1 (xin m c)) (gin m c)) (comm m)

end Cert.KernelIdeal.Hand

end
-- ==== Proof.KernelIdeal.Mesh.lean ====
/-
  The mesh's arithmetic: the peer of device `c` at distance `j` round the 32 positions, and the closed forms of
  the kernel's printed device-id and offset chains (`(position + j) mod 32`, decided over the 32 devices).
-/
import proofs.«901006_g7700000000001007_dist_rmsnorm_colshard_i_m512_n256_v7x_i32_bf16_1_alg».proof.Proof.Gen.KernelIdeal
import proofs.«901006_g7700000000001007_dist_rmsnorm_colshard_i_m512_n256_v7x_i32_bf16_1_alg».proof.Proof.Attr

set_option Elab.async false

namespace Cert.KernelIdeal.Hand

open Idealize.ShloMosaic Idealize.SL.Sem
open Cert.KernelIdeal Cert.KernelIdeal.Gen

/-- The device `j` positions after `c` on the mesh's one axis, cyclically. -/
def pk (c : Dev nD) (j : ℕ) : Dev nD := ⟨(c.val + j) % 32, Nat.mod_lt _ (by decide)⟩

theorem pk_val (c : Dev nD) (j : ℕ) : (pk c j).val = (c.val + j) % 32 := rfl

/-- Going `j` on and then `32 - j` on comes back. -/
theorem pk_pk (c : Dev nD) (j : ℕ) (hj : j ≤ 32) : pk (pk c j) (32 - j) = c := by
  apply Fin.ext; simp only [pk_val]; have hc : c.val < 32 := c.isLt; omega

theorem pk_ne (c : Dev nD) (j : ℕ) (h1 : 1 ≤ j) (h2 : j ≤ 31) : pk c j ≠ c := by
  intro h; have := congrArg Fin.val h; simp only [pk_val] at this; have hc : c.val < 32 := c.isLt; omega

theorem pk_inj (c : Dev nD) {i j : ℕ} (hi : i < 32) (hj : j < 32) (h : pk c i = pk c j) : i = j := by
  have := congrArg Fin.val h; simp only [pk_val] at this; have hc : c.val < 32 := c.isLt; omega

/-- Every other device is a peer at exactly one distance `1 … 31`. -/
theorem exists_pk (c d : Dev nD) (h : d ≠ c) : ∃ j, 1 ≤ j ∧ j ≤ 31 ∧ pk c j = d := by
  refine ⟨(d.val + 32 - c.val) % 32, ?_, ?_, ?_⟩
  · have hc : c.val < 32 := c.isLt; have hd : d.val < 32 := d.isLt
    have : d.val ≠ c.val := fun e => h (Fin.ext e)
    omega
  · have hc : c.val < 32 := c.isLt; have hd : d.val < 32 := d.isLt; omega
  · apply Fin.ext; simp only [pk_val]; have hc : c.val < 32 := c.isLt; have hd : d.val < 32 := d.isLt; omega

/-! ## The printed offsets of the receive side -/

theorem off4_eq : ∀ (c : Dev nD) (r : Fin 31), k0_off4 c (BitVec.ofNat 32 (1 + r.val)) = ![(pk c (1 + r.val)).val] := by decide +kernel
theorem off5_eq : ∀ (c : Dev nD) (r : Fin 31), k0_off5 c (BitVec.ofNat 32 (1 + r.val)) = ![(pk c (1 + r.val)).val, 0] := by decide +kernel

end Cert.KernelIdeal.Hand
-- ==== Proof.KernelIdeal.MeshTable.lean ====
import proofs.«901006_g7700000000001007_dist_rmsnorm_colshard_i_m512_n256_v7x_i32_bf16_1_alg».proof.Proof.KernelIdeal.Mesh

set_option Elab.async false

namespace Cert.KernelIdeal.Hand

open Idealize.ShloMosaic Idealize.SL.Sem
open Cert.KernelIdeal Cert.KernelIdeal.Gen

@[dev_table] theorem dev1_eq (c : Dev nD) : (⟨k0_dev1 c, k0_dev1_lt c⟩ : Dev nD) = pk c 1 := by revert c; decide +kernel
@[dev_table] theorem dev2_eq (c : Dev nD) : (⟨k0_dev2 c, k0_dev2_lt c⟩ : Dev nD) = pk c 2 := by revert c; decide +kernel
@[dev_table] theorem dev3_eq (c : Dev nD) : (⟨k0_dev3 c, k0_dev3_lt c⟩ : Dev nD) = pk c 3 := by revert c; decide +kernel
@[dev_table] theorem dev4_eq (c : Dev nD) : (⟨k0_dev4 c, k0_dev4_lt c⟩ : Dev nD) = pk c 4 := by revert c; decide +kernel
@[dev_table] theorem dev5_eq (c : Dev nD) : (⟨k0_dev5 c, k0_dev5_lt c⟩ : Dev nD) = pk c 5 := by revert c; decide +kernel
@[dev_table] theorem dev6_eq (c : Dev nD) : (⟨k0_dev6 c, k0_dev6_lt c⟩ : Dev nD) = pk c 6 := by revert c; decide +kernel
@[dev_table] theorem dev7_eq (c : Dev nD) : (⟨k0_dev7 c, k0_dev7_lt c⟩ : Dev nD) = pk c 7 := by revert c; decide +kernel
@[dev_table] theorem dev8_eq (c : Dev nD) : (⟨k0_dev8 c, k0_dev8_lt c⟩ : Dev nD) = pk c 8 := by revert c; decide +kernel
@[dev_table] theorem dev9_eq (c : Dev nD) : (⟨k0_dev9 c, k0_dev9_lt c⟩ : Dev nD) = pk c 9 := by revert c; decide +kernel
@[dev_table] theorem dev10_eq (c : Dev nD) : (⟨k0_dev10 c, k0_dev10_lt c⟩ : Dev nD) = pk c 10 := by revert c; decide +kernel
@[dev_table] theorem dev11_eq (c : Dev nD) : (⟨k0_dev11 c, k0_dev11_lt c⟩ : Dev nD) = pk c 11 := by revert c; decide +kernel
@[dev_table] theorem dev12_eq (c : Dev nD) : (⟨k0_dev12 c, k0_dev12_lt c⟩ : Dev nD) = pk c 12 := by revert c; decide +kernel
@[dev_table] theorem dev13_eq (c : Dev nD) : (⟨k0_dev13 c, k0_dev13_lt c⟩ : Dev nD) = pk c 13 := by revert c; decide +kernel
@[dev_table] theorem dev14_eq (c : Dev nD) : (⟨k0_dev14 c, k0_dev14_lt c⟩ : Dev nD) = pk c 14 := by revert c; decide +kernel
@[dev_table] theorem dev15_eq (c : Dev nD) : (⟨k0_dev15 c, k0_dev15_lt c⟩ : Dev nD) = pk c 15 := by revert c; decide +kernel
@[dev_table] theorem dev16_eq (c : Dev nD) : (⟨k0_dev16 c, k0_dev16_lt c⟩ : Dev nD) = pk c 16 := by revert c; decide +kernel
@[dev_table] theorem dev17_eq (c : Dev nD) : (⟨k0_dev17 c, k0_dev17_lt c⟩ : Dev nD) = pk c 17 := by revert c; decide +kernel
@[dev_table] theorem dev18_eq (c : Dev nD) : (⟨k0_dev18 c, k0_dev18_lt c⟩ : Dev nD) = pk c 18 := by revert c; decide +kernel
@[dev_table] theorem dev19_eq (c : Dev nD) : (⟨k0_dev19 c, k0_dev19_lt c⟩ : Dev nD) = pk c 19 := by revert c; decide +kernel
@[dev_table] theorem dev20_eq (c : Dev nD) : (⟨k0_dev20 c, k0_dev20_lt c⟩ : Dev nD) = pk c 20 := by revert c; decide +kernel
@[dev_table] theorem dev21_eq (c : Dev nD) : (⟨k0_dev21 c, k0_dev21_lt c⟩ : Dev nD) = pk c 21 := by revert c; decide +kernel
@[dev_table] theorem dev22_eq (c : Dev nD) : (⟨k0_dev22 c, k0_dev22_lt c⟩ : Dev nD) = pk c 22 := by revert c; decide +kernel
@[dev_table] theorem dev23_eq (c : Dev nD) : (⟨k0_dev23 c, k0_dev23_lt c⟩ : Dev nD) = pk c 23 := by revert c; decide +kernel
@[dev_table] theorem dev24_eq (c : Dev nD) : (⟨k0_dev24 c, k0_dev24_lt c⟩ : Dev nD) = pk c 24 := by revert c; decide +kernel
@[dev_table] theorem dev25_eq (c : Dev nD) : (⟨k0_dev25 c, k0_dev25_lt c⟩ : Dev nD) = pk c 25 := by revert c; decide +kernel
@[dev_table] theorem dev26_eq (c : Dev nD) : (⟨k0_dev26 c, k0_dev26_lt c⟩ : Dev nD) = pk c 26 := by revert c; decide +kernel
@[dev_table] theorem dev27_eq (c : Dev nD) : (⟨k0_dev27 c, k0_dev27_lt c⟩ : Dev nD) = pk c 27 := by revert c; decide +kernel
@[dev_table] theorem dev28_eq (c : Dev nD) : (⟨k0_dev28 c, k0_dev28_lt c⟩ : Dev nD) = pk c 28 := by revert c; decide +kernel
@[dev_table] theorem dev29_eq (c : Dev nD) : (⟨k0_dev29 c, k0_dev29_lt c⟩ : Dev nD) = pk c 29 := by revert c; decide +kernel
@[dev_table] theorem dev30_eq (c : Dev nD) : (⟨k0_dev30 c, k0_dev30_lt c⟩ : Dev nD) = pk c 30 := by revert c; decide +kernel
@[dev_table] theorem dev31_eq (c : Dev nD) : (⟨k0_dev31 c, k0_dev31_lt c⟩ : Dev nD) = pk c 31 := by revert c; decide +kernel
@[dev_table] theorem dev32_eq (c : Dev nD) : (⟨k0_dev32 c, k0_dev32_lt c⟩ : Dev nD) = pk c 1 := by revert c; decide +kernel
@[dev_table] theorem dev33_eq (c : Dev nD) : (⟨k0_dev33 c, k0_dev33_lt c⟩ : Dev nD) = pk c 2 := by revert c; decide +kernel
@[dev_table] theorem dev34_eq (c : Dev nD) : (⟨k0_dev34 c, k0_dev34_lt c⟩ : Dev nD) = pk c 3 := by revert c; decide +kernel
@[dev_table] theorem dev35_eq (c : Dev nD) : (⟨k0_dev35 c, k0_dev35_lt c⟩ : Dev nD) = pk c 4 := by revert c; decide +kernel
@[dev_table] theorem dev36_eq (c : Dev nD) : (⟨k0_dev36 c, k0_dev36_lt c⟩ : Dev nD) = pk c 5 := by revert c; decide +kernel
@[dev_table] theorem dev37_eq (c : Dev nD) : (⟨k0_dev37 c, k0_dev37_lt c⟩ : Dev nD) = pk c 6 := by revert c; decide +kernel
@[dev_table] theorem dev38_eq (c : Dev nD) : (⟨k0_dev38 c, k0_dev38_lt c⟩ : Dev nD) = pk c 7 := by revert c; decide +kernel
@[dev_table] theorem dev39_eq (c : Dev nD) : (⟨k0_dev39 c, k0_dev39_lt c⟩ : Dev nD) = pk c 8 := by revert c; decide +kernel
@[dev_table] theorem dev40_eq (c : Dev nD) : (⟨k0_dev40 c, k0_dev40_lt c⟩ : Dev nD) = pk c 9 := by revert c; decide +kernel
@[dev_table] theorem dev41_eq (c : Dev nD) : (⟨k0_dev41 c, k0_dev41_lt c⟩ : Dev nD) = pk c 10 := by revert c; decide +kernel
@[dev_table] theorem dev42_eq (c : Dev nD) : (⟨k0_dev42 c, k0_dev42_lt c⟩ : Dev nD) = pk c 11 := by revert c; decide +kernel
@[dev_table] theorem dev43_eq (c : Dev nD) : (⟨k0_dev43 c, k0_dev43_lt c⟩ : Dev nD) = pk c 12 := by revert c; decide +kernel
@[dev_table] theorem dev44_eq (c : Dev nD) : (⟨k0_dev44 c, k0_dev44_lt c⟩ : Dev nD) = pk c 13 := by revert c; decide +kernel
@[dev_table] theorem dev45_eq (c : Dev nD) : (⟨k0_dev45 c, k0_dev45_lt c⟩ : Dev nD) = pk c 14 := by revert c; decide +kernel
@[dev_table] theorem dev46_eq (c : Dev nD) : (⟨k0_dev46 c, k0_dev46_lt c⟩ : Dev nD) = pk c 15 := by revert c; decide +kernel
@[dev_table] theorem dev47_eq (c : Dev nD) : (⟨k0_dev47 c, k0_dev47_lt c⟩ : Dev nD) = pk c 16 := by revert c; decide +kernel
@[dev_table] theorem dev48_eq (c : Dev nD) : (⟨k0_dev48 c, k0_dev48_lt c⟩ : Dev nD) = pk c 17 := by revert c; decide +kernel
@[dev_table] theorem dev49_eq (c : Dev nD) : (⟨k0_dev49 c, k0_dev49_lt c⟩ : Dev nD) = pk c 18 := by revert c; decide +kernel
@[dev_table] theorem dev50_eq (c : Dev nD) : (⟨k0_dev50 c, k0_dev50_lt c⟩ : Dev nD) = pk c 19 := by revert c; decide +kernel
@[dev_table] theorem dev51_eq (c : Dev nD) : (⟨k0_dev51 c, k0_dev51_lt c⟩ : Dev nD) = pk c 20 := by revert c; decide +kernel
@[dev_table] theorem dev52_eq (c : Dev nD) : (⟨k0_dev52 c, k0_dev52_lt c⟩ : Dev nD) = pk c 21 := by revert c; decide +kernel
@[dev_table] theorem dev53_eq (c : Dev nD) : (⟨k0_dev53 c, k0_dev53_lt c⟩ : Dev nD) = pk c 22 := by revert c; decide +kernel
@[dev_table] theorem dev54_eq (c : Dev nD) : (⟨k0_dev54 c, k0_dev54_lt c⟩ : Dev nD) = pk c 23 := by revert c; decide +kernel
@[dev_table] theorem dev55_eq (c : Dev nD) : (⟨k0_dev55 c, k0_dev55_lt c⟩ : Dev nD) = pk c 24 := by revert c; decide +kernel
@[dev_table] theorem dev56_eq (c : Dev nD) : (⟨k0_dev56 c, k0_dev56_lt c⟩ : Dev nD) = pk c 25 := by revert c; decide +kernel
@[dev_table] theorem dev57_eq (c : Dev nD) : (⟨k0_dev57 c, k0_dev57_lt c⟩ : Dev nD) = pk c 26 := by revert c; decide +kernel
@[dev_table] theorem dev58_eq (c : Dev nD) : (⟨k0_dev58 c, k0_dev58_lt c⟩ : Dev nD) = pk c 27 := by revert c; decide +kernel
@[dev_table] theorem dev59_eq (c : Dev nD) : (⟨k0_dev59 c, k0_dev59_lt c⟩ : Dev nD) = pk c 28 := by revert c; decide +kernel
@[dev_table] theorem dev60_eq (c : Dev nD) : (⟨k0_dev60 c, k0_dev60_lt c⟩ : Dev nD) = pk c 29 := by revert c; decide +kernel
@[dev_table] theorem dev61_eq (c : Dev nD) : (⟨k0_dev61 c, k0_dev61_lt c⟩ : Dev nD) = pk c 30 := by revert c; decide +kernel
@[dev_table] theorem dev62_eq (c : Dev nD) : (⟨k0_dev62 c, k0_dev62_lt c⟩ : Dev nD) = pk c 31 := by revert c; decide +kernel

end Cert.KernelIdeal.Hand
-- ==== Proof.KernelIdeal.Cells.lean ====
/-
  The semaphores, the cells and the rows of the gathered table.

  Every device owns a 32 × 512 table; row `s` of it is written by device `s` alone: by a store on device `s`
  itself, by device `s`'s transfer on every other device. A device hands each peer the peer's row of its table
  with its entry signal, lends a share of its own row to each of its 31 transfers, and gets the other 31 rows
  back, filled, at its receive waits.
-/
import proofs.«901006_g7700000000001007_dist_rmsnorm_colshard_i_m512_n256_v7x_i32_bf16_1_alg».proof.Proof.KernelIdeal.Spec
import proofs.«901006_g7700000000001007_dist_rmsnorm_colshard_i_m512_n256_v7x_i32_bf16_1_alg».proof.Proof.KernelIdeal.MeshTable
import Idealize.ShloMosaic.Lib.Pipeline.Launch
import Idealize.ShloMosaic.Lib.Pipeline.Kit
import Idealize.ShloMosaic.Lib.Ring
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the collective's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Semaphores and cells -/

/-- The entry semaphore: the one regular semaphore, shared by every launch with this collective id. -/
abbrev barS : Sem sig := (SemArray.scalar (sig.barrier 0 rfl) : Sems sig S_).sem

theorem inb_send (k : ℕ) (hk : k < 32) : ∀ a, (![k] : Fin 1 → Nat) a + S1.size a ≤ S32.size a := by
  intro a
  have ha : a = 0 := Subsingleton.elim _ _
  subst ha
  show k + 1 ≤ 32
  omega

/-- Send semaphore `k`, as the body slices it out of its array of 32. -/
abbrev sendSem (k : ℕ) (hk : k < 32) : DmaSem sig :=
  ((cc0_scratch1.slice (Rect.unit (s := S32) ![k] S1.size (inb_send k hk))).squeeze S_ squeezes_S1_S_).sem

/-- The receive semaphore a device's own transfers credit on their targets: the one at the device's position. -/
abbrev recvOwn (c : Dev nD) : DmaSem sig :=
  ((cc0_scratch2.slice (Rect.unit (s := S32) (k0_off2 c) S1.size (k0_off2_inb c))).squeeze S_ squeezes_S1_S_).sem

/-- The receive semaphore device `c` waits on for the peer at distance `1 + r`. -/
abbrev recvAt (c : Dev nD) (r : Fin 31) : DmaSem sig :=
  ((cc0_scratch2.slice (Rect.unit (s := S32) (k0_off4 c (BitVec.ofNat 32 (1 + r.val))) S1.size (k0_off4_inb c r))).squeeze S_ squeezes_S1_S_).sem

/-- The semaphores by position in the pool of 67: three for the staged windows, then 32 send, then 32 receive. -/
abbrev sendQ (k : Fin 32) : DmaSem sig := ⟨3 + k.val, by have := k.isLt; change 3 + k.val < 67; omega⟩
abbrev recvQ (s : Dev nD) : DmaSem sig := ⟨35 + s.val, by have hs : s.val < 32 := s.isLt; change 35 + s.val < 67; omega⟩

theorem sendSem_eq : ∀ k : Fin 32, sendSem k.val k.isLt = sendQ k := by decide +kernel
theorem recvOwn_eq : ∀ c : Dev nD, recvOwn c = recvQ c := by decide +kernel
theorem recvAt_eq : ∀ (c : Dev nD) (r : Fin 31), recvAt c r = recvQ (pk c (1 + r.val)) := by decide +kernel

abbrev barCell (c : Dev nD) : GSem nD τ sig := ((c : Thread nD τ), .reg barS)
abbrev sndCell (c : Dev nD) (k : Fin 32) : GSem nD τ sig := ((c : Thread nD τ), .dma (sendQ k))
abbrev rcvCell (c s : Dev nD) : GSem nD τ sig := ((c : Thread nD τ), .dma (recvQ s))

/-! ## The table and its rows -/

abbrev cM : Memref sig .tc .vmem S32x512 .f32 := Memref.whole cc0_scratch0

/-- Row `s` of the table as the body names it: the slice at the printed offset, squeezed to a vector of 512. -/
abbrev rowM (s : Dev nD) : Memref sig .tc .vmem S512 .f32 :=
  (cM.slice (Rect.unit (s := S32x512) (k0_off3 s) S1x512.size (k0_off3_inb s)) (fun _ => rfl)).squeeze S512 squeezes_S1x512_S512

/-- The row a receive wait names: the peer's, at the offset computed from the distance. -/
abbrev rowAtM (c : Dev nD) (r : Fin 31) : Memref sig .tc .vmem S512 .f32 :=
  (cM.slice (Rect.unit (s := S32x512) (k0_off5 c (BitVec.ofNat 32 (1 + r.val))) S1x512.size (k0_off5_inb c r)) (fun _ => rfl)).squeeze S512 squeezes_S1x512_S512

theorem off3_pk (c : Dev nD) (r : Fin 31) : k0_off5 c (BitVec.ofNat 32 (1 + r.val)) = k0_off3 (pk c (1 + r.val)) := by
  rw [off5_eq, k0_off3_eq]

theorem rowAtM_eq (c : Dev nD) (r : Fin 31) : rowAtM c r = rowM (pk c (1 + r.val)) := by
  unfold rowAtM rowM
  rw [Memref.slice_unit_congr cM (off3_pk c r) (k0_off5_inb c r) (k0_off3_inb (pk c (1 + r.val))) (fun _ => rfl) (fun _ => rfl)]

/-- The table on device `d`. -/
abbrev tloc (d : Dev nD) : Loc nD τ sig := (d : Thread nD τ).loc cc0_scratch0

/-- The credit of one row's transfer. -/
abbrev N : ℕ := (rowM (0 : Dev nD)).view.dmaCredit
theorem N_pos : 0 < N := View.dmaCredit_pos _ (by decide)

/-- The gathered table as the contents of device `d`'s buffer. -/
def commB (d : Dev nD) : Buf (Elt F) (tloc d) := comm m

/-- Row `s` of device `d`'s table held at share `q` with contents `f`. -/
def rowPts (q : PosShare TreeShare) (d s : Dev nD) (f : Buf (Elt F) ((rowM s).view.loc (d : Thread nD τ))) : sProp 𝕄 :=
  (rowM s).view.loc (d : Thread nD τ) ↦[(rowM s).view.set]{q} f

instance rowPts_storable (q : PosShare TreeShare) (d s : Dev nD) (f) : BI.Storable (upEmb : UEmb _ 𝕄) (rowPts (F := F) q d s f) := by
  unfold rowPts; infer_instance

/-- A row rewritten whole by what the same row of another table reads holds that table's row: what a landed
    transfer leaves agrees, on the row, with the source's contents. -/
theorem landed_row (s : Dev nD) (fd fs : (rowM s).view.ty.Contents (Elt F)) :
    ∀ i ∈ (rowM s).view.set, (rowM s).view.write (Elt F) fd ((rowM s).view.read (Elt F) fs) Finset.univ i = fs i := by
  intro i hi
  obtain ⟨x, -, rfl⟩ := Finset.mem_map.mp hi
  rw [View.write_emb_of_mem _ _ (Finset.mem_univ x), View.read_apply, cast_cast, cast_eq]

/-! ## Shares of a device's own row

The left half stays with the device (it reads its own row again while its transfers are in flight); the right half
is cut into 31 pieces, one lent to each transfer, by halving again and again. -/

def remShare : ℕ → PosShare TreeShare
  | 0 => fullShare.right
  | n + 1 => (remShare n).right

/-- The share lent to transfer `n + 1`. -/
def piece (n : ℕ) : PosShare TreeShare := (remShare n).left

theorem remShare_split (n : ℕ) : remShare n ∈ PCS.op (piece n) (remShare (n + 1)) := PosShare.mem_left_op_right (remShare n)

end Cert.KernelIdeal.Hand

end
-- ==== Proof.KernelIdeal.Sched.lean ====
/-
  The schedule of the collective, one round per cell.

  Device `c`'s entry cell has 31 duties of one unit, one per peer `d`: `d`'s signal hands `c` row `c` of `d`'s
  table, which `c`'s transfer to `d` will fill. Its send cell `k` has one duty, the row's credit, paid when transfer `k`
  has read `c`'s own row: the lent share of that row comes back. Its receive cell `s` has one duty, paid when device
  `s`'s transfer has landed: row `s` of `c`'s table, holding device `s`'s partial sums. What a device owes at launch,
  and in which order it pays, is counted here too; a wait is only ever for a cell below everything still owed
  (staging below entry cells below receive cells).
-/
import proofs.«901006_g7700000000001007_dist_rmsnorm_colshard_i_m512_n256_v7x_i32_bf16_1_alg».proof.Proof.KernelIdeal.Cells

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule -/

/-- The device whose row a receive semaphore stands for. -/
def srcOf (q : DmaSem sig) : Dev nD := ⟨(q.val - 35) % 32, Nat.mod_lt _ (by decide)⟩

theorem srcOf_recvQ (s : Dev nD) : srcOf (recvQ s) = s :=
  Fin.ext (by show (35 + s.val - 35) % 32 = s.val; have hs : s.val < 32 := s.isLt; omega)

/-- Who pays a cell of device `c`: every peer the entry cell; `c` itself a send cell in use (1 … 31); the source
    a receive cell other than `c`'s own. -/
def dutiesOf (c : Dev nD) : SemLoc sig → Finset (Dev nD)
  | .reg _ => Finset.univ.erase c
  | .dma q => if 3 < q.val ∧ q.val < 35 then {c} else if 35 ≤ q.val ∧ srcOf q ≠ c then {srcOf q} else ∅

/-- What a duty hands the owner `c`. -/
def payOf (c : Dev nD) : SemLoc sig → Dev nD → sProp 𝕄
  | .reg _, d => iprop(∃ f, rowPts fullShare d c f)
  | .dma q, _ => if q.val < 35 then rowPts (piece (q.val - 4)) c c (commB m c) else rowPts fullShare c (srcOf q) (commB m c)

def ringRd : Rounds.Schedule (GSem nD τ sig) (Dev nD) 𝕄 where
  duties g r := if r = 0 ∧ g.1.2 = .tc then dutiesOf g.1.1 g.2 else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

instance ringRd_payload_storable (g : GSem nD τ sig) (r : ℕ) (d : Dev nD) :
    BI.Storable (upEmb : UEmb _ 𝕄) ((ringRd (F := F) m).payload g r d) := by
  show BI.Storable upEmb (payOf m g.1.1 g.2 d)
  unfold payOf
  (repeat' split) <;> infer_instance

section Sched
variable (c : Dev nD)

theorem snd_ne_bar (k : Fin 32) : (SemLoc.dma (sendQ k) : SemLoc sig) ≠ .reg barS := fun h => by cases h
theorem rcv_ne_bar (s : Dev nD) : (SemLoc.dma (recvQ s) : SemLoc sig) ≠ .reg barS := fun h => by cases h

theorem duties_bar : (ringRd (F := F) m).duties (barCell c) 0 = Finset.univ.erase c := by
  dsimp only [ringRd]; exact if_pos ⟨rfl, rfl⟩
theorem duties_snd (k : Fin 32) (hk : 1 ≤ k.val) : (ringRd (F := F) m).duties (sndCell c k) 0 = {c} := by
  dsimp only [ringRd]; rw [if_pos ⟨rfl, rfl⟩]
  show (if 3 < 3 + k.val ∧ 3 + k.val < 35 then ({c} : Finset (Dev nD)) else _) = {c}
  rw [if_pos ⟨by omega, by have := k.isLt; omega⟩]
theorem duties_rcv (s : Dev nD) (hs : s ≠ c) : (ringRd (F := F) m).duties (rcvCell c s) 0 = {s} := by
  dsimp only [ringRd]; rw [if_pos ⟨rfl, rfl⟩]
  show (if 3 < 35 + s.val ∧ 35 + s.val < 35 then ({c} : Finset (Dev nD)) else
    if 35 ≤ 35 + s.val ∧ srcOf (recvQ s) ≠ c then {srcOf (recvQ s)} else ∅) = {s}
  rw [if_neg (by omega), srcOf_recvQ, if_pos ⟨by omega, hs⟩]
theorem duties_later (g : GSem nD τ sig) : ∀ r, 1 ≤ r → (ringRd (F := F) m).duties g r = ∅ :=
  fun r hr => by dsimp only [ringRd]; rw [if_neg fun h => by omega]

theorem amount_bar (d : Dev nD) : (ringRd (F := F) m).amount (barCell c) 0 d = 1 := by dsimp only [ringRd]; exact if_pos rfl
theorem amount_snd (k : Fin 32) (d : Dev nD) : (ringRd (F := F) m).amount (sndCell c k) 0 d = N := by
  dsimp only [ringRd]; exact if_neg (snd_ne_bar k)
theorem amount_rcv (s d : Dev nD) : (ringRd (F := F) m).amount (rcvCell c s) 0 d = N := by
  dsimp only [ringRd]; exact if_neg (rcv_ne_bar s)

theorem expect_bar : (ringRd (F := F) m).expect (barCell c) 0 = 31 := by
  unfold Schedule.expect Schedule.amountOf
  rw [duties_bar, Finset.sum_congr rfl fun d _ => amount_bar m c d, Finset.sum_const, Finset.card_erase_of_mem (Finset.mem_univ c),
    Finset.card_univ, Fintype.card_fin, smul_eq_mul]
  all_goals (first | rfl | decide)
theorem expect_snd (k : Fin 32) (hk : 1 ≤ k.val) : (ringRd (F := F) m).expect (sndCell c k) 0 = N := by
  unfold Schedule.expect Schedule.amountOf; rw [duties_snd m c k hk, Finset.sum_singleton, amount_snd]
theorem expect_rcv (s : Dev nD) (hs : s ≠ c) : (ringRd (F := F) m).expect (rcvCell c s) 0 = N := by
  unfold Schedule.expect Schedule.amountOf; rw [duties_rcv m c s hs, Finset.sum_singleton, amount_rcv]

theorem payload_bar (d : Dev nD) : (ringRd (F := F) m).payload (barCell c) 0 d = iprop(∃ f, rowPts fullShare d c f) := rfl
theorem payload_snd (k : Fin 32) (hk : 1 ≤ k.val) (d : Dev nD) :
    (ringRd (F := F) m).payload (sndCell c k) 0 d = rowPts (piece (k.val - 1)) c c (commB m c) := by
  show (if 3 + k.val < 35 then rowPts (piece (3 + k.val - 4)) c c (commB m c) else _) = _
  rw [if_pos (by have := k.isLt; omega), show 3 + k.val - 4 = k.val - 1 by omega]
theorem payload_rcv (s d : Dev nD) : (ringRd (F := F) m).payload (rcvCell c s) 0 d = rowPts fullShare c s (commB m c) := by
  show (if 35 + s.val < 35 then _ else rowPts fullShare c (srcOf (recvQ s)) (commB m c)) = _
  rw [if_neg (by omega), srcOf_recvQ]

/-- The whole of a send cell's round: the lent share of the device's own row. -/
theorem rest_snd (k : Fin 32) (hk : 1 ≤ k.val) :
    bigSep ((ringRd (F := F) m).duties (sndCell c k) 0 \ ∅) (fun d => (ringRd (F := F) m).payload (sndCell c k) 0 d)
      = rowPts (piece (k.val - 1)) c c (commB m c) := by
  rw [Finset.sdiff_empty, duties_snd m c k hk, bigSep_singleton, payload_snd m c k hk]
/-- The whole of a receive cell's round: the source's row, filled. -/
theorem rest_rcv (s : Dev nD) (hs : s ≠ c) :
    bigSep ((ringRd (F := F) m).duties (rcvCell c s) 0 \ ∅) (fun d => (ringRd (F := F) m).payload (rcvCell c s) 0 d)
      = rowPts fullShare c s (commB m c) := by
  rw [Finset.sdiff_empty, duties_rcv m c s hs, bigSep_singleton, payload_rcv]
/-- The whole of the entry cell's round: from every peer, this device's row of the peer's table. -/
theorem rest_bar :
    bigSep ((ringRd (F := F) m).duties (barCell c) 0 \ ∅) (fun d => (ringRd (F := F) m).payload (barCell c) 0 d)
      = bigSep (Finset.univ.erase c) (fun d => iprop(∃ f, rowPts (F := F) fullShare d c f)) := by
  rw [Finset.sdiff_empty, duties_bar]; rfl

end Sched

/-! ## What a device owes, in the order it pays -/

/-- Owed with `n` transfers still to make: the receive credit of the peers at distance `32 - n … 31`. -/
def Osend (c : Dev nD) : ℕ → CellTallies nD τ sig Unit
  | 0 => 0
  | n + 1 => Osend c n + tallyAt (rcvCell (pk c (31 - n)) c) () N

/-- Owed with `n` entry signals still to send: those peers' entry units, and every transfer. -/
def Osig (c : Dev nD) : ℕ → CellTallies nD τ sig Unit
  | 0 => Osend c 31
  | n + 1 => Osig c n + tallyAt (barCell (pk c (31 - n))) () 1

/-- What a device owes at launch. -/
def O₀ (c : Dev nD) : CellTallies nD τ sig Unit := Osig c 31

theorem Osend_step (c : Dev nD) (j : ℕ) (h1 : 1 ≤ j) (h2 : j ≤ 31) :
    Osend c (32 - j) = Osend c (31 - j) + tallyAt (rcvCell (pk c j) c) () N := by
  have e : 32 - j = (31 - j) + 1 := by omega
  rw [e]; show Osend c (31 - j) + tallyAt (rcvCell (pk c (31 - (31 - j))) c) () N = _
  rw [show 31 - (31 - j) = j by omega]

theorem Osig_step (c : Dev nD) (j : ℕ) (h1 : 1 ≤ j) (h2 : j ≤ 31) :
    Osig c (32 - j) = Osig c (31 - j) + tallyAt (barCell (pk c j)) () 1 := by
  have e : 32 - j = (31 - j) + 1 := by omega
  rw [e]; show Osig c (31 - j) + tallyAt (barCell (pk c (31 - (31 - j)))) () 1 = _
  rw [show 31 - (31 - j) = j by omega]

theorem Osend_pos {c : Dev nD} {n : ℕ} {g : GSem nD τ sig} {u : Unit} (h : 0 < Osend c n g u) : ∃ p : Dev nD, g = rcvCell p c := by
  induction n with
  | zero => exact absurd h (Nat.lt_irrefl 0)
  | succ n ih =>
    rcases Pipeline.add_pos_cases (D₁ := Osend c n) (D₂ := tallyAt (rcvCell (pk c (31 - n)) c) () N) h with h' | h'
    · exact ih h'
    · exact ⟨_, (Pipeline.tallyAt_pos h').1⟩

theorem Osig_pos {c : Dev nD} {n : ℕ} {g : GSem nD τ sig} {u : Unit} (h : 0 < Osig c n g u) :
    (∃ p : Dev nD, g = barCell p) ∨ ∃ p : Dev nD, g = rcvCell p c := by
  induction n with
  | zero => exact Or.inr (Osend_pos h)
  | succ n ih =>
    rcases Pipeline.add_pos_cases (D₁ := Osig c n) (D₂ := tallyAt (barCell (pk c (31 - n))) () 1) h with h' | h'
    · exact ih h'
    · exact Or.inl ⟨_, (Pipeline.tallyAt_pos h').1⟩

/-! ## The levels -/

def L (g : GSem nD τ sig) : Finset Unit := if g.1.2 = .tc then {()} else ∅

/-- Entry cells at 1, receive cells at 2, everything else (staging, send) at 0. -/
def lvS : SemLoc sig → ℕ
  | .reg _ => 1
  | .dma q => if 35 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (p : Dev nD) (u : Unit) : lv (barCell p) u = 1 := rfl
theorem lv_rcv (p s : Dev nD) (u : Unit) : lv (rcvCell p s) u = 2 := by
  show (if 35 ≤ 35 + s.val then 2 else 0) = 2
  rw [if_pos (by omega)]

/-- A wait on a cell at level 0 (the staging cells of the three windows) sits below everything a device may owe. -/
theorem mayWait_low (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases Osig_pos hg with ⟨p, rfl⟩ | ⟨p, rfl⟩ <;> (rw [L_tc]; exact Finset.mem_singleton_self _))
      (fun p hp => by
        rw [Finset.mem_singleton.mp hp]; show (if 35 ≤ q.val then 2 else 0) ≤ 0
        rw [if_neg (by omega)])
      (fun g u hg => by
        rcases Osig_pos hg with ⟨p, rfl⟩ | ⟨p, rfl⟩
        · rw [lv_bar]; decide
        · rw [lv_rcv]; decide)
  · rw [MayWait_zero]; iintro -; iempintro

/-- At its entry wait a device owes receive credit only: receive cells sit above its entry cell. -/
theorem mayWait_bar (c : Dev nD) :
    (levAts L lv : sProp 𝕄) ⊢ MayWait (c : Thread nD τ) (.reg barS) () (Osend c 31) :=
  MayOwe.of_cut (L := L) (lev := lv) 1 (fun p hp => by rw [Finset.mem_singleton.mp hp, L_tc]; exact Finset.mem_singleton_self _)
    (fun g u hg => by
      obtain ⟨p, rfl⟩ := Osend_pos hg
      rw [L_tc]; exact Finset.mem_singleton_self _)
    (fun p hp => by rw [Finset.mem_singleton.mp hp]; exact le_refl _)
    (fun g u hg => by
      obtain ⟨p, rfl⟩ := Osend_pos hg
      rw [lv_rcv]; decide)

end Cert.KernelIdeal.Hand

end
-- ==== Proof.KernelIdeal.Steps.lean ====
/-
  One step of each kind of the protocol, at a symbolic device `c` and a symbolic distance `j` (1 … 31).

  A device's state between steps is kept as the debts still to pay and the resources of the steps still to come,
  laid out over the distances `j … 31`; each step takes the head of the run and leaves the rest.
-/
import proofs.«901006_g7700000000001007_dist_rmsnorm_colshard_i_m512_n256_v7x_i32_bf16_1_alg».proof.Proof.KernelIdeal.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, indexed: the entry cell, 32 send cells, 32 receive cells per device -/

def csem (i : Fin 65) : SemLoc sig :=
  if i.val = 0 then .reg barS
  else if i.val < 33 then .dma (sendQ ⟨(i.val - 1) % 32, Nat.mod_lt _ (by decide)⟩)
  else .dma (recvQ ⟨(i.val - 33) % 32, Nat.mod_lt _ (by decide)⟩)

abbrev kcell (ck : Dev nD × Fin 65) : GSem nD τ sig := ((ck.1 : Thread nD τ), csem ck.2)

def sIx (k : Fin 32) : Fin 65 := ⟨1 + k.val, by have := k.isLt; omega⟩
def rIx (s : Dev nD) : Fin 65 := ⟨33 + s.val, by have hs : s.val < 32 := s.isLt; omega⟩

theorem csem_zero : csem 0 = .reg barS := if_pos rfl
theorem csem_sIx : ∀ k : Fin 32, csem (sIx k) = .dma (sendQ k) := by decide +kernel
theorem csem_rIx : ∀ s : Dev nD, csem (rIx s) = .dma (recvQ s) := by decide +kernel

theorem kcell_bar (p : Dev nD) : kcell (p, 0) = barCell p := by show ((p : Thread nD τ), csem 0) = _; rw [csem_zero]
theorem kcell_snd (c : Dev nD) (k : Fin 32) : kcell (c, sIx k) = sndCell c k := by show ((c : Thread nD τ), csem (sIx k)) = _; rw [csem_sIx]
theorem kcell_rcv (c s : Dev nD) : kcell (c, rIx s) = rcvCell c s := by show ((c : Thread nD τ), csem (rIx s)) = _; rw [csem_rIx]

/-- The names the cells' invariants were allocated at, and that every cell's round 0 is reached. -/
def records (K : Dev nD × Fin 65 → ℕ) : sProp 𝕄 :=
  iprop((bigSep Finset.univ fun ck : Dev nD × Fin 65 => cellInv ER (ringRd m) (K ck) (kcell ck))
    ∗ bigSep Finset.univ fun ck : Dev nD × Fin 65 => reached ER (kcell ck) 0)

instance records_persistent (K : Dev nD × Fin 65 → ℕ) : BI.Persistent (records m K) := by unfold records; infer_instance

section Recs
variable (K : Dev nD × Fin 65 → ℕ)

theorem inv_at0 (ck : Dev nD × Fin 65) :
    (bigSep Finset.univ fun ck : Dev nD × Fin 65 => (cellInv ER (ringRd m) (K ck) (kcell ck) : sProp 𝕄)) ⊢ cellInv ER (ringRd m) (K ck) (kcell ck) :=
  bigSep_elim (Finset.mem_univ ck)
theorem reached_at0 (ck : Dev nD × Fin 65) :
    (bigSep Finset.univ fun ck : Dev nD × Fin 65 => (reached ER (kcell ck) 0 : sProp 𝕄)) ⊢ reached ER (kcell ck) 0 :=
  bigSep_elim (Finset.mem_univ ck)

theorem inv_at (ck : Dev nD × Fin 65) : records m K ⊢ cellInv ER (ringRd m) (K ck) (kcell ck) := by
  unfold records; iintro ⟨HI, -⟩; iapply (inv_at0 m K ck); iexact HI
theorem reached_at (ck : Dev nD × Fin 65) : records m K ⊢ reached ER (kcell ck) 0 := by
  unfold records; iintro ⟨-, HR⟩; iapply (reached_at0 (F := F) ck); iexact HR

theorem inv_bar (p : Dev nD) : records m K ⊢ cellInv ER (ringRd m) (K (p, 0)) (barCell p) := by
  have := inv_at m K (p, 0); rwa [kcell_bar] at this
theorem inv_snd (c : Dev nD) (k : Fin 32) : records m K ⊢ cellInv ER (ringRd m) (K (c, sIx k)) (sndCell c k) := by
  have := inv_at m K (c, sIx k); rwa [kcell_snd] at this
theorem inv_rcv (c s : Dev nD) : records m K ⊢ cellInv ER (ringRd m) (K (c, rIx s)) (rcvCell c s) := by
  have := inv_at m K (c, rIx s); rwa [kcell_rcv] at this
theorem reached_bar (p : Dev nD) : records m K ⊢ reached ER (barCell p) 0 := by
  have := reached_at m K (p, 0); rwa [kcell_bar] at this
theorem reached_snd (c : Dev nD) (k : Fin 32) : records m K ⊢ reached ER (sndCell c k) 0 := by
  have := reached_at m K (c, sIx k); rwa [kcell_snd] at this
theorem reached_rcv (c s : Dev nD) : records m K ⊢ reached ER (rcvCell c s) 0 := by
  have := reached_at m K (c, rIx s); rwa [kcell_rcv] at this

end Recs

/-! ## Runs over the distances -/

/-- A distance as a send-semaphore index. -/
def fk (i : ℕ) : Fin 32 := ⟨i % 32, Nat.mod_lt _ (by decide)⟩
theorem fk_val (i : ℕ) (h : i < 32) : (fk i).val = i := Nat.mod_eq_of_lt h
theorem fk_eq (i : ℕ) (h : i < 32) : fk i = ⟨i, h⟩ := Fin.ext (Nat.mod_eq_of_lt h)

/-- The other 31 devices are the peers at distances 1 … 31. -/
theorem bigSep_peers (c : Dev nD) (Φ : Dev nD → sProp 𝕄) :
    bigSep (Finset.univ.erase c) Φ = bigSep (Finset.Ico 1 32) (fun j => Φ (pk c j)) := by
  have hs : Finset.univ.erase c = (Finset.Ico 1 32).image (pk c) := by
    ext d
    simp only [Finset.mem_erase, Finset.mem_univ, and_true, Finset.mem_image, Finset.mem_Ico]
    constructor
    · intro h
      obtain ⟨j, h1, h2, rfl⟩ := exists_pk c d h
      exact ⟨j, ⟨h1, by omega⟩, rfl⟩
    · rintro ⟨j, ⟨h1, h2⟩, rfl⟩
      exact pk_ne c j h1 (by omega)
  rw [hs]
  exact bigSep_image_of_injOn (f := pk c) (s := Finset.Ico 1 32)
    (fun i hi j hj h => pk_inj c (by have := Finset.mem_Ico.mp (Finset.mem_coe.mp hi); omega)
      (by have := Finset.mem_Ico.mp (Finset.mem_coe.mp hj); omega) h) Φ

/-- A run over `a ≤ k < b + 1` with its last number set apart. -/
theorem bigSep_Ico_last {a b : ℕ} (h : a ≤ b) (A : ℕ → sProp 𝕄) :
    bigSep (Finset.Ico a (b + 1)) A = iprop(A b ∗ bigSep (Finset.Ico a b) A) := by
  have e : Finset.Ico a (b + 1) = insert b (Finset.Ico a b) := by
    ext x; simp only [Finset.mem_Ico, Finset.mem_insert]; omega
  rw [e, bigSep_insert (by simp)]; rfl

/-! ## The entry signals -/

/-- What signal `i` takes: the token of the peer's duty, and the peer's row of this device's table. -/
def sigRes (c : Dev nD) (i : ℕ) : sProp 𝕄 :=
  iprop(dutyTok ER (barCell (pk c i)) 0 c ∗ ∃ f, rowPts (F := F) fullShare c (pk c i) f)

/-- Before signal `j`. -/
def SigSt (c : Dev nD) (W : Waits sig Unit) (j : ℕ) : sProp 𝕄 :=
  iprop(owes (c : Thread nD τ) (Osig c (32 - j)) W ∗ bigSep (Finset.Ico j 32) (fun i => sigRes (F := F) c i))

theorem sig_step (K : Dev nD × Fin 65 → ℕ) (c : Dev nD) (W : Waits sig Unit) (j : ℕ) (h1 : 1 ≤ j) (h2 : j ≤ 31)
    {α : Type} {Q : α → sProp 𝕄} {k : PUnit → Prog (TpuEff nD τ sig (Elt F) Λ₀ .tc) α} :
    iprop(records m K ∗ SigSt (F := F) c W j)
      ⊢ iprop((SigSt (F := F) c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((pk c j : Dev nD) : Thread nD τ) barS (1#32 : BitVec 32).toNat) k) Q) := by
  unfold SigSt
  iintro ⟨#HR, HO, Hall⟩ Hk
  ihave Hall' := (Entails.of_eq (Ring.bigSep_Ico_succ (by omega : j < 32) (fun i => sigRes (F := F) c i))) $$ Hall
  beta_reduce
  icases Hall' with ⟨Hhd, Hrest⟩
  unfold sigRes
  icases Hhd with ⟨Htok, ⟨%f, Hrow⟩⟩
  iapply (Rounds.wp_signal 𝒱₀ ER (ringRd m) (c : Thread nD τ) none (dst := ((pk c j : Dev nD) : Thread nD τ)) (κ := K (pk c j, 0))
      (d := c) (by rw [duties_bar]; exact Finset.mem_erase.mpr ⟨(pk_ne c j h1 h2).symm, Finset.mem_univ _⟩)
      ((amount_bar m (pk c j) c).trans (by decide)) () (Osig c (31 - j)) (Osig_step c j h1 h2))
    $$ [HO Htok Hrow]
  · isplitr; · iapply (inv_bar m K (pk c j)); iexact HR
    isplitl [HO]; · iexact HO
    isplitl [Htok]; · iexact Htok
    isplitl [Hrow]; · rw [payload_bar]; iexists f; iexact Hrow
    iapply (reached_bar m K (pk c j)); iexact HR
  iintro HO
  iapply Hk
  isplitl [HO]
  · rw [show 32 - (j + 1) = 31 - j by omega]; iexact HO
  · iexact Hrest

/-! ## The transfers -/

/-- What transfer `i` takes: its two duties' tokens and the target row on the peer. -/
def sendRes (c : Dev nD) (i : ℕ) : sProp 𝕄 :=
  iprop(dutyTok ER (sndCell c (fk i)) 0 c ∗ dutyTok ER (rcvCell (pk c i) c) 0 c ∗ ∃ f, rowPts (F := F) fullShare (pk c i) c f)

/-- Before transfer `j`: the receive credits still owed, the transfers still to come, what is left of the right
    half of the device's own row, and the send credits of the transfers made. -/
def SendSt (c : Dev nD) (W : Waits sig Unit) (j : ℕ) : sProp 𝕄 :=
  iprop((∃ W', owes (c : Thread nD τ) (Osend c (32 - j)) W') ∗ bigSep (Finset.Ico j 32) (fun i => sendRes (F := F) c i)
    ∗ rowPts (remShare (j - 1)) c c (commB m c)
    ∗ bigSep (Finset.Ico 1 j) (fun i => cred (tallyAt (sndCell c (fk i)) () N)))

theorem send_step (K : Dev nD × Fin 65 → ℕ) (c : Dev nD) (W : Waits sig Unit) (j : ℕ) (h1 : 1 ≤ j) (h2 : j ≤ 31)
    (n : Dev nD) (hn : n = pk c j) (q1 q2 : DmaSem sig) (hq1 : q1 = sendQ (fk j)) (hq2 : q2 = recvQ c)
    {hsc : (rowM c : Memref sig (Dev.tc n : Thread nD τ).2.kind .vmem S512 .f32).view.ref.isScScratch = false}
    {hsrc : (rowM c : Memref sig .tc .vmem S512 .f32).view.WordExact} {hdst : (rowM c : Memref sig .tc .vmem S512 .f32).view.WordExact}
    {hsem : DmaTarget.Typed .vmem (.dma q2) (.remote (Dev.tc n : Thread nD τ) (rowM c : Memref sig .tc .vmem S512 .f32) (.dma q1) hsc)}
    {α : Type} {Q : α → sProp 𝕄} {k : PUnit → Prog (TpuEff nD τ sig (Elt F) Λ₀ .tc) α} :
    iprop(records m K ∗ SendSt m c W j)
      ⊢ iprop((SendSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma q1) hsc) (.dma q2) hsrc hdst hsem) k) Q) := by
  subst hn hq1 hq2
  have hj : 1 ≤ (fk j).val := by rw [fk_val j (by omega)]; exact h1
  have hne : c ≠ pk c j := (pk_ne c j h1 h2).symm
  unfold SendSt
  iintro ⟨#HR, ⟨%W', HO⟩, Hall, Hown, Hcr⟩ Hk
  ihave Hall' := (Entails.of_eq (Ring.bigSep_Ico_succ (by omega : j < 32) (fun i => sendRes (F := F) c i))) $$ Hall
  beta_reduce
  icases Hall' with ⟨Hhd, Hrest⟩
  unfold sendRes
  icases Hhd with ⟨HtS, HtR, ⟨%fd, Hdst⟩⟩
  -- the share of the device's own row lent to this transfer
  unfold rowPts
  ihave Hsp := (pointsTo_share (remShare_split (j - 1))).1 $$ Hown
  icases Hsp with ⟨Hpc, Hrem⟩
  iapply (Rounds.wp_send_pointsTo 𝒱₀ ER (ringRd m) (c : Thread nD τ) none (κ₁ := K (c, sIx (fk j))) (κ₂ := K (pk c j, rIx c))
      (r₁ := 0) (r₂ := 0) (d₁ := c) (d₂ := c) (q := piece (j - 1)) (fs := commB m c) (fd := fd)
      (by rw [duties_snd m c (fk j) hj]; exact Finset.mem_singleton_self _)
      (by rw [duties_rcv m (pk c j) c hne]; exact Finset.mem_singleton_self _)
      () () N rfl (amount_snd m c (fk j) c) (amount_rcv m (pk c j) c c) (Osend c (31 - j)) (Osend_step c j h1 h2) (W := W')
      (by rw [payload_snd m c (fk j) hj, fk_val j (by omega)]; exact BI.Entails.refl _)
      (by rw [payload_rcv]; unfold rowPts; exact Entails.of_eq (pointsTo_congr (landed_row c fd (commB m c)))))
    $$ [HO HtS HtR Hdst Hpc]
  · isplitr; · iapply (inv_snd m K c (fk j)); iexact HR
    isplitr; · iapply (inv_rcv m K (pk c j) c); iexact HR
    isplitl [Hpc]; · iexact Hpc
    isplitl [Hdst]; · iexact Hdst
    isplitl [HO]; · iexact HO
    isplitl [HtS]; · iexact HtS
    isplitr; · iapply (reached_snd m K c (fk j)); iexact HR
    isplitl [HtR]; · iexact HtR
    iapply (reached_rcv m K (pk c j) c); iexact HR
  iintro ⟨Hc, HO⟩
  iapply Hk
  isplitl [HO]; · rw [show 32 - (j + 1) = 31 - j by omega]; iexists W'; iexact HO
  isplitl [Hrest]; · iexact Hrest
  isplitl [Hrem]; · rw [show j + 1 - 1 = (j - 1) + 1 by omega]; iexact Hrem
  iapply (Entails.of_eq (bigSep_Ico_last (by omega : 1 ≤ j) (fun i => cred (tallyAt (sndCell c (fk i)) () N))).symm)
  isplitl [Hc]; · iexact Hc
  iexact Hcr

/-! ## The receive waits -/

/-- What receive wait `i` takes: the credit token and the device's position on that cell. -/
def recvRes (c : Dev nD) (i : ℕ) : sProp 𝕄 :=
  iprop(cred (tallyAt (rcvCell c (pk c i)) () N) ∗ atPos ER (rcvCell c (pk c i)) 0 ∅ 0)

/-- What it leaves: the peer's row, filled, and the cell closed at zero. -/
def recvGot (c : Dev nD) (i : ℕ) : sProp 𝕄 :=
  iprop(rowPts fullShare c (pk c i) (commB m c) ∗ semVal (rcvCell c (pk c i)) 0)

def RecvSt (c : Dev nD) (W : Waits sig Unit) (j : ℕ) : sProp 𝕄 :=
  iprop((∃ W', owes (c : Thread nD τ) 0 W') ∗ bigSep (Finset.Ico j 32) (fun i => recvRes (F := F) c i)
    ∗ bigSep (Finset.Ico 1 j) (fun i => recvGot m c i))

theorem recv_step (K : Dev nD × Fin 65 → ℕ) (c : Dev nD) (W : Waits sig Unit) (j : ℕ) (h1 : 1 ≤ j) (h2 : j ≤ 31)
    (q : DmaSem sig) (hq : q = recvQ (pk c j)) (dM : Memref sig .tc .vmem S512 .f32) (hdM : dM = rowM (pk c j))
    {sM : Memref sig .tc .vmem S512 .f32} {hsrc : sM.view.WordExact} {hdst : dM.view.WordExact}
    {α : Type} {Q : α → sProp 𝕄} {k : PUnit → Prog (TpuEff nD τ sig (Elt F) Λ₀ .tc) α} :
    iprop(records m K ∗ RecvSt m c W j)
      ⊢ iprop((RecvSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q sM dM hsrc hdst) k) Q) := by
  subst hq hdM
  have hne : pk c j ≠ c := pk_ne c j h1 h2
  unfold RecvSt
  iintro ⟨#HR, ⟨%W', HO⟩, Hall, Hgot⟩ Hk
  ihave Hall' := (Entails.of_eq (Ring.bigSep_Ico_succ (by omega : j < 32) (fun i => recvRes (F := F) c i))) $$ Hall
  beta_reduce
  icases Hall' with ⟨Hhd, Hrest⟩
  unfold recvRes
  icases Hhd with ⟨Hc, Hat⟩
  iapply (Rounds.wp_wait_rest_token 𝒱₀ ER (ringRd m) (c : Thread nD τ) none (κ := K (c, rIx (pk c j)))
      (wpE_waitDma2_eq 𝒱₀ (c : Thread nD τ) none Set.univ) (Set.mem_univ _) () (O := 0) (W := W') (R := 0) (m := 0) (T := ∅)
      (by rw [Nat.zero_add, expect_rcv m c (pk c j) hne]; first | done | rfl)) $$ [Hc HO Hat]
  · isplitr; · iapply (inv_rcv m K c (pk c j)); iexact HR
    isplitl [Hc]; · iexact Hc
    isplitl [HO]; · iexact HO
    isplitr; · rw [MayWait_zero]; iempintro
    iexact Hat
  iintro ⟨HO, Hat, -, Hpay⟩
  ihave Hrow := (Entails.of_eq (rest_rcv m c (pk c j) hne)) $$ Hpay
  imod (Rounds.cell_close ER (ringRd m) (Set.mem_univ (K (c, rIx (pk c j)))) (fun h => h) (R := 0 + 1) (duties_later m (rcvCell c (pk c j)))) $$ [Hat] with Hz
  · isplitr; · iapply (inv_rcv m K c (pk c j)); iexact HR
    iexact Hat
  iapply Hk
  isplitl [HO]; · iexists _; iexact HO
  isplitl [Hrest]; · iexact Hrest
  iapply (Entails.of_eq (bigSep_Ico_last (by omega : 1 ≤ j) (fun i => recvGot m c i)).symm)
  isplitl [Hrow Hz]
  · unfold recvGot; isplitl [Hrow]; · iexact Hrow
    iexact Hz
  iexact Hgot

/-! ## The send waits -/

/-- What send wait `i` takes: the credit the transfer returned, and the device's position on that cell. -/
def swRes (c : Dev nD) (i : ℕ) : sProp 𝕄 :=
  iprop(cred (tallyAt (sndCell c (fk i)) () N) ∗ atPos ER (sndCell c (fk i)) 0 ∅ 0)

/-- What it leaves: the share lent to the transfer, and the cell closed at zero. -/
def swGot (c : Dev nD) (i : ℕ) : sProp 𝕄 :=
  iprop(rowPts (piece (i - 1)) c c (commB m c) ∗ semVal (sndCell c (fk i)) 0)

def SwSt (c : Dev nD) (W : Waits sig Unit) (j : ℕ) : sProp 𝕄 :=
  iprop((∃ W', owes (c : Thread nD τ) 0 W') ∗ bigSep (Finset.Ico j 32) (fun i => swRes (F := F) c i)
    ∗ bigSep (Finset.Ico 1 j) (fun i => swGot m c i))

theorem sw_step (K : Dev nD × Fin 65 → ℕ) (c : Dev nD) (W : Waits sig Unit) (j : ℕ) (h1 : 1 ≤ j) (h2 : j ≤ 31)
    (q : DmaSem sig) (hq : q = sendQ (fk j))
    {sM dM : Memref sig .tc .vmem S512 .f32} (hdM : dM.view.dmaCredit = N) {hsrc : sM.view.WordExact} {hdst : dM.view.WordExact}
    {α : Type} {Q : α → sProp 𝕄} {k : PUnit → Prog (TpuEff nD τ sig (Elt F) Λ₀ .tc) α} :
    iprop(records m K ∗ SwSt m c W j)
      ⊢ iprop((SwSt m c W (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q sM dM hsrc hdst) k) Q) := by
  subst hq
  have hj : 1 ≤ (fk j).val := by rw [fk_val j (by omega)]; exact h1
  unfold SwSt
  iintro ⟨#HR, ⟨%W', HO⟩, Hall, Hgot⟩ Hk
  ihave Hall' := (Entails.of_eq (Ring.bigSep_Ico_succ (by omega : j < 32) (fun i => swRes (F := F) c i))) $$ Hall
  beta_reduce
  icases Hall' with ⟨Hhd, Hrest⟩
  unfold swRes
  icases Hhd with ⟨Hc, Hat⟩
  iapply (Rounds.wp_wait_rest_token 𝒱₀ ER (ringRd m) (c : Thread nD τ) none (κ := K (c, sIx (fk j)))
      (wpE_waitDma2_eq 𝒱₀ (c : Thread nD τ) none Set.univ) (Set.mem_univ _) () (O := 0) (W := W') (R := 0) (m := 0) (T := ∅)
      (by rw [Nat.zero_add, expect_snd m c (fk j) hj, hdM])) $$ [Hc HO Hat]
  · isplitr; · iapply (inv_snd m K c (fk j)); iexact HR
    isplitl [Hc]; · rw [hdM]; iexact Hc
    isplitl [HO]; · iexact HO
    isplitr; · rw [MayWait_zero]; iempintro
    iexact Hat
  iintro ⟨HO, Hat, -, Hpay⟩
  ihave Hrow := (Entails.of_eq ((rest_snd m c (fk j) hj).trans (by rw [fk_val j (by omega)]))) $$ Hpay
  imod (Rounds.cell_close ER (ringRd m) (Set.mem_univ (K (c, sIx (fk j)))) (fun h => h) (R := 0 + 1) (duties_later m (sndCell c (fk j)))) $$ [Hat] with Hz
  · isplitr; · iapply (inv_snd m K c (fk j)); iexact HR
    iexact Hat
  iapply Hk
  isplitl [HO]; · iexists _; iexact HO
  isplitl [Hrest]; · iexact Hrest
  iapply (Entails.of_eq (bigSep_Ico_last (by omega : 1 ≤ j) (fun i => swGot m c i)).symm)
  isplitl [Hrow Hz]
  · unfold swGot; isplitl [Hrow]; · iexact Hrow
    iexact Hz
  iexact Hgot

end Cert.KernelIdeal.Hand

end
-- ==== Proof.KernelIdeal.Data.lean ====
/-
  The proof data of the one region: what a device's body starts from and what it leaves.

  It starts holding, for every peer at distance `j`: the token of the peer's entry duty, of its own send duty `j` and of
  the peer's receive duty for this device's row; its positions on its own cells; the credit of its entry cell's 31
  units and of its 31 receive cells; and its table, whole, at any contents. It ends with the table whole again and
  its 64 own semaphores back at zero. Its result block is `outAt`; its two staged inputs are left as found.
-/
import proofs.«901006_g7700000000001007_dist_rmsnorm_colshard_i_m512_n256_v7x_i32_bf16_1_alg».proof.Proof.KernelIdeal.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores as the launch indexes them: 32 send, then 32 receive. -/
abbrev osem : Fin 64 → SemLoc sig := fun i => .dma ⟨3 + i.val, by have := i.isLt; change 3 + i.val < 67; omega⟩

/-- The tokens a device pays with, per peer distance. -/
def payTok (c : Dev nD) (j : ℕ) : sProp 𝕄 :=
  iprop(dutyTok ER (barCell (pk c j)) 0 c ∗ dutyTok ER (sndCell c (fk j)) 0 c ∗ dutyTok ER (rcvCell (pk c j) c) 0 c)

/-- The collective's ghost state device `c` starts from. -/
def ghost (K : Dev nD × Fin 65 → ℕ) (c : Dev nD) : sProp 𝕄 :=
  iprop(records m K
    ∗ atPos ER (barCell c) 0 ∅ 0
    ∗ (bigSep (Finset.Ico 1 32) fun j => atPos ER (sndCell c (fk j)) 0 ∅ 0)
    ∗ (bigSep (Finset.Ico 1 32) fun j => atPos ER (rcvCell c (pk c j)) 0 ∅ 0)
    ∗ atPos ER (sndCell c 0) 0 ∅ 0 ∗ atPos ER (rcvCell c c) 0 ∅ 0
    ∗ bigSep (Finset.Ico 1 32) (fun j => payTok (F := F) c j))

/-- What device `c`'s body starts from, the table apart. -/
def start (c : Dev nD) : sProp 𝕄 :=
  iprop((∃ K, ghost m K c) ∗ cred (tallyAt (barCell c) () 31)
    ∗ (bigSep (Finset.Ico 1 32) fun j => cred (tallyAt (rcvCell c (pk c j)) () N)) ∗ levAts L lv)

def Φ₀ (c : Dev nD) : sProp 𝕄 := iprop(start m c ∗ ∃ f, (((c : Thread nD τ).loc cc0_scratch0) ↦{fullShare} f))

/-- After the point: the table whole, the 64 own cells closed at zero (the entry cell is not the launch's). -/
def Φ₁ (c : Dev nD) : sProp 𝕄 :=
  iprop((∃ f, (((c : Thread nD τ).loc cc0_scratch0) ↦{fullShare} f))
    ∗ semVal (sndCell c 0) 0 ∗ semVal (rcvCell c c) 0
    ∗ (bigSep (Finset.Ico 1 32) fun j => semVal (sndCell c (fk j)) 0)
    ∗ bigSep (Finset.Ico 1 32) fun j => semVal (rcvCell c (pk c j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => gin m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Hand

end
-- ==== Proof.KernelIdeal.Body.lean ====
/-
  The body of one device, stepped from its start state to its end state.

  In program order: 31 entry signals (each hands a peer its row of this device's table); the partial sums stored
  into the device's own row; the entry wait (every peer's copy of this device's row comes in); 31 transfers of the own
  row, each on a share of its right half; the scaled block `x · gamma`; 31 receive waits (the peers' rows, filled); the
  whole table read (the own row at its left half, the others' left halves split off for the read); the result stored;
  31 send waits (the lent shares back). Then the rows are joined into the table again.
-/
import proofs.«901006_g7700000000001007_dist_rmsnorm_colshard_i_m512_n256_v7x_i32_bf16_1_alg».proof.Proof.KernelIdeal.Data
import proofs.«901006_g7700000000001007_dist_rmsnorm_colshard_i_m512_n256_v7x_i32_bf16_1_alg».proof.Proof.Gen.KernelIdeal.Points
import proofs.«901006_g7700000000001007_dist_rmsnorm_colshard_i_m512_n256_v7x_i32_bf16_1_alg».proof.Proof.Gen.KernelIdeal.Frame

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The table by rows -/

/-- The elements of row `s`, as elements of device `c`'s table. -/
abbrev rows (c s : Dev nD) : Finset (Idx ((c : Thread nD τ).loc cc0_scratch0)) := (rowM s).view.set

/-- The row a device stores its partial sums through. -/
abbrev R1 (c : Dev nD) : Rect S32x512 := Rect.unit (s := S32x512) (k0_off1 c) S1x512.size (k0_off1_inb c)
abbrev R3 (s : Dev nD) : Rect S32x512 := Rect.unit (s := S32x512) (k0_off3 s) S1x512.size (k0_off3_inb s)

theorem rows_eq (c s : Dev nD) : rows c s = (R3 s).set := by
  show ((cM.view.slice (R3 s)).reshape S512 _).set = _
  rw [View.set_reshape]
  exact View.set_slice_whole cc0_scratch0 (R3 s)

theorem R1_set (c : Dev nD) : (R1 c).set = (R3 c).set := by
  ext i; rw [Rect.mem_set_unit, Rect.mem_set_unit, k0_off1_eq, k0_off3_eq]

theorem acc_set (c : Dev nD) : ((cM.access (R1 c)) : View sig .tc _ _ _).set = rows c c := by
  rw [rows_eq, ← R1_set]
  exact View.set_slice_whole cc0_scratch0 (R1 c)

theorem rows_disjoint (c : Dev nD) (b b' : Dev nD) (h : b ≠ b') : Disjoint (rows c b) (rows c b') := by
  rw [rows_eq, rows_eq]
  exact Ring.lead_disjoint (s := S32x512) (NB := 32) (0 : Fin 2) 1 k0_off3 S1x512.size k0_off3_inb
    (fun b => by rw [k0_off3_eq]; simp) rfl b b' h

theorem fin2_of_ne_zero (a : Fin 2) (ha : a ≠ 0) : a = 1 := by
  have h2 : a.val < 2 := a.isLt
  have h0 : a.val ≠ 0 := fun e => ha (Fin.ext e)
  exact Fin.ext (by show a.val = 1; omega)

theorem rows_cover (c : Dev nD) : Finset.univ.biUnion (fun s => rows c s) = Finset.univ := by
  have h := Ring.lead_cover (s := S32x512) (NB := 32) (0 : Fin 2) 1 k0_off3 S1x512.size k0_off3_inb
    (fun b => by rw [k0_off3_eq]; simp)
    (fun b a ha => by rw [fin2_of_ne_zero a ha, k0_off3_eq]; rfl)
    rfl
    (fun a ha => by rw [fin2_of_ne_zero a ha]; rfl)
    (by decide)
  rw [← h]
  exact Finset.biUnion_congr rfl fun s _ => rows_eq c s

/-- At an element of its own row, the table holds what the device stored there. -/
theorem comm_own (c : Dev nD) (x : S1x512.Idx) : comm m ((R1 c).emb x) = k0_pay2 (xin m c) x := by
  unfold comm part
  have hx0 : (x 0).val = 0 := by have h : (x 0).val < 1 := (x 0).isLt; omega
  have h0 : (⟨(((R1 c).emb x) 0).val, ValueIdx.idx2_lt0 ((R1 c).emb x)⟩ : Dev nD) = c := by
    apply Fin.ext
    show k0_off1 c 0 + 1 * (x 0).val = c.val
    rw [k0_off1_eq, hx0]
    show c.val + 1 * 0 = c.val
    omega
  have h1 : ValueIdx.ix2 (0 : Fin 1) (((R1 c).emb x) 1) = x := by
    funext a
    match a with
    | ⟨0, _⟩ => exact Fin.ext hx0.symm
    | ⟨1, _⟩ =>
      apply Fin.ext
      show k0_off1 c 1 + 1 * (x 1).val = (x 1).val
      rw [k0_off1_eq]
      show 0 + 1 * (x 1).val = (x 1).val
      omega
  rw [h0]
  exact congrArg (k0_pay2 (xin m c)) h1

/-- After the device's store its own row holds the gathered table's row. -/
theorem own_written (c : Dev nD) (f : Buf (Elt F) ((c : Thread nD τ).loc cc0_scratch0)) :
    ∀ i ∈ rows c c, ((cM.access (R1 c)) : View sig .tc _ _ _).write (Elt F) f (k0_pay2 (xin m c)) Finset.univ i = commB m c i := by
  intro i hi
  rw [← acc_set c] at hi
  obtain ⟨x, -, rfl⟩ := Finset.mem_map.mp hi
  rw [View.write_emb_of_mem _ _ (Finset.mem_univ x)]
  exact (comm_own m c x).symm

theorem hz2 : (![0, 0] : Fin 2 → Nat) = fun _ => 0 := funext fun a => by fin_cases a <;> rfl
theorem hz1 : (![0] : Fin 1 → Nat) = fun _ => 0 := funext fun a => by fin_cases a; rfl

abbrev rX : Rect S512x256 := Rect.unit (s := S512x256) ![0, 0] S512x256.size inb_S512x256_S512x256_0_0
abbrev rG : Rect S256 := Rect.unit (s := S256) ![0] S256.size inb_S256_S256_0
abbrev rT : Rect S32x512 := Rect.unit (s := S32x512) ![0, 0] S32x512.size inb_S32x512_S32x512_0_0

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0

theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
theorem read_g (f : (cc0_stg1_0 : Ref sig .tc).ty.Contents (Elt F)) : (gM : Memref sig .tc .vmem S256 .f32).view.readAt (Elt F) rG.toLoadRect f = f :=
  Memref.readAt_unit_zero (Elt F) cc0_stg1_0 hz1 _ f
theorem read_t (f : (cc0_scratch0 : Ref sig .tc).ty.Contents (Elt F)) : (cM : Memref sig .tc .vmem S32x512 .f32).view.readAt (Elt F) rT.toLoadRect f = f :=
  Memref.readAt_unit_zero (Elt F) cc0_scratch0 hz2 _ f
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-! ## Shares of rows -/

/-- A row held whole is its two halves. -/
theorem row_halves (d s : Dev nD) (f : Buf (Elt F) ((rowM s).view.loc (d : Thread nD τ))) :
    (rowPts (F := F) fullShare d s f) ⊣⊢ iprop(rowPts fullShare.left d s f ∗ rowPts fullShare.right d s f) := by
  unfold rowPts; exact pointsTo_share (PosShare.mem_left_op_right fullShare)

/-- The pieces lent to the first `n` transfers and what is left after them make up the right half. -/
theorem pieces_join (d s : Dev nD) (f : Buf (Elt F) ((rowM s).view.loc (d : Thread nD τ))) (n : ℕ) :
    iprop((bigSep (Finset.Ico 1 (n + 1)) fun i => rowPts (F := F) (piece (i - 1)) d s f) ∗ rowPts (remShare n) d s f)
      ⊢ rowPts (F := F) fullShare.right d s f := by
  induction n with
  | zero =>
    rw [show Finset.Ico 1 (0 + 1) = (∅ : Finset ℕ) by simp, bigSep_empty]
    iintro ⟨-, H⟩; iexact H
  | succ n ih =>
    rw [bigSep_Ico_last (by omega : 1 ≤ n + 1)]
    iintro ⟨⟨Hp, Hrest⟩, Hrem⟩
    iapply ih
    isplitl [Hrest]; · iexact Hrest
    unfold rowPts
    iapply (pointsTo_share (remShare_split n)).2
    isplitl [Hp]
    · rw [show n + 1 - 1 = n by omega]; iexact Hp
    · iexact Hrem

/-! ## The staged windows -/

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The two own cells no transfer uses -/

theorem duties_snd0 (c : Dev nD) : ∀ r, 0 ≤ r → (ringRd (F := F) m).duties (sndCell c 0) r = ∅ := by
  intro r _
  dsimp only [ringRd]
  by_cases h : r = 0 ∧ ((c : Thread nD τ), SemLoc.dma (sendQ 0)).1.2 = .tc
  · rw [if_pos h]
    show (if 3 < 3 + (0 : Fin 32).val ∧ 3 + (0 : Fin 32).val < 35 then ({c} : Finset (Dev nD)) else
      if 35 ≤ 3 + (0 : Fin 32).val ∧ srcOf (sendQ 0) ≠ c then {srcOf (sendQ 0)} else ∅) = ∅
    rw [if_neg (by decide), if_neg (fun h => absurd h.1 (by decide))]
  · rw [if_neg h]

theorem duties_rcvself (c : Dev nD) : ∀ r, 0 ≤ r → (ringRd (F := F) m).duties (rcvCell c c) r = ∅ := by
  intro r _
  dsimp only [ringRd]
  by_cases h : r = 0 ∧ ((c : Thread nD τ), SemLoc.dma (recvQ c)).1.2 = .tc
  · rw [if_pos h]
    show (if 3 < 35 + c.val ∧ 35 + c.val < 35 then ({c} : Finset (Dev nD)) else
      if 35 ≤ 35 + c.val ∧ srcOf (recvQ c) ≠ c then {srcOf (recvQ c)} else ∅) = ∅
    rw [if_neg (by omega), srcOf_recvQ, if_neg (fun h => h.2 rfl)]
  · rw [if_neg h]

/-! ## Building the runs' first states -/

theorem rowPts_eq (q : PosShare TreeShare) (d s : Dev nD) (f : Buf (Elt F) ((d : Thread nD τ).loc cc0_scratch0)) :
    rowPts (F := F) q d s f = ((((d : Thread nD τ).loc cc0_scratch0) ↦[rows d s]{q} f : sProp 𝕄)) := rfl

theorem own_pts_eq (c : Dev nD) (f : Buf (Elt F) ((c : Thread nD τ).loc cc0_scratch0)) :
    ((((cM.access (R1 c)) : View sig .tc _ _ _).loc (c : Thread nD τ) ↦[rows c c]{fullShare} f : sProp 𝕄)) = rowPts (F := F) fullShare c c f := rfl

theorem row_ex (c s : Dev nD) (f0 : Buf (Elt F) ((c : Thread nD τ).loc cc0_scratch0)) :
    (rowPts (F := F) fullShare c s f0) ⊢ iprop(∃ f, rowPts (F := F) fullShare c s f) := by
  iintro H; iexists f0; iexact H

theorem rows_ex (c : Dev nD) (f0 : Buf (Elt F) ((c : Thread nD τ).loc cc0_scratch0)) :
    (bigSep (Finset.Ico 1 32) fun j => rowPts (F := F) fullShare c (pk c j) f0)
      ⊢ bigSep (Finset.Ico 1 32) fun j => iprop(∃ f, rowPts (F := F) fullShare c (pk c j) f) :=
  bigSep_mono fun j _ => row_ex c (pk c j) f0

theorem sigSt_intro (c : Dev nD) (W : Waits sig Unit) (f0 : Buf (Elt F) ((c : Thread nD τ).loc cc0_scratch0)) :
    iprop(owes (c : Thread nD τ) (O₀ c) W ∗ (bigSep (Finset.Ico 1 32) fun j => dutyTok ER (barCell (pk c j)) 0 c)
        ∗ bigSep (Finset.Ico 1 32) fun j => rowPts (F := F) fullShare c (pk c j) f0)
      ⊢ SigSt (F := F) c W 1 := by
  unfold SigSt sigRes
  rw [bigSep_sep']
  iintro ⟨HO, Ht, Hr⟩
  isplitl [HO]; · iexact HO
  isplitl [Ht]; · iexact Ht
  iapply (rows_ex c f0)
  iexact Hr

theorem sendSt_intro (c : Dev nD) (W W' : Waits sig Unit) :
    iprop(owes (c : Thread nD τ) (Osend c 31) W' ∗ (bigSep (Finset.Ico 1 32) fun j => dutyTok ER (sndCell c (fk j)) 0 c)
        ∗ (bigSep (Finset.Ico 1 32) fun j => dutyTok ER (rcvCell (pk c j) c) 0 c)
        ∗ (bigSep (Finset.Ico 1 32) fun j => iprop(∃ f, rowPts (F := F) fullShare (pk c j) c f))
        ∗ rowPts fullShare.right c c (commB m c))
      ⊢ SendSt m c W 1 := by
  unfold SendSt sendRes
  rw [bigSep_sep', bigSep_sep', show Finset.Ico 1 1 = (∅ : Finset ℕ) by simp, bigSep_empty]
  iintro ⟨HO, Ht1, Ht2, Hr, Hown⟩
  isplitl [HO]; · iexists W'; iexact HO
  isplitl [Ht1 Ht2 Hr]
  · isplitl [Ht1]; · iexact Ht1
    isplitl [Ht2]; · iexact Ht2
    iexact Hr
  isplitl [Hown]; · iexact Hown
  iempintro

theorem recvSt_intro (c : Dev nD) (W W' : Waits sig Unit) :
    iprop(owes (c : Thread nD τ) 0 W' ∗ (bigSep (Finset.Ico 1 32) fun j => cred (tallyAt (rcvCell c (pk c j)) () N))
        ∗ bigSep (Finset.Ico 1 32) fun j => atPos ER (rcvCell c (pk c j)) 0 ∅ 0)
      ⊢ RecvSt m c W 1 := by
  unfold RecvSt recvRes
  rw [bigSep_sep', show Finset.Ico 1 1 = (∅ : Finset ℕ) by simp, bigSep_empty]
  iintro ⟨HO, Hc, Hat⟩
  isplitl [HO]; · iexists W'; iexact HO
  isplitl [Hc Hat]
  · isplitl [Hc]; · iexact Hc
    iexact Hat
  iempintro

theorem swSt_intro (c : Dev nD) (W W' : Waits sig Unit) :
    iprop(owes (c : Thread nD τ) 0 W' ∗ (bigSep (Finset.Ico 1 32) fun j => cred (tallyAt (sndCell c (fk j)) () N))
        ∗ bigSep (Finset.Ico 1 32) fun j => atPos ER (sndCell c (fk j)) 0 ∅ 0)
      ⊢ SwSt m c W 1 := by
  unfold SwSt swRes
  rw [bigSep_sep', show Finset.Ico 1 1 = (∅ : Finset ℕ) by simp, bigSep_empty]
  iintro ⟨HO, Hc, Hat⟩
  isplitl [HO]; · iexists W'; iexact HO
  isplitl [Hc Hat]
  · isplitl [Hc]; · iexact Hc
    iexact Hat
  iempintro

/-- The table at one share is its 32 rows at that share: the device's own row, and the peers' by distance. -/
theorem rows_join (q : PosShare TreeShare) (c : Dev nD) (f : Buf (Elt F) ((c : Thread nD τ).loc cc0_scratch0)) :
    ((((c : Thread nD τ).loc cc0_scratch0) ↦{q} f : sProp 𝕄))
      = iprop(rowPts (F := F) q c c f ∗ bigSep (Finset.Ico 1 32) fun i => rowPts (F := F) q c (pk c i) f) := by
  rw [Ring.pointsTo_blocks (Ix := Unit) (Name := ℕ) (U := UU) (Lvl := ℕ) (ℓ := (c : Thread nD τ).loc cc0_scratch0) (q := q)
      (fun s : Dev nD => rows c s) (rows_disjoint c) (rows_cover c) f,
    bigSep_univ_split c, bigSep_peers c]
  rfl

/-- A run of rows held whole is the run of their left halves and the run of their right halves. -/
theorem run_halves (c : Dev nD) (f : Buf (Elt F) ((c : Thread nD τ).loc cc0_scratch0)) :
    (bigSep (Finset.Ico 1 32) fun i => rowPts (F := F) fullShare c (pk c i) f)
      ⊣⊢ iprop((bigSep (Finset.Ico 1 32) fun i => rowPts (F := F) fullShare.left c (pk c i) f)
          ∗ bigSep (Finset.Ico 1 32) fun i => rowPts (F := F) fullShare.right c (pk c i) f) := by
  rw [← bigSep_sep']
  constructor
  · exact bigSep_mono fun i _ => (row_halves c (pk c i) f).1
  · exact bigSep_mono fun i _ => (row_halves c (pk c i) f).2

/-! ## The body -/

section Body

variable (K : Dev nD × Fin 65 → ℕ)

def bodyPre (c : Dev nD) : sProp 𝕄 :=
  iprop((ghost m K c ∗ cred (tallyAt (barCell c) () 31)
      ∗ (bigSep (Finset.Ico 1 32) fun j => cred (tallyAt (rcvCell c (pk c j)) () N)) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xin m c) ∗ stg c cc0_stg1_0 (gin m c) ∗ stg c cc0_stg2_0 (outAt m c))

set_option hygiene false in
local macro "sigS " j:num : term => `(sig_step m K c W $j (by decide) (by decide))
set_option hygiene false in
local macro "sendS " j:num dv:ident : term =>
  `(send_step m K c W $j (by decide) (by decide) _ ($dv c) _ _ (sendSem_eq ⟨$j, by decide⟩) (recvOwn_eq c))
set_option hygiene false in
local macro "recvS " j:num r:num : term =>
  `(recv_step m K c W $j (by decide) (by decide) (recvAt c $r) (recvAt_eq c $r) (rowAtM c $r) (rowAtM_eq c $r))
set_option hygiene false in
local macro "swS " j:num : term =>
  `(sw_step m K c W $j (by decide) (by decide) (sendSem $j (by decide)) (sendSem_eq ⟨$j, by decide⟩) (dM := rowM c) rfl)

set_option maxHeartbeats 0 in
set_option maxRecDepth 65536 in
/-- The body, stepped from `bodyPre` to `bodyPost` in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel k0_part23_skel k0_part24_skel
    k0_part25_skel k0_part26_skel k0_part27_skel k0_part28_skel k0_part29_skel k0_part30_skel k0_part31_skel k0_part32_skel
    k0_part33_skel k0_part34_skel k0_part35_skel k0_part36_skel k0_part37_skel k0_part38_skel k0_part39_skel k0_part40_skel
    k0_part41_skel k0_part42_skel k0_part43_skel k0_part44_skel k0_part45_skel k0_part46_skel k0_part47_skel k0_part48_skel
    k0_part49_skel k0_part50_skel k0_part51_skel k0_part52_skel k0_part53_skel
  simp only [semSignalWord, semWaitWord, Prog.lift, Prog.bind_op, Prog.bind_ret, Prog.pure_eq_ret, wp_deviceId]
  simp only [dev_table]
  unfold bodyPre ghost
  iintro ⟨⟨⟨⟨#HR, HatB, HatS, HatV, HatS0, HatVc, Htoks⟩, HcB, HcV, #Hlev, ⟨%f0, Hscr⟩⟩, Ho, ⟨%d0, %g0, %hg0, Hx⟩, ⟨%d1, %g1, %hg1, Hg⟩,
    ⟨%d2, %g2, %hg2, Hout⟩⟩, Hk⟩
  have hx : g0 = xin m c := by rw [hg0]; unfold Dat.before; rw [if_pos (fetch0_0 t₀)]; rfl
  have hgm : g1 = gin m c := by rw [hg1]; unfold Dat.before; rw [if_pos (fetch0_1 t₀)]; rfl
  subst hx hgm
  unfold Dat.owesAt Pipeline.owesWithin
  icases Ho with ⟨%W, %hW, HO⟩
  rw [show (dats m ρ 0 c).owed t₀.castSucc = O₀ c from rfl]
  -- the tokens by kind: entry, send, receive
  unfold payTok
  ihave Ht := (Entails.of_eq (bigSep_sep' (Finset.Ico 1 32) (fun j => dutyTok ER (barCell (pk c j)) 0 c)
    (fun j => iprop(dutyTok ER (sndCell c (fk j)) 0 c ∗ dutyTok ER (rcvCell (pk c j) c) 0 c)))) $$ Htoks
  icases Ht with ⟨HtB, Ht2⟩
  ihave Ht3 := (Entails.of_eq (bigSep_sep' (Finset.Ico 1 32) (fun j => dutyTok ER (sndCell c (fk j)) 0 c)
    (fun j => dutyTok ER (rcvCell (pk c j) c) 0 c))) $$ Ht2
  icases Ht3 with ⟨HtS, HtR⟩
  -- the table by rows: the device's own row apart, the others by distance
  ihave Hrows := (Entails.of_eq (rows_join fullShare c f0)) $$ Hscr
  icases Hrows with ⟨Hown, Hoth⟩
  -- the 31 entry signals: each peer is handed its row of this device's table
  ihave HS := (sigSt_intro c W f0) $$ [HO HtB Hoth]
  · isplitl [HO]; · iexact HO
    isplitl [HtB]; · iexact HtB
    iexact Hoth
  iapply (sigS 1) $$ [HS]; (isplitr; iexact HR; iexact HS); iintro HS
  iapply (sigS 2) $$ [HS]; (isplitr; iexact HR; iexact HS); iintro HS
  iapply (sigS 3) $$ [HS]; (isplitr; iexact HR; iexact HS); iintro HS
  iapply (sigS 4) $$ [HS]; (isplitr; iexact HR; iexact HS); iintro HS
  iapply (sigS 5) $$ [HS]; (isplitr; iexact HR; iexact HS); iintro HS
  iapply (sigS 6) $$ [HS]; (isplitr; iexact HR; iexact HS); iintro HS
  iapply (sigS 7) $$ [HS]; (isplitr; iexact HR; iexact HS); iintro HS
  iapply (sigS 8) $$ [HS]; (isplitr; iexact HR; iexact HS); iintro HS
  iapply (sigS 9) $$ [HS]; (isplitr; iexact HR; iexact HS); iintro HS
  iapply (sigS 10) $$ [HS]; (isplitr; iexact HR; iexact HS); iintro HS
  iapply (sigS 11) $$ [HS]; (isplitr; iexact HR; iexact HS); iintro HS
  iapply (sigS 12) $$ [HS]; (isplitr; iexact HR; iexact HS); iintro HS
  iapply (sigS 13) $$ [HS]; (isplitr; iexact HR; iexact HS); iintro HS
  iapply (sigS 14) $$ [HS]; (isplitr; iexact HR; iexact HS); iintro HS
  iapply (sigS 15) $$ [HS]; (isplitr; iexact HR; iexact HS); iintro HS
  iapply (sigS 16) $$ [HS]; (isplitr; iexact HR; iexact HS); iintro HS
  iapply (sigS 17) $$ [HS]; (isplitr; iexact HR; iexact HS); iintro HS
  iapply (sigS 18) $$ [HS]; (isplitr; iexact HR; iexact HS); iintro HS
  iapply (sigS 19) $$ [HS]; (isplitr; iexact HR; iexact HS); iintro HS
  iapply (sigS 20) $$ [HS]; (isplitr; iexact HR; iexact HS); iintro HS
  iapply (sigS 21) $$ [HS]; (isplitr; iexact HR; iexact HS); iintro HS
  iapply (sigS 22) $$ [HS]; (isplitr; iexact HR; iexact HS); iintro HS
  iapply (sigS 23) $$ [HS]; (isplitr; iexact HR; iexact HS); iintro HS
  iapply (sigS 24) $$ [HS]; (isplitr; iexact HR; iexact HS); iintro HS
  iapply (sigS 25) $$ [HS]; (isplitr; iexact HR; iexact HS); iintro HS
  iapply (sigS 26) $$ [HS]; (isplitr; iexact HR; iexact HS); iintro HS
  iapply (sigS 27) $$ [HS]; (isplitr; iexact HR; iexact HS); iintro HS
  iapply (sigS 28) $$ [HS]; (isplitr; iexact HR; iexact HS); iintro HS
  iapply (sigS 29) $$ [HS]; (isplitr; iexact HR; iexact HS); iintro HS
  iapply (sigS 30) $$ [HS]; (isplitr; iexact HR; iexact HS); iintro HS
  iapply (sigS 31) $$ [HS]; (isplitr; iexact HR; iexact HS); iintro HS
  unfold SigSt
  simp only [Nat.reduceAdd, Finset.Ico_self, bigSep_empty]
  icases HS with ⟨HO, -⟩
  -- the block of x; the partial sums into the device's own row
  iapply (wp_load 𝒱₀ (c : Thread nD τ) none Set.univ (m := xM) (Finset.subset_univ _)) $$ Hx; iintro Hx
  rw [read_x]
  ihave Hown := (Entails.of_eq (rowPts_eq fullShare c c f0)) $$ Hown
  iapply (wp_load 𝒱₀ (c : Thread nD τ) none Set.univ (m := cM) (S := rows c c)
    (by rw [← acc_set c]; exact (View.set_slice (v := cM.view) (R1 c)).symm.subset)) $$ Hown; iintro Hown
  iapply (wp_store 𝒱₀ (c : Thread nD τ) none Set.univ (m := cM) (r := R1 c) (Mk := Finset.univ) (S := rows c c)
    (by rw [View.setOn_univ, acc_set])) $$ Hown; iintro Hown
  ihave Hown := (Entails.of_eq (pointsTo_congr (own_written m c f0))) $$ Hown
  ihave Hown := (Entails.of_eq (own_pts_eq c (commB m c))) $$ Hown
  -- the entry wait: from every peer, this device's row of the peer's table
  iapply (Rounds.wp_wait_rest_token 𝒱₀ ER (ringRd m) (c : Thread nD τ) none (κ := K (c, 0))
      (wpE_semWait_eq 𝒱₀ (c : Thread nD τ) none Set.univ) (Set.mem_univ _) () (O := Osend c 31) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (bigSep_peers c _))) $$ Hpay
  -- the own row at its two halves; the 31 transfers on pieces of the right half
  ihave Hh := (row_halves c c (commB m c)).1 $$ Hown
  icases Hh with ⟨HownL, HownR⟩
  ihave HS := (sendSt_intro m c W _) $$ [HO HtS HtR Hp HownR]
  · isplitl [HO]; · iexact HO
    isplitl [HtS]; · iexact HtS
    isplitl [HtR]; · iexact HtR
    isplitl [Hp]; · iexact Hp
    iexact HownR
  iapply (sendS 1 dev32_eq) $$ [HS]; (isplitr; iexact HR; iexact HS); iintro HS
  iapply (sendS 2 dev33_eq) $$ [HS]; (isplitr; iexact HR; iexact HS); iintro HS
  iapply (sendS 3 dev34_eq) $$ [HS]; (isplitr; iexact HR; iexact HS); iintro HS
  iapply (sendS 4 dev35_eq) $$ [HS]; (isplitr; iexact HR; iexact HS); iintro HS
  iapply (sendS 5 dev36_eq) $$ [HS]; (isplitr; iexact HR; iexact HS); iintro HS
  iapply (sendS 6 dev37_eq) $$ [HS]; (isplitr; iexact HR; iexact HS); iintro HS
  iapply (sendS 7 dev38_eq) $$ [HS]; (isplitr; iexact HR; iexact HS); iintro HS
  iapply (sendS 8 dev39_eq) $$ [HS]; (isplitr; iexact HR; iexact HS); iintro HS
  iapply (sendS 9 dev40_eq) $$ [HS]; (isplitr; iexact HR; iexact HS); iintro HS
  iapply (sendS 10 dev41_eq) $$ [HS]; (isplitr; iexact HR; iexact HS); iintro HS
  iapply (sendS 11 dev42_eq) $$ [HS]; (isplitr; iexact HR; iexact HS); iintro HS
  iapply (sendS 12 dev43_eq) $$ [HS]; (isplitr; iexact HR; iexact HS); iintro HS
  iapply (sendS 13 dev44_eq) $$ [HS]; (isplitr; iexact HR; iexact HS); iintro HS
  iapply (sendS 14 dev45_eq) $$ [HS]; (isplitr; iexact HR; iexact HS); iintro HS
  iapply (sendS 15 dev46_eq) $$ [HS]; (isplitr; iexact HR; iexact HS); iintro HS
  iapply (sendS 16 dev47_eq) $$ [HS]; (isplitr; iexact HR; iexact HS); iintro HS
  iapply (sendS 17 dev48_eq) $$ [HS]; (isplitr; iexact HR; iexact HS); iintro HS
  iapply (sendS 18 dev49_eq) $$ [HS]; (isplitr; iexact HR; iexact HS); iintro HS
  iapply (sendS 19 dev50_eq) $$ [HS]; (isplitr; iexact HR; iexact HS); iintro HS
  iapply (sendS 20 dev51_eq) $$ [HS]; (isplitr; iexact HR; iexact HS); iintro HS
  iapply (sendS 21 dev52_eq) $$ [HS]; (isplitr; iexact HR; iexact HS); iintro HS
  iapply (sendS 22 dev53_eq) $$ [HS]; (isplitr; iexact HR; iexact HS); iintro HS
  iapply (sendS 23 dev54_eq) $$ [HS]; (isplitr; iexact HR; iexact HS); iintro HS
  iapply (sendS 24 dev55_eq) $$ [HS]; (isplitr; iexact HR; iexact HS); iintro HS
  iapply (sendS 25 dev56_eq) $$ [HS]; (isplitr; iexact HR; iexact HS); iintro HS
  iapply (sendS 26 dev57_eq) $$ [HS]; (isplitr; iexact HR; iexact HS); iintro HS
  iapply (sendS 27 dev58_eq) $$ [HS]; (isplitr; iexact HR; iexact HS); iintro HS
  iapply (sendS 28 dev59_eq) $$ [HS]; (isplitr; iexact HR; iexact HS); iintro HS
  iapply (sendS 29 dev60_eq) $$ [HS]; (isplitr; iexact HR; iexact HS); iintro HS
  iapply (sendS 30 dev61_eq) $$ [HS]; (isplitr; iexact HR; iexact HS); iintro HS
  iapply (sendS 31 dev62_eq) $$ [HS]; (isplitr; iexact HR; iexact HS); iintro HS
  unfold SendSt
  simp only [Nat.reduceAdd, Finset.Ico_self, bigSep_empty]
  icases HS with ⟨⟨%W2, HO⟩, -, Hrem, Hcr⟩
  -- the block of gamma
  iapply (wp_load 𝒱₀ (c : Thread nD τ) none Set.univ (m := gM) (Finset.subset_univ _)) $$ Hg; iintro Hg
  rw [read_g]
  -- the 31 receive waits: the peers' rows, filled
  ihave HS := (recvSt_intro m c W W2) $$ [HO HcV HatV]
  · isplitl [HO]; · iexact HO
    isplitl [HcV]; · iexact HcV
    iexact HatV
  iapply (recvS 1 0) $$ [HS]; (isplitr; iexact HR; iexact HS); iintro HS
  iapply (recvS 2 1) $$ [HS]; (isplitr; iexact HR; iexact HS); iintro HS
  iapply (recvS 3 2) $$ [HS]; (isplitr; iexact HR; iexact HS); iintro HS
  iapply (recvS 4 3) $$ [HS]; (isplitr; iexact HR; iexact HS); iintro HS
  iapply (recvS 5 4) $$ [HS]; (isplitr; iexact HR; iexact HS); iintro HS
  iapply (recvS 6 5) $$ [HS]; (isplitr; iexact HR; iexact HS); iintro HS
  iapply (recvS 7 6) $$ [HS]; (isplitr; iexact HR; iexact HS); iintro HS
  iapply (recvS 8 7) $$ [HS]; (isplitr; iexact HR; iexact HS); iintro HS
  iapply (recvS 9 8) $$ [HS]; (isplitr; iexact HR; iexact HS); iintro HS
  iapply (recvS 10 9) $$ [HS]; (isplitr; iexact HR; iexact HS); iintro HS
  iapply (recvS 11 10) $$ [HS]; (isplitr; iexact HR; iexact HS); iintro HS
  iapply (recvS 12 11) $$ [HS]; (isplitr; iexact HR; iexact HS); iintro HS
  iapply (recvS 13 12) $$ [HS]; (isplitr; iexact HR; iexact HS); iintro HS
  iapply (recvS 14 13) $$ [HS]; (isplitr; iexact HR; iexact HS); iintro HS
  iapply (recvS 15 14) $$ [HS]; (isplitr; iexact HR; iexact HS); iintro HS
  iapply (recvS 16 15) $$ [HS]; (isplitr; iexact HR; iexact HS); iintro HS
  iapply (recvS 17 16) $$ [HS]; (isplitr; iexact HR; iexact HS); iintro HS
  iapply (recvS 18 17) $$ [HS]; (isplitr; iexact HR; iexact HS); iintro HS
  iapply (recvS 19 18) $$ [HS]; (isplitr; iexact HR; iexact HS); iintro HS
  iapply (recvS 20 19) $$ [HS]; (isplitr; iexact HR; iexact HS); iintro HS
  iapply (recvS 21 20) $$ [HS]; (isplitr; iexact HR; iexact HS); iintro HS
  iapply (recvS 22 21) $$ [HS]; (isplitr; iexact HR; iexact HS); iintro HS
  iapply (recvS 23 22) $$ [HS]; (isplitr; iexact HR; iexact HS); iintro HS
  iapply (recvS 24 23) $$ [HS]; (isplitr; iexact HR; iexact HS); iintro HS
  iapply (recvS 25 24) $$ [HS]; (isplitr; iexact HR; iexact HS); iintro HS
  iapply (recvS 26 25) $$ [HS]; (isplitr; iexact HR; iexact HS); iintro HS
  iapply (recvS 27 26) $$ [HS]; (isplitr; iexact HR; iexact HS); iintro HS
  iapply (recvS 28 27) $$ [HS]; (isplitr; iexact HR; iexact HS); iintro HS
  iapply (recvS 29 28) $$ [HS]; (isplitr; iexact HR; iexact HS); iintro HS
  iapply (recvS 30 29) $$ [HS]; (isplitr; iexact HR; iexact HS); iintro HS
  iapply (recvS 31 30) $$ [HS]; (isplitr; iexact HR; iexact HS); iintro HS
  unfold RecvSt
  simp only [Nat.reduceAdd, Finset.Ico_self, bigSep_empty]
  icases HS with ⟨⟨%W3, HO⟩, -, Hgot⟩
  unfold recvGot
  ihave Hgot' := (Entails.of_eq (bigSep_sep' (Finset.Ico 1 32) (fun i => rowPts (F := F) fullShare c (pk c i) (commB m c))
    (fun i => semVal (rcvCell c (pk c i)) 0))) $$ Hgot
  icases Hgot' with ⟨Hpeers, HzV⟩
  -- the whole table read at its left half
  ihave Hph := (run_halves c (commB m c)).1 $$ Hpeers
  icases Hph with ⟨HpL, HpR⟩
  ihave Htab := (Entails.of_eq (rows_join fullShare.left c (commB m c)).symm) $$ [HownL HpL]
  · isplitl [HownL]; · iexact HownL
    iexact HpL
  iapply (wp_load 𝒱₀ (c : Thread nD τ) none Set.univ (m := cM) (Finset.subset_univ _)) $$ Htab; iintro Htab
  rw [read_t]
  -- the result stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the 31 send waits: the lent shares back
  ihave HS := (swSt_intro m c W W3) $$ [HO Hcr HatS]
  · isplitl [HO]; · iexact HO
    isplitl [Hcr]; · iexact Hcr
    iexact HatS
  iapply (swS 1) $$ [HS]; (isplitr; iexact HR; iexact HS); iintro HS
  iapply (swS 2) $$ [HS]; (isplitr; iexact HR; iexact HS); iintro HS
  iapply (swS 3) $$ [HS]; (isplitr; iexact HR; iexact HS); iintro HS
  iapply (swS 4) $$ [HS]; (isplitr; iexact HR; iexact HS); iintro HS
  iapply (swS 5) $$ [HS]; (isplitr; iexact HR; iexact HS); iintro HS
  iapply (swS 6) $$ [HS]; (isplitr; iexact HR; iexact HS); iintro HS
  iapply (swS 7) $$ [HS]; (isplitr; iexact HR; iexact HS); iintro HS
  iapply (swS 8) $$ [HS]; (isplitr; iexact HR; iexact HS); iintro HS
  iapply (swS 9) $$ [HS]; (isplitr; iexact HR; iexact HS); iintro HS
  iapply (swS 10) $$ [HS]; (isplitr; iexact HR; iexact HS); iintro HS
  iapply (swS 11) $$ [HS]; (isplitr; iexact HR; iexact HS); iintro HS
  iapply (swS 12) $$ [HS]; (isplitr; iexact HR; iexact HS); iintro HS
  iapply (swS 13) $$ [HS]; (isplitr; iexact HR; iexact HS); iintro HS
  iapply (swS 14) $$ [HS]; (isplitr; iexact HR; iexact HS); iintro HS
  iapply (swS 15) $$ [HS]; (isplitr; iexact HR; iexact HS); iintro HS
  iapply (swS 16) $$ [HS]; (isplitr; iexact HR; iexact HS); iintro HS
  iapply (swS 17) $$ [HS]; (isplitr; iexact HR; iexact HS); iintro HS
  iapply (swS 18) $$ [HS]; (isplitr; iexact HR; iexact HS); iintro HS
  iapply (swS 19) $$ [HS]; (isplitr; iexact HR; iexact HS); iintro HS
  iapply (swS 20) $$ [HS]; (isplitr; iexact HR; iexact HS); iintro HS
  iapply (swS 21) $$ [HS]; (isplitr; iexact HR; iexact HS); iintro HS
  iapply (swS 22) $$ [HS]; (isplitr; iexact HR; iexact HS); iintro HS
  iapply (swS 23) $$ [HS]; (isplitr; iexact HR; iexact HS); iintro HS
  iapply (swS 24) $$ [HS]; (isplitr; iexact HR; iexact HS); iintro HS
  iapply (swS 25) $$ [HS]; (isplitr; iexact HR; iexact HS); iintro HS
  iapply (swS 26) $$ [HS]; (isplitr; iexact HR; iexact HS); iintro HS
  iapply (swS 27) $$ [HS]; (isplitr; iexact HR; iexact HS); iintro HS
  iapply (swS 28) $$ [HS]; (isplitr; iexact HR; iexact HS); iintro HS
  iapply (swS 29) $$ [HS]; (isplitr; iexact HR; iexact HS); iintro HS
  iapply (swS 30) $$ [HS]; (isplitr; iexact HR; iexact HS); iintro HS
  iapply (swS 31) $$ [HS]; (isplitr; iexact HR; iexact HS); iintro HS
  unfold SwSt
  simp only [Nat.reduceAdd, Finset.Ico_self, bigSep_empty]
  icases HS with ⟨⟨%W4, HO⟩, -, Hsw⟩
  unfold swGot
  ihave Hsw' := (Entails.of_eq (bigSep_sep' (Finset.Ico 1 32) (fun i => rowPts (F := F) (piece (i - 1)) c c (commB m c))
    (fun i => semVal (sndCell c (fk i)) 0))) $$ Hsw
  icases Hsw' with ⟨Hpcs, HzS⟩
  -- the two own cells no transfer used close at zero
  imod (Rounds.cell_close ER (ringRd m) (Set.mem_univ (K (c, sIx 0))) (fun h => h) (R := 0) (duties_snd0 m c)) $$ [HatS0] with HzS0
  · isplitr; · iapply (inv_snd m K c 0); iexact HR
    iexact HatS0
  imod (Rounds.cell_close ER (ringRd m) (Set.mem_univ (K (c, rIx c))) (fun h => h) (R := 0) (duties_rcvself m c)) $$ [HatVc] with HzVc
  · isplitr; · iapply (inv_rcv m K c c); iexact HR
    iexact HatVc
  -- the rows joined into the table again
  ihave HownR := (pieces_join c c (commB m c) 31) $$ [Hpcs Hrem]
  · isplitl [Hpcs]; · iexact Hpcs
    iexact Hrem
  ihave Hrows := (Entails.of_eq (rows_join fullShare.left c (commB m c))) $$ Htab
  icases Hrows with ⟨HownL, HpL⟩
  ihave Hown := (row_halves c c (commB m c)).2 $$ [HownL HownR]
  · isplitl [HownL]; · iexact HownL
    iexact HownR
  ihave Hpeers := (run_halves c (commB m c)).2 $$ [HpL HpR]
  · isplitl [HpL]; · iexact HpL
    iexact HpR
  ihave Htab := (Entails.of_eq (rows_join fullShare c (commB m c)).symm) $$ [Hown Hpeers]
  · isplitl [Hown]; · iexact Hown
    iexact Hpeers
  rw [wp_ret]; imodintro
  iapply Hk
  unfold bodyPost Φ₁ Dat.owesAt Pipeline.owesWithin
  rw [show (dats m ρ 0 c).owed t₀.succ = 0 from rfl]
  isplitl [Htab HzS0 HzVc HzS HzV]
  · isplitl [Htab]; · iexists (commB m c); iexact Htab
    isplitl [HzS0]; · iexact HzS0
    isplitl [HzVc]; · iexact HzVc
    isplitl [HzS]; · iexact HzS
    iexact HzV
  isplitl [HO]
  · iexists W4
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

end Body

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hgh⟩, Hrest⟩, Hscr⟩, Ho, Hx, Hgm, Hout⟩
  iapply (sound_body m ρ K c fun _ => bodyPost m ρ c)
  unfold bodyPre
  isplitr []
  · isplitl [Hgh Hrest Hscr]
    · isplitl [Hgh]; · iexact Hgh
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgm]; · iexact Hgm
    iexact Hout
  · iintro H; iexact H

end Cert.KernelIdeal.Hand

end
-- ==== Proof.KernelIdeal.Launch.lean ====
/-
  The launch of the one region: from each device's body obligation to the run of the whole mesh.

  The collective's ghost state is funded for all 32 devices at once: every device's 65 cells (its entry cell, 32 send
  cells, 32 receive cells) get their invariants under one update, and every duty's token goes to the device that
  pays it. What the peers owe a device at launch comes to it as credit: 31 units on its entry cell and one row's
  credit on each of its 31 receive cells in use.
-/
import proofs.«901006_g7700000000001007_dist_rmsnorm_colshard_i_m512_n256_v7x_i32_bf16_1_alg».proof.Proof.KernelIdeal.Data
import proofs.«901006_g7700000000001007_dist_rmsnorm_colshard_i_m512_n256_v7x_i32_bf16_1_alg».proof.Proof.Gen.KernelIdeal.Launch
import proofs.«901006_g7700000000001007_dist_rmsnorm_colshard_i_m512_n256_v7x_i32_bf16_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout's side conditions -/

/-- The 64 semaphores of the kernel's own are scoped, pairwise distinct, and none stages a window. -/
theorem ownSemFacts : Pipeline.OwnSemFacts cfg0.spec osem where
  isScoped := by decide +kernel
  inj := fun i j h => by
    have h1 : 3 + i.val = 3 + j.val := congrArg Fin.val (SemLoc.dma.inj h)
    exact Fin.ext (by omega)
  disj := by decide +kernel

theorem share_eq (c : Dev nD) (w : Fin cfg0.W) : (dats (F := F) m ρ 0 c).share w = fullShare :=
  Pipeline.Dat.share_full _ (fun _ => rfl) w

/-! ## The cells of the collective, and the tokens of its duties -/

/-- A cell's place among a device's 65, read back off the semaphore: the left inverse of `csem`. -/
def cidx : SemLoc sig → ℕ
  | .reg _ => 0
  | .dma q => q.val - 2

theorem cidx_reg (s : Sem sig) : cidx (.reg s) = 0 := rfl
theorem cidx_snd (k : Fin 32) : cidx (.dma (sendQ k)) = 1 + k.val := by
  show 3 + k.val - 2 = 1 + k.val; omega
theorem cidx_rcv (s : Dev nD) : cidx (.dma (recvQ s)) = 33 + s.val := by
  show 35 + s.val - 2 = 33 + s.val; omega

theorem cidx_csem (i : Fin 65) : cidx (csem i) = i.val := by
  have hi := i.isLt
  unfold csem
  by_cases h0 : i.val = 0
  · rw [if_pos h0, cidx_reg]; exact h0.symm
  · rw [if_neg h0]
    by_cases h1 : i.val < 33
    · rw [if_pos h1, cidx_snd]; show 1 + (i.val - 1) % 32 = i.val; omega
    · rw [if_neg h1, cidx_rcv]; show 33 + (i.val - 33) % 32 = i.val; omega

theorem kcell_injective : Function.Injective (kcell : Dev nD × Fin 65 → GSem nD τ sig) := by
  rintro ⟨c, k⟩ ⟨c', k'⟩ h
  have h1 : c = c' := congrArg (fun g : GSem nD τ sig => g.1.1) h
  have h2 : csem k = csem k' := congrArg Prod.snd h
  have h3 : k = k' := Fin.ext ((cidx_csem k).symm.trans ((congrArg cidx h2).trans (cidx_csem k')))
  rw [h1, h3]

def ringCells : Finset (GSem nD τ sig) := Finset.univ.map ⟨kcell, kcell_injective⟩

/-- The token of each duty, indexed by the device that PAYS it, the distance `1 + r` of the peer concerned, and the
    kind: the peer's entry duty, the payer's own send duty, the peer's receive duty for the payer's row. -/
def tokOf (x : Dev nD × Fin 31 × Fin 3) : GSem nD τ sig × ℕ × Dev nD :=
  if x.2.2.val = 0 then (barCell (pk x.1 (1 + x.2.1.val)), 0, x.1)
  else if x.2.2.val = 1 then (sndCell x.1 (fk (1 + x.2.1.val)), 0, x.1)
  else (rcvCell (pk x.1 (1 + x.2.1.val)) x.1, 0, x.1)

theorem tokOf_zero (c : Dev nD) (r : Fin 31) : tokOf (c, r, 0) = (barCell (pk c (1 + r.val)), 0, c) := rfl
theorem tokOf_one (c : Dev nD) (r : Fin 31) : tokOf (c, r, 1) = (sndCell c (fk (1 + r.val)), 0, c) := rfl
theorem tokOf_two (c : Dev nD) (r : Fin 31) : tokOf (c, r, 2) = (rcvCell (pk c (1 + r.val)) c, 0, c) := rfl

/-- What tells a token's index: the payer, the place of its cell among a device's 65, and the cell's device. -/
theorem tokOf_key (c : Dev nD) (r : Fin 31) (k : Fin 3) :
    (tokOf (c, r, k)).2.2 = c ∧
      ((k = 0 ∧ cidx (tokOf (c, r, k)).1.2 = 0 ∧ (tokOf (c, r, k)).1.1.1 = pk c (1 + r.val))
        ∨ (k = 1 ∧ cidx (tokOf (c, r, k)).1.2 = 2 + r.val)
        ∨ (k = 2 ∧ cidx (tokOf (c, r, k)).1.2 = 33 + c.val ∧ (tokOf (c, r, k)).1.1.1 = pk c (1 + r.val))) := by
  have hr := r.isLt
  have hk : k = 0 ∨ k = 1 ∨ k = 2 := by revert k; decide
  rcases hk with rfl | rfl | rfl
  · rw [tokOf_zero]; exact ⟨rfl, Or.inl ⟨rfl, rfl, rfl⟩⟩
  · rw [tokOf_one]
    refine ⟨rfl, Or.inr (Or.inl ⟨rfl, ?_⟩)⟩
    show cidx (.dma (sendQ (fk (1 + r.val)))) = 2 + r.val
    rw [cidx_snd, fk_val (1 + r.val) (by omega)]; omega
  · rw [tokOf_two]
    exact ⟨rfl, Or.inr (Or.inr ⟨rfl, cidx_rcv c, rfl⟩)⟩

theorem tokOf_injective : Function.Injective (tokOf : Dev nD × Fin 31 × Fin 3 → GSem nD τ sig × ℕ × Dev nD) := by
  rintro ⟨c, r, k⟩ ⟨c', r', k'⟩ h
  obtain ⟨hc, hk⟩ := tokOf_key c r k
  obtain ⟨hc', hk'⟩ := tokOf_key c' r' k'
  have e : c = c' := hc.symm.trans ((congrArg (fun x : GSem nD τ sig × ℕ × Dev nD => x.2.2) h).trans hc')
  subst e
  rw [h] at hk
  have hr := r.isLt; have hr' := r'.isLt; have hcl := c.isLt
  have hinj : ∀ {a b : Fin 31}, pk c (1 + a.val) = pk c (1 + b.val) → a = b := fun {a b} hp =>
    Fin.ext (by have := pk_inj c (by have := a.isLt; omega) (by have := b.isLt; omega) hp; omega)
  rcases hk with ⟨rfl, h0, hd⟩ | ⟨rfl, h1⟩ | ⟨rfl, h2, hd⟩ <;> rcases hk' with ⟨rfl, h0', hd'⟩ | ⟨rfl, h1'⟩ | ⟨rfl, h2', hd'⟩
  · rw [hinj (hd.symm.trans hd')]
  · omega
  · omega
  · omega
  · rw [show r = r' from Fin.ext (by omega)]
  · omega
  · omega
  · omega
  · rw [hinj (hd.symm.trans hd')]

def ringToks : Finset (GSem nD τ sig × ℕ × Dev nD) := Finset.univ.map ⟨tokOf, tokOf_injective⟩

/-- The launch element: the pipeline's staging cells, and the collective's cells and duty tokens. -/
def u₀ : UU :=
  (initOf (Pipeline.cells cfgs cellOf_inj) (Pipeline.launchToks cfgs cellOf_inj), initOf ringCells ringToks)

/-! ## What the launch element deals each device -/

/-- The tokens device `c` pays with, as minted: per distance, the three kinds. -/
def toks (c : Dev nD) : sProp 𝕄 :=
  bigSep Finset.univ fun r : Fin 31 => bigSep Finset.univ fun k : Fin 3 =>
    dutyTok ER (tokOf (c, r, k)).1 (tokOf (c, r, k)).2.1 (tokOf (c, r, k)).2.2

/-- What the launch element deals device `c` (the launch theorem's `G`): its own 65 cells' round states, its positions
    on them, that their round 0 is reached, and the tokens of the duties it pays. -/
def G (c : Dev nD) : sProp 𝕄 :=
  iprop((bigSep Finset.univ fun k : Fin 65 => roundState ER (ringRd m) (kcell (c, k)) 0)
    ∗ (bigSep Finset.univ fun k : Fin 65 => iprop(atPos ER (kcell (c, k)) 0 ∅ 0 ∗ reached ER (kcell (c, k)) 0)) ∗ toks (F := F) c)

/-- What the global step makes of it (`G'`). -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 65 => Φ (kcell (c, k)) := by
    unfold ringCells; rw [bigSep_map, bigSep_univ_prod] <;> rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_prod] <;> rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's 65 cells laid out: its entry cell, its 32 send cells, its 32 receive cells -/

/-- A family over `Fin (a + b)` is the family over the first `a` numbers and the family over the last `b`. -/
theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) :=
  (bigSep_univ_equiv (finSumFinEquiv (m := a) (n := b)) Φ).trans (bigSep_univ_sum _)

theorem ix_snd (k : Fin 32) : (Fin.natAdd 1 (Fin.castAdd 32 k : Fin 64) : Fin 65) = sIx k := Fin.ext rfl
theorem ix_rcv (s : Dev nD) : (Fin.natAdd 1 (Fin.natAdd 32 s : Fin 64) : Fin 65) = rIx s :=
  Fin.ext (by show 1 + (32 + s.val) = 33 + s.val; omega)

theorem cells_layout (c : Dev nD) (Φ : GSem nD τ sig → sProp 𝕄) :
    bigSep Finset.univ (fun k : Fin 65 => Φ (kcell (c, k)))
      = iprop(Φ (barCell c) ∗ (bigSep Finset.univ fun k : Fin 32 => Φ (sndCell c k)) ∗ bigSep Finset.univ fun s : Dev nD => Φ (rcvCell c s)) := by
  have e1 : bigSep Finset.univ (fun k : Fin 65 => Φ (kcell (c, k)))
      = iprop((bigSep Finset.univ fun i : Fin 1 => Φ (kcell (c, (Fin.castAdd 64 i : Fin 65))))
          ∗ bigSep Finset.univ fun j : Fin 64 => Φ (kcell (c, (Fin.natAdd 1 j : Fin 65)))) :=
    bigSep_fin_add 1 64 (fun k : Fin 65 => Φ (kcell (c, k)))
  have e2 : (bigSep Finset.univ fun j : Fin 64 => Φ (kcell (c, (Fin.natAdd 1 j : Fin 65))))
      = iprop((bigSep Finset.univ fun k : Fin 32 => Φ (kcell (c, (Fin.natAdd 1 (Fin.castAdd 32 k : Fin 64) : Fin 65))))
          ∗ bigSep Finset.univ fun s : Fin 32 => Φ (kcell (c, (Fin.natAdd 1 (Fin.natAdd 32 s : Fin 64) : Fin 65)))) :=
    bigSep_fin_add 32 32 (fun j : Fin 64 => Φ (kcell (c, (Fin.natAdd 1 j : Fin 65))))
  have h0 : (bigSep Finset.univ fun i : Fin 1 => Φ (kcell (c, (Fin.castAdd 64 i : Fin 65)))) = Φ (barCell c) :=
    (bigSep_univ_of_subsingleton (0 : Fin 1)).trans (congrArg Φ (kcell_bar c))
  have hS : (bigSep Finset.univ fun k : Fin 32 => Φ (kcell (c, (Fin.natAdd 1 (Fin.castAdd 32 k : Fin 64) : Fin 65))))
      = bigSep Finset.univ fun k : Fin 32 => Φ (sndCell c k) :=
    bigSep_congr fun k _ => congrArg Φ ((congrArg (fun i : Fin 65 => kcell (c, i)) (ix_snd k)).trans (kcell_snd c k))
  have hR : (bigSep Finset.univ fun s : Fin 32 => Φ (kcell (c, (Fin.natAdd 1 (Fin.natAdd 32 s : Fin 64) : Fin 65))))
      = bigSep Finset.univ fun s : Dev nD => Φ (rcvCell c s) :=
    bigSep_congr fun s _ => congrArg Φ ((congrArg (fun i : Fin 65 => kcell (c, i)) (ix_rcv s)).trans (kcell_rcv c s))
  rw [e1, e2, h0, hS, hR]

/-! ## The semaphores at zero -/

/-- The kernel's own 64 semaphores are the 32 send and the 32 receive cells; -/
theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 32 => semVal (sndCell c k) 0) ∗ bigSep Finset.univ fun s : Dev nD => semVal (rcvCell c s) 0) := by
  unfold Pipeline.ownSems0
  have e := bigSep_fin_add 32 32 (fun i : Fin 64 => (semVal ((c : Thread nD τ), osem i) 0 : sProp 𝕄))
  have hS : (bigSep Finset.univ fun k : Fin 32 => (semVal ((c : Thread nD τ), osem (Fin.castAdd 32 k : Fin 64)) 0 : sProp 𝕄))
      = bigSep Finset.univ fun k : Fin 32 => semVal (sndCell c k) 0 := rfl
  have hR : (bigSep Finset.univ fun s : Fin 32 => (semVal ((c : Thread nD τ), osem (Fin.natAdd 32 s : Fin 64)) 0 : sProp 𝕄))
      = bigSep Finset.univ fun s : Dev nD => semVal (rcvCell c s) 0 :=
    bigSep_congr fun s _ => by
      have hs : osem (Fin.natAdd 32 s : Fin 64) = .dma (recvQ s) :=
        congrArg SemLoc.dma (Fin.ext (by show 3 + (32 + s.val) = 35 + s.val; omega))
      rw [hs]
  exact e.trans (by rw [hS, hR])

/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)] <;> rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [ownSems0_eq, unscopedSems0_eq, cells_layout c (fun g => (semVal g 0 : sProp 𝕄))]
  iintro ⟨⟨HS, HV⟩, HB⟩
  isplitl [HB]; · iexact HB
  isplitl [HS] <;> iassumption

/-- Every cell of device `c` gets its invariant: its counter at zero and its round state at zero are the invariant's body. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 65 => iprop(∃ κ : ℕ, cellInv ER (ringRd m) κ (kcell (c, k))))
          ∗ (bigSep Finset.univ fun k : Fin 65 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (ringRd m) (kcell (c, k)) 0)
      ⊢ (|={Set.univ}=> bigSep Finset.univ fun k : Fin 65 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: names for the invariants, and everything laid out as the proof data spells it -/

/-- A family over the 32 send semaphores: the unused one at 0 apart, the others by the distance they serve. -/
theorem bigSep_fin32 (Ψ : Fin 32 → sProp 𝕄) :
    bigSep Finset.univ Ψ = iprop(Ψ 0 ∗ bigSep (Finset.Ico 1 32) fun j => Ψ (fk j)) := by
  have e1 := Ring.bigSep_fin_eq_range 32 Ψ (fun t => Ψ (fk t)) (fun t h => congrArg Ψ (fk_eq t h))
  have e2 := Ring.bigSep_Ico_succ (by decide : 0 < 32) (fun t => Ψ (fk t))
  rw [Finset.range_eq_Ico] at e1
  exact e1.trans e2

theorem range_shift : (Finset.range 31).image (fun t => 1 + t) = Finset.Ico 1 32 := by
  ext x
  simp only [Finset.mem_image, Finset.mem_range, Finset.mem_Ico]
  constructor
  · rintro ⟨t, ht, rfl⟩; omega
  · intro h; exact ⟨x - 1, by omega, by omega⟩

/-- A family over the 31 distances, numbered from 0, is the run over the distances 1 … 31. -/
theorem bigSep_fin31 (A : ℕ → sProp 𝕄) : bigSep Finset.univ (fun r : Fin 31 => A (1 + r.val)) = bigSep (Finset.Ico 1 32) A := by
  have e1 := Ring.bigSep_fin_eq_range 31 (fun r : Fin 31 => A (1 + r.val)) (fun t => A (1 + t)) (fun t h => rfl)
  have e2 := bigSep_image_of_injOn (f := fun t : ℕ => 1 + t) (s := Finset.range 31)
    (fun a _ b _ h => by have h' : 1 + a = 1 + b := h; omega) A
  rw [range_shift] at e2
  exact e1.trans e2.symm

/-- The tokens a device was dealt are, per distance, the three it pays with. -/
theorem toks_eq (c : Dev nD) : toks (F := F) c = bigSep (Finset.Ico 1 32) (fun j => payTok (F := F) c j) := by
  unfold toks
  rw [← bigSep_fin31 (fun j => payTok (F := F) c j)]
  exact bigSep_congr fun r _ => (bigSep_W0 _).trans rfl

/-- What stays with device `c` besides the invariants' names: its positions and the tokens it pays with. -/
def linear (c : Dev nD) : sProp 𝕄 :=
  iprop((bigSep Finset.univ fun k : Fin 65 => atPos ER (kcell (c, k)) 0 ∅ 0) ∗ toks (F := F) c)

theorem ghost_intro (K : Dev nD × Fin 65 → ℕ) (c : Dev nD) : iprop(records m K ∗ linear (F := F) c) ⊢ G' m c := by
  unfold linear G' ghost
  rw [cells_layout c (fun g => (atPos ER g 0 ∅ 0 : sProp 𝕄)), bigSep_fin32 (fun k => (atPos ER (sndCell c k) 0 ∅ 0 : sProp 𝕄)),
    bigSep_univ_at (fun s : Dev nD => (atPos ER (rcvCell c s) 0 ∅ 0 : sProp 𝕄)) c,
    bigSep_peers c (fun s => (atPos ER (rcvCell c s) 0 ∅ 0 : sProp 𝕄)), toks_eq]
  iintro ⟨#HR, ⟨HaB, ⟨HaS0, HaS⟩, HaR0, HaR⟩, Htok⟩
  iexists K
  isplitr; · iexact HR
  isplitl [HaB]; · iexact HaB
  isplitl [HaS]; · iexact HaS
  isplitl [HaR]; · iexact HaR
  isplitl [HaS0]; · iexact HaS0
  isplitl [HaR0]; · iexact HaR0
  iexact Htok

theorem regroup :
    (bigSep Finset.univ fun c : Dev nD => iprop((bigSep Finset.univ fun k : Fin 65 => iprop(∃ κ : ℕ, cellInv ER (ringRd m) κ (kcell (c, k))))
          ∗ (bigSep Finset.univ fun k : Fin 65 => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 65 => iprop(∃ κ : ℕ, cellInv ER (ringRd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 65 => (atPos ER (kcell (c, k)) 0 ∅ 0 : sProp 𝕄))
        (fun c => toks (F := F) c)).symm).trans
      (bigSep_mono fun c _ => show _ ⊢ linear (F := F) c from Entails.of_eq (by unfold linear; rfl)))
    isplitl [Hat]; · iexact Hat
    iexact Htok

/-- The global step (`hglob`): the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes, at launch, one unit to the entry cell of every peer and one row's credit to the receive cell for its
row on every peer. Summed over the devices, device `c`'s entry cell is owed 31 units and its receive cell for a
peer's row that row's credit. -/

theorem Osend_sum (d : Dev nD) : ∀ n, n ≤ 31 →
    Osend d n = ∑ i ∈ Finset.Ico (32 - n) 32, (tallyAt (rcvCell (pk d i) d) () N : CellTallies nD τ sig Unit)
  | 0, _ => by
    show (0 : CellTallies nD τ sig Unit) = _
    rw [show 32 - 0 = 32 from rfl, Finset.Ico_self, Finset.sum_empty]
  | n + 1, h => by
    rw [show 32 - (n + 1) = 31 - n by omega, Ring.sum_Ico_succ (by omega : 31 - n < 32), show 31 - n + 1 = 32 - n by omega,
      ← Osend_sum d n (by omega)]
    show Osend d n + tallyAt (rcvCell (pk d (31 - n)) d) () N = _
    exact add_comm _ _

theorem Osig_sum (d : Dev nD) : ∀ n, n ≤ 31 →
    Osig d n = Osend d 31 + ∑ i ∈ Finset.Ico (32 - n) 32, (tallyAt (barCell (pk d i)) () 1 : CellTallies nD τ sig Unit)
  | 0, _ => by
    show Osend d 31 = _
    rw [show 32 - 0 = 32 from rfl, Finset.Ico_self, Finset.sum_empty, add_zero]
  | n + 1, h => by
    rw [show 32 - (n + 1) = 31 - n by omega, Ring.sum_Ico_succ (by omega : 31 - n < 32), show 31 - n + 1 = 32 - n by omega]
    show Osig d n + tallyAt (barCell (pk d (31 - n))) () 1 = _
    rw [Osig_sum d n (by omega), add_assoc,
      add_comm (∑ i ∈ Finset.Ico (32 - n) 32, (tallyAt (barCell (pk d i)) () 1 : CellTallies nD τ sig Unit))]

theorem Osend31 (d : Dev nD) :
    Osend d 31 = ∑ i ∈ Finset.Ico 1 32, (tallyAt (rcvCell (pk d i) d) () N : CellTallies nD τ sig Unit) := Osend_sum d 31 le_rfl
theorem O₀_sum (d : Dev nD) :
    O₀ d = Osend d 31 + ∑ i ∈ Finset.Ico 1 32, (tallyAt (barCell (pk d i)) () 1 : CellTallies nD τ sig Unit) := Osig_sum d 31 le_rfl

/-- A sum of one-cell tallies over a run of numbers, read at a cell. -/
theorem sum_tally_apply (S : Finset ℕ) (cell : ℕ → GSem nD τ sig) (k : ℕ) (g : GSem nD τ sig) :
    (∑ i ∈ S, (tallyAt (cell i) () k : CellTallies nD τ sig Unit)) g () = ∑ i ∈ S, if g = cell i then k else 0 := by
  rw [Finset.sum_apply, Finsupp.finsetSum_apply]
  exact Finset.sum_congr rfl fun i _ => by rw [tallyAt_apply]; exact if_congr (and_iff_left rfl) rfl rfl

theorem O₀_apply (d : Dev nD) (g : GSem nD τ sig) :
    O₀ d g () = (∑ i ∈ Finset.Ico 1 32, if g = rcvCell (pk d i) d then N else 0) + ∑ i ∈ Finset.Ico 1 32, if g = barCell (pk d i) then 1 else 0 := by
  rw [O₀_sum, Osend31, Pi.add_apply, Finsupp.add_apply,
    sum_tally_apply (Finset.Ico 1 32) (fun i => rcvCell (pk d i) d) N g, sum_tally_apply (Finset.Ico 1 32) (fun i => barCell (pk d i)) 1 g]

theorem bar_ne_rcv (c p s : Dev nD) : barCell c ≠ rcvCell p s := fun h => rcv_ne_bar s (congrArg Prod.snd h).symm
theorem rcv_ne_bar' (c s p : Dev nD) : rcvCell c s ≠ barCell p := fun h => rcv_ne_bar s (congrArg Prod.snd h)
theorem bar_inj {a b : Dev nD} (h : barCell a = barCell b) : a = b := congrArg (fun g : GSem nD τ sig => g.1.1) h
theorem rcv_inj {a b s t : Dev nD} (h : rcvCell a s = rcvCell b t) : a = b ∧ s = t :=
  ⟨congrArg (fun g : GSem nD τ sig => g.1.1) h, by
    have h2 : (SemLoc.dma (recvQ s) : SemLoc sig) = .dma (recvQ t) := congrArg Prod.snd h
    have h3 : 35 + s.val = 35 + t.val := congrArg Fin.val (SemLoc.dma.inj h2)
    exact Fin.ext (by omega)⟩

/-- Device `d` owes device `c`'s entry cell one unit, unless it is `c` itself. -/
theorem owed_bar (d c : Dev nD) : O₀ d (barCell c) () = if d = c then 0 else 1 := by
  have hz : (∑ i ∈ Finset.Ico 1 32, if barCell c = rcvCell (pk d i) d then N else 0) = 0 :=
    Finset.sum_eq_zero fun i _ => if_neg (bar_ne_rcv c _ _)
  rw [O₀_apply, hz, Nat.zero_add]
  by_cases h : d = c
  · subst h
    rw [if_pos rfl]
    exact Finset.sum_eq_zero fun i hi => if_neg fun e => by
      have := Finset.mem_Ico.mp hi
      exact pk_ne d i this.1 (by omega) (bar_inj e).symm
  · rw [if_neg h]
    obtain ⟨j, h1, h2, hj⟩ := exists_pk d c (fun e => h e.symm)
    exact (Finset.sum_eq_single_of_mem j (Finset.mem_Ico.mpr ⟨h1, by omega⟩) (fun i hi hne => if_neg fun e => hne (by
      have := Finset.mem_Ico.mp hi
      exact pk_inj d (by omega) (by omega) ((bar_inj e).symm.trans hj.symm)))).trans (if_pos (by rw [hj]))

/-- Device `d` owes device `c`'s receive cell for a peer `s`'s row that row's credit when it is `s`, else nothing. -/
theorem owed_rcv (d c s : Dev nD) (hs : s ≠ c) : O₀ d (rcvCell c s) () = if d = s then N else 0 := by
  have hz : (∑ i ∈ Finset.Ico 1 32, if rcvCell c s = barCell (pk d i) then 1 else 0) = 0 :=
    Finset.sum_eq_zero fun i _ => if_neg (rcv_ne_bar' c s _)
  rw [O₀_apply, hz, Nat.add_zero]
  by_cases h : d = s
  · subst h
    rw [if_pos rfl]
    obtain ⟨j, h1, h2, hj⟩ := exists_pk d c (fun e => hs e.symm)
    exact (Finset.sum_eq_single_of_mem j (Finset.mem_Ico.mpr ⟨h1, by omega⟩) (fun i hi hne => if_neg fun e => hne (by
      have := Finset.mem_Ico.mp hi
      exact pk_inj d (by omega) (by omega) ((rcv_inj e).1.symm.trans hj.symm)))).trans (if_pos (by rw [hj]))
  · rw [if_neg h]
    exact Finset.sum_eq_zero fun i _ => if_neg fun e => h (rcv_inj e).2.symm

theorem sum_others : ∀ c : Dev nD, (∑ d : Dev nD, if d = c then 0 else 1) = 31 := by decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_rcv (c s : Dev nD) (hs : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s hs,
    Finset.sum_ite_eq' Finset.univ s fun _ => N, if_pos (Finset.mem_univ _)]

theorem rcv_sems_sub (c : Dev nD) :
    (Finset.Ico 1 32).image (fun j => (SemLoc.dma (recvQ (pk c j)) : SemLoc sig)) ⊆ Finset.univ.erase (SemLoc.reg barS) := fun sm h => by
  obtain ⟨j, -, rfl⟩ := Finset.mem_image.mp h
  exact Finset.mem_erase.mpr ⟨rcv_ne_bar _, Finset.mem_univ _⟩

theorem rcv_sems_inj (c : Dev nD) :
    Set.InjOn (fun j => (SemLoc.dma (recvQ (pk c j)) : SemLoc sig)) (Finset.Ico 1 32 : Finset ℕ) := fun i hi j hj h => by
  have hi' := Finset.mem_Ico.mp (Finset.mem_coe.mp hi)
  have hj' := Finset.mem_Ico.mp (Finset.mem_coe.mp hj)
  have h2 : (SemLoc.dma (recvQ (pk c i)) : SemLoc sig) = .dma (recvQ (pk c j)) := h
  have h3 : 35 + (pk c i).val = 35 + (pk c j).val := congrArg Fin.val (SemLoc.dma.inj h2)
  exact pk_inj c (by omega) (by omega) (Fin.ext (by omega))

/-- Of a family over a device's semaphores other than the entry one, the members at the receive semaphores of its 31 peers. -/
theorem rest_to_run (c : Dev nD) (Ψ : SemLoc sig → sProp 𝕄) (s : Finset (SemLoc sig)) (hs : s = Finset.univ.erase (SemLoc.reg barS)) :
    bigSep s Ψ ⊢ bigSep (Finset.Ico 1 32) fun j => Ψ (.dma (recvQ (pk c j))) :=
  (bigSep_subset (hs ▸ rcv_sems_sub c)).trans (Entails.of_eq (bigSep_image_of_injOn (rcv_sems_inj c) Ψ))

/-- One receive cell's launch credit is the row's credit. -/
theorem cred_rcv (c : Dev nD) (j : ℕ) (h1 : 1 ≤ j) (h2 : j ≤ 31) :
    (cred (tallyOn (rcvCell c (pk c j)) (launchCredit (Pipeline.owing O₀) 0 (rcvCell c (pk c j)))) : sProp 𝕄)
      ⊢ cred (tallyAt (rcvCell c (pk c j)) () N) :=
  Entails.of_eq (congrArg cred (launch_rcv c (pk c j) (pk_ne c j h1 h2)))

/-- The credit the launch deals device `c`: its entry cell's 31 units and, per peer, that peer's row's credit. -/
theorem creds (c : Dev nD) :
    (Pipeline.launchCred O₀ c : sProp 𝕄)
      ⊢ iprop(cred (tallyAt (barCell c) () 31) ∗ bigSep (Finset.Ico 1 32) fun j => cred (tallyAt (rcvCell c (pk c j)) () N)) := by
  unfold Pipeline.launchCred
  rw [bigSep_univ_at _ (SemLoc.reg barS), launch_bar]
  refine sep_mono_right ((rest_to_run c _ _ rfl).trans (bigSep_mono fun j hj => ?_))
  have hj' := Finset.mem_Ico.mp hj
  exact cred_rcv c j hj'.1 (by omega)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m c from rfl, scopedRest0_eq]
  unfold Φ₀
  iintro ⟨Hs, -, ⟨%f, Hr⟩⟩
  isplitl [Hs]; · iexact Hs
  iexists f; iexact Hr

/-- At the end the 64 own cells stand closed at zero: the 31 send and the 31 receive cells the body waited on, and the
    two it never used. -/
theorem phi1_exit (c : Dev nD) :
    (dats (F := F) m ρ 0 c).Φ (Fin.last cfg0.N) ⊢ iprop(emp ∗ Pipeline.ownSems0 osem c ∗ Pipeline.scopedRest cfg0.spec c) := by
  rw [show (dats (F := F) m ρ 0 c).Φ (Fin.last cfg0.N) = Φ₁ (F := F) c from rfl, scopedRest0_eq, ownSems0_eq,
    bigSep_fin32 (fun k => (semVal (sndCell c k) 0 : sProp 𝕄)), bigSep_univ_at (fun s : Dev nD => (semVal (rcvCell c s) 0 : sProp 𝕄)) c,
    bigSep_peers c (fun s => (semVal (rcvCell c s) 0 : sProp 𝕄))]
  unfold Φ₁
  iintro ⟨Hr, HS0, HR0, HS, HR⟩
  isplitr; · iempintro
  isplitl [HS0 HS HR0 HR]
  · isplitl [HS0 HS]
    · isplitl [HS0] <;> iassumption
    · isplitl [HR0] <;> iassumption
  iexact Hr

/-- The pipeline's own waits are on the three staging cells, below everything a device may owe. -/
theorem waits (c : Dev nD) : (levAts L lv : sProp 𝕄) ⊢ Pipeline.cellsWaits cfgs (dats (F := F) m ρ) () 0 c :=
  Pipeline.cellsWaits_intro cfgs (dats (F := F) m ρ) () 0 c fun w s t =>
    mayWait_low c _ (by fin_cases w <;> fin_cases s <;> decide) _ (by
      rcases t with ⟨_ | _, ht⟩
      · exact Or.inl rfl
      · exact Or.inr rfl)

/-! ## The arrays at the end -/

theorem final_in0 (c : Dev nD) :
    (dats (F := F) m ρ 0 c).arrAt (0 : Fin cfg0.W) cfg0.N = m ((c : Thread nD τ).loc main_arg0) :=
  (dats (F := F) m ρ 0 c).arrAt_in (0 : Fin cfg0.W) rfl _

theorem final_in1 (c : Dev nD) :
    (dats (F := F) m ρ 0 c).arrAt (1 : Fin cfg0.W) cfg0.N = m ((c : Thread nD τ).loc main_arg1) :=
  (dats (F := F) m ρ 0 c).arrAt_in (1 : Fin cfg0.W) rfl _

/-- The result array is written once, whole, by the write-back of the one point: it ends as what the body left staged. -/
theorem final_out (c : Dev nD) : (dats (F := F) m ρ 0 c).arrAt (2 : Fin cfg0.W) cfg0.N = outAt m c := by
  have e : (dats (F := F) m ρ 0 c).arrAt (2 : Fin cfg0.W) cfg0.N
      = (dats (F := F) m ρ 0 c).arrAt (2 : Fin cfg0.W) ((t₀ : Fin cfg0.N).val + 1) :=
    congrArg ((dats (F := F) m ρ 0 c).arrAt (2 : Fin cfg0.W)) cfg0_N
  rw [e, (dats (F := F) m ρ 0 c).arrAt_succ (2 : Fin cfg0.W) t₀, flush0_2 t₀, if_pos rfl]
  exact Memref.write_access_unit_zero_univ (Elt F) main_v1 (off := fun a => (cfg0.win 2).index t₀ a * (cfg0.win 2).size a)
    (funext fun a => Nat.zero_mul _) _ _ _

/-! ## The run -/

set_option maxRecDepth 8000 in
/-- At the compiled mesh of 32 devices, for any float values, from any memory with zero counters: if every device's body
    meets its obligation, every weakly fair execution of @main terminates, and every final state has each device's
    result block at `outAt` and its two argument blocks as they were. -/
theorem run_of_body (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats (F := F) m ρ) () cellOf_inj (0 : Fin 1)
    winFacts0.to₀ ownSemFacts (Pipeline.PreFacts.none _) EP defs₀ 𝒱₀ m ρ main
    (hmain := fun _ => rfl)
    (hbody := fun c => Pipeline.BodyObligation.loose (h := hbody c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin cfg0.W)).trans (final_out m ρ c), ((h c).1 (0 : Fin cfg0.W)).trans (final_in0 m ρ c),
      ((h c).1 (1 : Fin cfg0.W)).trans (final_in1 m ρ c)⟩)

/-- info: 'Cert.KernelIdeal.Hand.run_of_body' depends on axioms: [propext, Classical.choice, Quot.sound] -/
#guard_msgs in #print axioms run_of_body

end Cert.KernelIdeal.Hand

end
-- ==== Proof.KernelIdeal.Run.lean ====
/-
  The run of the whole mesh: from any memory with every semaphore at zero, every fair interleaving of the 32
  devices' kernels terminates, each device's result block is `outAt` of all devices' argument blocks, and the
  arguments are left as they were.
-/
import proofs.«901006_g7700000000001007_dist_rmsnorm_colshard_i_m512_n256_v7x_i32_bf16_1_alg».proof.Proof.KernelIdeal.Body
import proofs.«901006_g7700000000001007_dist_rmsnorm_colshard_i_m512_n256_v7x_i32_bf16_1_alg».proof.Proof.KernelIdeal.Launch

noncomputable section

namespace Cert.KernelIdeal.Hand

open Cert.KernelIdeal Cert.KernelIdeal.Gen

open Idealize.ShloMosaic
open Idealize.ShloMosaic.TcCoe
open Idealize.SL Idealize.SL.Sem

variable {F : FTy → Type} [FloatOps F]

theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_body m ρ (body_obligation m ρ)

/-- info: 'Cert.KernelIdeal.Hand.run_main' depends on axioms: [propext, Classical.choice, Quot.sound] -/
#guard_msgs in #print axioms run_main

end Cert.KernelIdeal.Hand

end
-- ==== Proof.ValueSpec.lean ====
/-
  Row-wise RMS normalisation as ONE function of the whole arrays, and the law that joins its two arrangements.

  For `x : 512 × 8192` and `gamma : 8192` the result at `(r, J)` is
      (gamma[J] · x[r, J]) / √((∑_K x[r, K]²) / 8192 + ε).
  Cut along the columns into 32 blocks of 256 columns, column `J = 256·s + k`, the same value is
      (x[r, J] · gamma[J]) · rsqrt((∑_s ∑_k x[r, 256·s + k]²) · 2⁻¹³ + ε):
  a sum over 8192 columns is the sum over the 32 blocks of the sums inside each block (addition of extended reals
  is commutative and associative); multiplying by 2⁻¹³ is dividing by 8192; and for a sum of squares `S ≥ 0` the
  number `S / 8192 + ε` is either `+∞`, where both sides are `0`, or a positive real `v`, where
  `rsqrt v = (√v)⁻¹` and `a / √v = a · (√v)⁻¹`. No entry has to be finite for this.
-/
import Idealize.ShloMosaic.PureOps.Ideal
import Idealize.ShloMosaic.PureOps.Ideal.Laws
import Idealize.ShloMosaic.Lib.ValueIdx

noncomputable section

open scoped BigOperators

namespace Cert.KernelIdeal.HandValue

open Idealize.ShloMosaic Idealize.ShloMosaic.ValueIdx

/-! ## The three float words -/

/-- The word `0x46000000` is `8192 = 2¹³`, the number of columns. -/
theorem width_eq : Ideal.ofBits .f32 0x46000000#32 = ((8192 : ℝ) : EReal) := by
  simp [Ideal.ofBits, Ideal.ieee, -EReal.coe_mul] <;> norm_num

/-- The word `0x39000000` is `2⁻¹³ = 1 / 8192`. -/
theorem inv_width_eq : Ideal.ofBits .f32 0x39000000#32 = ((1 / 8192 : ℝ) : EReal) := by
  simp [Ideal.ofBits, Ideal.ieee, -EReal.coe_mul] <;> norm_num

/-- The word `0x3727C5AC` (the float nearest `10⁻⁵`) is `10995116 · 2⁻⁴⁰`, a positive real. -/
theorem eps_eq : Ideal.ofBits .f32 0x3727C5AC#32 = ((10995116 / 1099511627776 : ℝ) : EReal) := by
  simp [Ideal.ofBits, Ideal.ieee, -EReal.coe_mul] <;> norm_num

/-! ## Columns by blocks -/

/-- Column `k` of block `s`, as a column of the whole array: `256·s + k`. -/
def col (s : Fin 32) (k : Fin 256) : Fin 8192 :=
  ⟨s.val * 256 + k.val, by have := s.isLt; have := k.isLt; omega⟩

theorem col_val (s : Fin 32) (k : Fin 256) : (col s k).val = s.val * 256 + k.val := rfl

/-- Every column is column `J % 256` of block `J / 256`, and of no other. -/
def colEquiv : Fin 32 × Fin 256 ≃ Fin 8192 where
  toFun p := col p.1 p.2
  invFun K := (⟨K.val / 256, by have := K.isLt; omega⟩, ⟨K.val % 256, by omega⟩)
  left_inv p := by
    obtain ⟨s, k⟩ := p
    have hs := s.isLt
    have hk := k.isLt
    refine Prod.ext (Fin.ext ?_) (Fin.ext ?_)
    · show (s.val * 256 + k.val) / 256 = s.val
      omega
    · show (s.val * 256 + k.val) % 256 = k.val
      omega
  right_inv K := Fin.ext (by
    show K.val / 256 * 256 + K.val % 256 = K.val
    omega)

/-- A sum over the 8192 columns is the sum over the 32 blocks of the sums over each block's 256 columns. -/
theorem sum_blocks {M : Type*} [AddCommMonoid M] (f : Fin 8192 → M) :
    ∑ K : Fin 8192, f K = ∑ s : Fin 32, ∑ k : Fin 256, f (col s k) := by
  rw [← Equiv.sum_comp colEquiv f, Fintype.sum_prod_type]
  rfl

/-! ## The result as one function of the whole arrays -/

/-- The normalised entry at row `r`, column `J`: `gamma[J] · x[r, J]` over the root of the row's mean square plus `ε`. -/
def normAt (x : (⟨2, ![512, 8192]⟩ : Shape).Idx → EReal) (g : (⟨1, ![8192]⟩ : Shape).Idx → EReal)
    (r : Fin 512) (J : Fin 8192) : EReal :=
  Ideal.div (g (ix1 J) * x (ix2 r J))
    (Ideal.sqrt (Ideal.div (∑ K : Fin 8192, x (ix2 r K) * x (ix2 r K)) (Ideal.ofBits .f32 0x46000000#32)
      + Ideal.ofBits .f32 0x3727C5AC#32))

/-- The whole result, index by index. -/
def G (x : (⟨2, ![512, 8192]⟩ : Shape).Idx → EReal) (g : (⟨1, ![8192]⟩ : Shape).Idx → EReal) :
    (⟨2, ![512, 8192]⟩ : Shape).Idx → EReal :=
  fun i => normAt x g (i 0) (i 1)

theorem G_apply (x : (⟨2, ![512, 8192]⟩ : Shape).Idx → EReal) (g : (⟨1, ![8192]⟩ : Shape).Idx → EReal)
    (r : Fin 512) (J : Fin 8192) : G x g (ix2 r J) = normAt x g r J := rfl

/-! ## The same entry from the blocks -/

/-- The sum of squares of row `r` of one 512 × 256 block. -/
def rowSq (x : (⟨2, ![512, 256]⟩ : Shape).Idx → EReal) (r : Fin 512) : EReal :=
  ∑ k : Fin 256, x (ix2 r k) * x (ix2 r k)

/-- A block's entry `(r, j)` times its `gamma` entry, scaled by the reciprocal root of `S · 2⁻¹³ + ε`. -/
def scaleAt (xc : (⟨2, ![512, 256]⟩ : Shape).Idx → EReal) (gc : (⟨1, ![256]⟩ : Shape).Idx → EReal) (S : EReal)
    (r : Fin 512) (j : Fin 256) : EReal :=
  (xc (ix2 r j) * gc (ix1 j))
    * Ideal.rsqrt (S * Ideal.ofBits .f32 0x39000000#32 + Ideal.ofBits .f32 0x3727C5AC#32)

/-- What block `c` of the result holds at `(r, j)`, from all 32 blocks `xs` of `x` and block `c` of `gamma`:
    the scale is taken from the sum over the blocks of each block's row sum of squares. -/
def kernelAt (xs : Fin 32 → (⟨2, ![512, 256]⟩ : Shape).Idx → EReal) (gc : (⟨1, ![256]⟩ : Shape).Idx → EReal)
    (c : Fin 32) (r : Fin 512) (j : Fin 256) : EReal :=
  scaleAt (xs c) gc (∑ s : Fin 32, rowSq (xs s) r) r j

/-- `kernelAt` depends on the blocks only through their values. -/
theorem kernelAt_congr {xs xs' : Fin 32 → (⟨2, ![512, 256]⟩ : Shape).Idx → EReal}
    {gc gc' : (⟨1, ![256]⟩ : Shape).Idx → EReal} (hx : ∀ s, xs s = xs' s) (hg : gc = gc')
    (c : Fin 32) (r : Fin 512) (j : Fin 256) : kernelAt xs gc c r j = kernelAt xs' gc' c r j := by
  obtain rfl : xs = xs' := funext hx
  subst hg
  rfl

/-! ## The law -/

/-- A square of an extended real is not negative (`(±∞)² = +∞`). -/
theorem ereal_mul_self_nonneg (x : EReal) : 0 ≤ x * x := by
  induction x using EReal.rec with
  | bot => rw [EReal.bot_mul_bot]; exact le_top
  | top => rw [EReal.top_mul_top]; exact le_top
  | coe t => rw [← EReal.coe_mul]; exact EReal.coe_nonneg.mpr (mul_self_nonneg t)

/-- For `S ≥ 0`: `(a · b) · rsqrt (S · 2⁻¹³ + ε) = (b · a) / √(S / 8192 + ε)`. At `S = +∞` both sides are `0`;
    at a real `S` the number under the roots is one positive real. -/
theorem norm_law (a b S : EReal) (hS : 0 ≤ S) :
    (a * b) * Ideal.rsqrt (S * Ideal.ofBits .f32 0x39000000#32 + Ideal.ofBits .f32 0x3727C5AC#32)
      = Ideal.div (b * a)
          (Ideal.sqrt (Ideal.div S (Ideal.ofBits .f32 0x46000000#32) + Ideal.ofBits .f32 0x3727C5AC#32)) := by
  rw [inv_width_eq, width_eq, eps_eq, Ideal.div_coe (by norm_num : (8192 : ℝ) ≠ 0) S]
  induction S using EReal.rec with
  | bot => exact absurd hS (not_le.mpr EReal.bot_lt_zero)
  | top =>
    rw [EReal.top_mul_coe_of_pos (by norm_num : (0 : ℝ) < 1 / 8192), EReal.top_add_coe, Ideal.rsqrt_top,
      Ideal.sqrt_top, mul_zero, Ideal.div, if_neg EReal.top_ne_zero, EReal.inv_top, mul_zero]
  | coe t =>
    have ht : 0 ≤ t := EReal.coe_nonneg.mp hS
    have hv : 0 < t * (1 / 8192) + 10995116 / 1099511627776 :=
      add_pos_of_nonneg_of_pos (mul_nonneg ht (by norm_num)) (by norm_num)
    rw [← EReal.coe_mul, ← EReal.coe_add]
    simp only [Ideal.rsqrt_coe, Ideal.sqrt_coe, if_neg (not_lt.mpr hv.le), if_neg hv.ne']
    rw [Ideal.div_coe (Real.sqrt_pos.mpr hv).ne' (b * a), mul_comm a b]
    exact congrArg (fun u : ℝ => b * a * (u : EReal)) (one_div _).symm

/-- THE LAW: the entry computed from the 32 blocks of `x` and block `c` of `gamma` is the whole result's entry at
    row `r`, column `256·c + j`. -/
theorem block_law (X : (⟨2, ![512, 8192]⟩ : Shape).Idx → EReal) (Γ : (⟨1, ![8192]⟩ : Shape).Idx → EReal)
    (c : Fin 32) (r : Fin 512) (j : Fin 256) :
    (X (ix2 r (col c j)) * Γ (ix1 (col c j)))
        * Ideal.rsqrt ((∑ s : Fin 32, ∑ k : Fin 256, X (ix2 r (col s k)) * X (ix2 r (col s k)))
            * Ideal.ofBits .f32 0x39000000#32 + Ideal.ofBits .f32 0x3727C5AC#32)
      = G X Γ (ix2 r (col c j)) := by
  have h : ∑ K : Fin 8192, X (ix2 r K) * X (ix2 r K)
      = ∑ s : Fin 32, ∑ k : Fin 256, X (ix2 r (col s k)) * X (ix2 r (col s k)) :=
    sum_blocks (fun K => X (ix2 r K) * X (ix2 r K))
  rw [G_apply, normAt, h]
  exact norm_law _ _ _ (Finset.sum_nonneg fun s _ => Finset.sum_nonneg fun k _ => ereal_mul_self_nonneg _)

/-- info: 'Cert.KernelIdeal.HandValue.block_law' depends on axioms: [propext, Classical.choice, Quot.sound] -/
#guard_msgs in #print axioms block_law

end Cert.KernelIdeal.HandValue

end
-- ==== Proof.BlockIdx.lean ====
/-
  Where a block's entries lie in the whole arrays. Block `c` of `x` (cut along the columns into 32 blocks of 256) has
  its entry `(r, k)` at `(r, 256·c + k)` of `x`; block `c` of `gamma` has its entry `k` at `256·c + k`. So what is
  computed from the blocks (`kernelAt`) is block `c` of the whole result `G`.
-/
import Idealize.ShloMosaic.Lib.Layout
import proofs.«901006_g7700000000001007_dist_rmsnorm_colshard_i_m512_n256_v7x_i32_bf16_1_alg».proof.Proof.ValueSpec

noncomputable section

open scoped BigOperators

namespace Cert.KernelIdeal.HandValue

open Idealize.ShloMosaic Idealize.ShloMosaic.ValueIdx

/-- Entry `(r, k)` of block `c` of a 512 × 8192 array cut along its columns is entry `(r, 256·c + k)`. -/
theorem block_idx_cols (h : Layout.Tiles ⟨2, ![512, 256]⟩ ⟨2, ![512, 8192]⟩ 1 32) (c : Fin 32) (r : Fin 512)
    (k : Fin 256) : h.idx c (ix2 r k) = ix2 r (col c k) :=
  funext fun a => Fin.ext (by match a with | ⟨0, _⟩ => rfl | ⟨1, _⟩ => rfl)

/-- Entry `k` of block `c` of a vector of 8192 entries is entry `256·c + k`. -/
theorem block_idx_vec (h : Layout.Tiles ⟨1, ![256]⟩ ⟨1, ![8192]⟩ 0 32) (c : Fin 32) (k : Fin 256) :
    h.idx c (ix1 k) = ix1 (col c k) :=
  funext fun a => Fin.ext (by match a with | ⟨0, _⟩ => rfl)

/-- The entry computed from the blocks of `X` and of `Γ` is block `c` of the whole result at `(r, j)`. -/
theorem kernelAt_block (X : (⟨2, ![512, 8192]⟩ : Shape).Idx → EReal) (Γ : (⟨1, ![8192]⟩ : Shape).Idx → EReal)
    (hX : Layout.Tiles ⟨2, ![512, 256]⟩ ⟨2, ![512, 8192]⟩ 1 32) (hΓ : Layout.Tiles ⟨1, ![256]⟩ ⟨1, ![8192]⟩ 0 32)
    (c : Fin 32) (r : Fin 512) (j : Fin 256) :
    kernelAt (fun s => Layout.block ⟨2, ![512, 256]⟩ ⟨2, ![512, 8192]⟩ 1 32 s X hX)
        (Layout.block ⟨1, ![256]⟩ ⟨1, ![8192]⟩ 0 32 c Γ hΓ) c r j
      = Layout.block ⟨2, ![512, 256]⟩ ⟨2, ![512, 8192]⟩ 1 32 c (G X Γ) hX (ix2 r j) := by
  show (X (hX.idx c (ix2 r j)) * Γ (hΓ.idx c (ix1 j)))
      * Ideal.rsqrt ((∑ s : Fin 32, ∑ k : Fin 256, X (hX.idx s (ix2 r k)) * X (hX.idx s (ix2 r k)))
          * Ideal.ofBits .f32 0x39000000#32 + Ideal.ofBits .f32 0x3727C5AC#32)
    = G X Γ (hX.idx c (ix2 r j))
  simp only [block_idx_cols, block_idx_vec]
  exact block_law X Γ c r j

/-- info: 'Cert.KernelIdeal.HandValue.kernelAt_block' depends on axioms: [propext, Classical.choice, Quot.sound] -/
#guard_msgs in #print axioms kernelAt_block

end Cert.KernelIdeal.HandValue

end
-- ==== Proof.RefIdx.lean ====
/-
  The one-device reference read index by index IS the whole-array function `G`: at `(r, J)` the quotient of
  `gamma[J] · x[r, J]` by the square root of the row's sum of squares over all 8192 columns (added to the zero it is
  reduced from), divided by 8192, plus `ε`.
-/
import proofs.«901006_g7700000000001007_dist_rmsnorm_colshard_i_m512_n256_v7x_i32_bf16_1_alg».proof.Proof.Gen.ReferenceIdeal.Read
import proofs.«901006_g7700000000001007_dist_rmsnorm_colshard_i_m512_n256_v7x_i32_bf16_1_alg».proof.Proof.ValueSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Cert.KernelIdeal.HandValue (G normAt)

/-! ## The composed index maps, by coordinates -/

/-- `gamma` is read at the column: through the two broadcasts `[8192] → [1, 8192] → [512, 8192]`. -/
theorem idx_gamma (r : Fin 512) (J : Fin 8192) : Read.idx_main_v8 (Read.idx_main_v9 (ix2 r J)) = ix1 J :=
  funext fun a => Fin.ext (by match a with | ⟨0, _⟩ => rfl)

/-- The row's scale is read at the row: through `[512] → [512, 1] → [512, 8192]`. -/
theorem idx_row (r : Fin 512) (J : Fin 8192) : Read.idx_main_v2 (Read.idx_main_v11 (ix2 r J)) = ix1 r :=
  funext fun a => Fin.ext (by match a with | ⟨0, _⟩ => rfl)

/-- The row sum's term `K` is read at `(r, K)`. -/
theorem idx_term (r : Fin 512) (K : Fin 8192) : Read.idx_main_v1 (ix1 r) K = ix2 r K :=
  funext fun a => Fin.ext (by match a with | ⟨0, _⟩ => rfl | ⟨1, _⟩ => rfl)

/-! ## The stages at an index -/

/-- The numerator: `gamma[J] · x[r, J]`. -/
theorem numerator_apply (x0 : (⟨2, ![512, 8192]⟩ : Shape).Idx → EReal) (x1 : (⟨1, ![8192]⟩ : Shape).Idx → EReal)
    (r : Fin 512) (J : Fin 8192) :
    Read.val_main_v10 (F := Ideal) x0 x1 (ix2 r J) = x1 (ix1 J) * x0 (ix2 r J) := by
  have h9 : Read.val_main_v9 (F := Ideal) x1 (ix2 r J) = x1 (ix1 J) := by
    rw [Read.val_main_v9_apply, Read.val_main_v8_apply, idx_gamma]
  exact congrArg (fun t : EReal => t * x0 (ix2 r J)) h9

/-- The row's sum of squares: the host's sum from zero over the 8192 columns. -/
theorem rowsum_apply (x0 : (⟨2, ![512, 8192]⟩ : Shape).Idx → EReal) (r : Fin 512) :
    Read.val_main_v1 (F := Ideal) x0 (ix1 r) = ∑ K : Fin 8192, x0 (ix2 r K) * x0 (ix2 r K) := by
  refine (Read.val_main_v1_apply x0 (ix1 r)).trans ?_
  show Ideal.ofBits .f32 0x00000000#32
      + ∑ K : Fin 8192, Read.val_main_v0 (F := Ideal) x0 (Read.idx_main_v1 (ix1 r) K) = _
  rw [Ideal.ofBits_zero_f32, zero_add]
  exact Finset.sum_congr rfl fun K _ =>
    (congrArg (Read.val_main_v0 (F := Ideal) x0) (idx_term r K)).trans rfl

/-- The denominator: the root of the row's mean square plus `ε`. -/
theorem denominator_apply (x0 : (⟨2, ![512, 8192]⟩ : Shape).Idx → EReal) (r : Fin 512) (J : Fin 8192) :
    Read.val_main_v11 (F := Ideal) x0 (ix2 r J)
      = Ideal.sqrt (Ideal.div (∑ K : Fin 8192, x0 (ix2 r K) * x0 (ix2 r K)) (Ideal.ofBits .f32 0x46000000#32)
          + Ideal.ofBits .f32 0x3727C5AC#32) := by
  have hS : Read.val_main_v2 (F := Ideal) x0 (Read.idx_main_v11 (ix2 r J))
      = ∑ K : Fin 8192, x0 (ix2 r K) * x0 (ix2 r K) := by
    rw [Read.val_main_v2_apply, idx_row]
    exact rowsum_apply x0 r
  have hn : Read.val_main_v3 (F := Ideal) (Read.idx_main_v11 (ix2 r J)) = Ideal.ofBits .f32 0x46000000#32 := by
    rw [Read.val_main_v3_apply]
    exact Read.val_main_cst_0_apply _
  have he : Read.val_main_v5 (F := Ideal) (Read.idx_main_v11 (ix2 r J)) = Ideal.ofBits .f32 0x3727C5AC#32 := by
    rw [Read.val_main_v5_apply]
    exact Read.val_main_cst_1_apply _
  refine (Read.val_main_v11_apply (F := Ideal) x0 (ix2 r J)).trans ?_
  show Ideal.sqrt (Ideal.div (Read.val_main_v2 (F := Ideal) x0 (Read.idx_main_v11 (ix2 r J)))
        (Read.val_main_v3 (F := Ideal) (Read.idx_main_v11 (ix2 r J)))
      + Read.val_main_v5 (F := Ideal) (Read.idx_main_v11 (ix2 r J))) = _
  rw [hS, hn, he]

/-- THE REFERENCE IS `G`. -/
theorem ref_eq_G (x0 : (⟨2, ![512, 8192]⟩ : Shape).Idx → EReal) (x1 : (⟨1, ![8192]⟩ : Shape).Idx → EReal) :
    Read.val_main_v12 (F := Ideal) x0 x1 = G x0 x1 := by
  funext i
  obtain ⟨r, J, rfl⟩ : ∃ (r : Fin 512) (J : Fin 8192), i = ix2 r J := ⟨i 0, i 1, eq_ix2 i⟩
  show Ideal.div (Read.val_main_v10 (F := Ideal) x0 x1 (ix2 r J)) (Read.val_main_v11 (F := Ideal) x0 (ix2 r J))
    = normAt x0 x1 r J
  rw [numerator_apply, denominator_apply, normAt]

/-- info: 'Cert.ReferenceIdeal.RefValue.ref_eq_G' depends on axioms: [propext, Classical.choice, Quot.sound] -/
#guard_msgs in #print axioms ref_eq_G

end Cert.ReferenceIdeal.RefValue

end
-- ==== Proof.ColumnLayout.lean ====
/-
  The two "keep the row axis" layout steps read at an index given by coordinates: a vector of `a` entries viewed as an
  `a × 1` column, and an `a × 1` column repeated along `b` columns. Entry `(p, c)` of either reads the vector at `p`.
-/
import Idealize.ShloMosaic.Lib.ValueLayout

namespace Cert.KernelIdeal.HandValue

open Idealize.ShloMosaic Idealize.ShloMosaic.ValueIdx

variable {α : Type}

/-- An `[a]` array cast to `[a, 1]` reads, at `(i, u)`, the operand at `i`: the two row-major positions are
    `i` and `i · 1 + 0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.HandValue
-- ==== Proof.KernelIdx.lean ====
/-
  What device `c` leaves in its block of the result, entry by entry, in closed form.

  Each staged block is the device's whole argument array. Reading the kernel's arithmetic at `(r, j)`: the block's
  entry times the device's `gamma` entry, times the reciprocal root of `(∑_s T[s, r]) · 2⁻¹³ + ε`, where row `s` of the
  gathered table `T` holds device `s`'s sums of squares along the rows of its own block. The two lane sums (along
  the 256 columns of a block, and down the 32 rows of the table) are read as sums over their coordinate.
-/
import proofs.«901006_g7700000000001007_dist_rmsnorm_colshard_i_m512_n256_v7x_i32_bf16_1_alg».proof.Proof.KernelIdeal.Spec
import proofs.«901006_g7700000000001007_dist_rmsnorm_colshard_i_m512_n256_v7x_i32_bf16_1_alg».proof.Proof.ValueSpec
import proofs.«901006_g7700000000001007_dist_rmsnorm_colshard_i_m512_n256_v7x_i32_bf16_1_alg».proof.Proof.ColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen

/-! ## The staged blocks are the argument arrays -/

section Blocks
variable {F : FTy → Type} [FloatOps F]
variable (m : (ℓ : Loc nD τ sig) → Buf (Elt F) ℓ)

/-- The first window's one block is the whole 512 × 256 argument array: the block read is the array. -/
theorem xin_eq (c : Dev nD) :
    Hand.xin m c = (m ((c : Thread nD τ).loc main_arg0) : Vec F S512x256 .f32) := by
  have hz : (fun a => (win0_0.index t0_0) a * main_arg0.ty.shape.size a) = fun _ => 0 :=
    funext fun a => by fin_cases a <;> decide
  exact Memref.read_access_unit_zero (Elt F) main_arg0 hz _ _

/-- The second window's one block is the whole argument vector of 256 entries. -/
theorem gin_eq (c : Dev nD) :
    Hand.gin m c = (m ((c : Thread nD τ).loc main_arg1) : Vec F S256 .f32) := by
  have hz : (fun a => (win0_1.index t0_0) a * main_arg1.ty.shape.size a) = fun _ => 0 :=
    funext fun a => by fin_cases a <;> decide
  exact Memref.read_access_unit_zero (Elt F) main_arg1 hz _ _

end Blocks

/-! ## The kernel's arithmetic at an index -/

/-- A cast to the same shape changes nothing. -/
theorem pay1_eq (x : FVec Ideal S512x256 .f32) : k0_pay1 (F := Ideal) x = x :=
  shapeCast_self x _

/-- A device's row of the table: entry `r` is the sum of the squares along row `r` of its block. -/
theorem pay2_apply (x : FVec Ideal S512x256 .f32) (r : Fin 512) :
    k0_pay2 (F := Ideal) x (ix2 (0 : Fin 1) r) = rowSq x r := by
  simp only [k0_pay2, k0_pay1, shapeCast_self]
  refine (shapeCast_a_1a_apply _ _ (0 : Fin 1) r).trans ?_
  refine (Ideal.multiReduction_add_single (mulf x x) 0x00000000#32 reduces_S512x256_S512 (.inl rfl) rfl
    (ix1 r)).trans ?_
  show ∑ k : Fin 256, (mulf x x) (reduces_S512x256_S512.lift (ix1 r) k) = ∑ k : Fin 256, x (ix2 r k) * x (ix2 r k)
  refine Finset.sum_congr rfl fun k _ => ?_
  have hi : reduces_S512x256_S512.lift (ix1 r) k = ix2 r k :=
    funext fun a => Fin.ext (by match a with | ⟨0, _⟩ => rfl | ⟨1, _⟩ => rfl)
  exact congrArg (fun i => x i * x i) hi

/-- The block times `gamma` along its columns: entry `(r, j)` is `x[r, j] · gamma[j]`. -/
theorem pay3_apply (xv : FVec Ideal S512x256 .f32) (g : FVec Ideal S256 .f32) (r : Fin 512) (j : Fin 256) :
    k0_pay3 (F := Ideal) xv g (ix2 r j) = xv (ix2 r j) * g (ix1 j) := by
  simp only [k0_pay3, shapeCast_self]
  refine (mulf_apply _ _ _).trans ?_
  refine congrArg (fun t : EReal => xv (ix2 r j) * t) ?_
  refine (broadcastTo_1b_ab_apply _ _ r j).trans ?_
  exact shapeCast_a_1a_apply _ _ (0 : Fin 1) j

/-- The scaling: entry `(r, j)` is `y[r, j]` times the reciprocal root of the table's column sum at `r`, times
    `2⁻¹³`, plus `ε`. -/
theorem pay4_apply (y : FVec Ideal S512x256 .f32) (T : FVec Ideal S32x512 .f32) (r : Fin 512) (j : Fin 256) :
    k0_pay4 (F := Ideal) y T (ix2 r j)
      = y (ix2 r j) * Ideal.rsqrt ((∑ s : Fin 32, T (ix2 s r)) * Ideal.ofBits .f32 0x39000000#32
          + Ideal.ofBits .f32 0x3727C5AC#32) := by
  simp only [k0_pay4]
  refine (mulf_apply _ _ _).trans ?_
  refine congrArg (fun t : EReal => y (ix2 r j) * t) ?_
  refine (broadcastTo_a1_ab_apply _ _ r j).trans ?_
  refine (shapeCast_a_a1_apply _ _ r (0 : Fin 1)).trans ?_
  show Ideal.rsqrt (multiReduction .add [0] S512 T 0x00000000#32 reduces_S32x512_S512 (.inl rfl) rfl (ix1 r)
      * Ideal.ofBits .f32 0x39000000#32 + Ideal.ofBits .f32 0x3727C5AC#32) = _
  refine congrArg (fun S : EReal => Ideal.rsqrt (S * Ideal.ofBits .f32 0x39000000#32
    + Ideal.ofBits .f32 0x3727C5AC#32)) ?_
  refine (Ideal.multiReduction_add_single T 0x00000000#32 reduces_S32x512_S512 (.inl rfl) rfl (ix1 r)).trans ?_
  show ∑ s : Fin 32, T (reduces_S32x512_S512.lift (ix1 r) s) = ∑ s : Fin 32, T (ix2 s r)
  refine Finset.sum_congr rfl fun s _ => congrArg T ?_
  exact funext fun a => Fin.ext (by match a with | ⟨0, _⟩ => rfl | ⟨1, _⟩ => rfl)

/-- The three steps composed, over any block, `gamma` block and table. -/
theorem pay_chain (xc : FVec Ideal S512x256 .f32) (gc : FVec Ideal S256 .f32) (T : FVec Ideal S32x512 .f32)
    (r : Fin 512) (j : Fin 256) :
    k0_pay4 (F := Ideal) (k0_pay3 (k0_pay1 xc) gc) T (ix2 r j) = scaleAt xc gc (∑ s : Fin 32, T (ix2 s r)) r j := by
  rw [pay4_apply, pay3_apply, pay1_eq, scaleAt]

/-! ## Device `c`'s result -/

section Result
variable (m : (ℓ : Loc nD τ sig) → Buf (Elt Ideal) ℓ)

/-- Entry `(s, r)` of the gathered table is the sum of squares along row `r` of device `s`'s block. -/
theorem comm_apply (s : Dev nD) (r : Fin 512) :
    Hand.comm (F := Ideal) m (ix2 s r) = rowSq (m ((s : Thread nD τ).loc main_arg0)) r := by
  have h : Hand.comm (F := Ideal) m (ix2 s r) = rowSq (Hand.xin m s) r := pay2_apply (Hand.xin m s) r
  rw [xin_eq] at h
  exact h

/-- DEVICE `c`'S RESULT at `(r, j)`, as the function `kernelAt` of every device's block of `x` and of its own block of
    `gamma`. -/
theorem outAt_apply (c : Dev nD) (r : Fin 512) (j : Fin 256) :
    Hand.outAt (F := Ideal) m c (ix2 r j)
      = kernelAt (fun s : Dev nD => m ((s : Thread nD τ).loc main_arg0)) (m ((c : Thread nD τ).loc main_arg1)) c r j := by
  have h : Hand.outAt (F := Ideal) m c (ix2 r j)
      = scaleAt (Hand.xin m c) (Hand.gin m c) (∑ s : Fin 32, Hand.comm (F := Ideal) m (ix2 s r)) r j :=
    pay_chain (Hand.xin m c) (Hand.gin m c) (Hand.comm m) r j
  have hsum : (∑ s : Fin 32, Hand.comm (F := Ideal) m (ix2 s r))
      = ∑ s : Fin 32, rowSq (m ((s : Thread nD τ).loc main_arg0)) r :=
    Finset.sum_congr rfl fun s _ => comm_apply m s r
  rw [xin_eq, gin_eq, hsum] at h
  exact h

end Result

/-- info: 'Cert.KernelIdeal.HandValue.outAt_apply' depends on axioms: [propext, Classical.choice, Quot.sound] -/
#guard_msgs in #print axioms outAt_apply

end Cert.KernelIdeal.HandValue

end
-- ==== Proof.Alg.lean ====
/-
  The two value conjuncts.

  The reference's frame is its run with the result forgotten. For the algebraic claim the witness is the whole-array
  function `G` of the reference's argument arrays: the reference's run ends with it (the reference read index by index
  is `G`), and device `c`'s run ends with block `c` of it — its result is `kernelAt` of every device's block of `x`
  and its own block of `gamma`, each device's blocks are the blocks of the reference's arrays, and `kernelAt` of the
  blocks is the block of `G` (the law of the two arrangements).
-/
import proofs.«901006_g7700000000001007_dist_rmsnorm_colshard_i_m512_n256_v7x_i32_bf16_1_alg».proof.Defs
import proofs.«901006_g7700000000001007_dist_rmsnorm_colshard_i_m512_n256_v7x_i32_bf16_1_alg».proof.Proof.Gen.ReferenceIdeal
import proofs.«901006_g7700000000001007_dist_rmsnorm_colshard_i_m512_n256_v7x_i32_bf16_1_alg».proof.Proof.Gen.KernelIdeal
import proofs.«901006_g7700000000001007_dist_rmsnorm_colshard_i_m512_n256_v7x_i32_bf16_1_alg».proof.Proof.Gen.Pre_finite_inputs_Kernel
import proofs.«901006_g7700000000001007_dist_rmsnorm_colshard_i_m512_n256_v7x_i32_bf16_1_alg».proof.Proof.Gen.Pre_finite_inputs_ReferenceIdeal
import proofs.«901006_g7700000000001007_dist_rmsnorm_colshard_i_m512_n256_v7x_i32_bf16_1_alg».proof.Proof.Gen.ReferenceIdeal.Run
import proofs.«901006_g7700000000001007_dist_rmsnorm_colshard_i_m512_n256_v7x_i32_bf16_1_alg».proof.Proof.Gen.ReferenceIdeal.Read
import proofs.«901006_g7700000000001007_dist_rmsnorm_colshard_i_m512_n256_v7x_i32_bf16_1_alg».proof.Proof.KernelIdeal.Spec
import proofs.«901006_g7700000000001007_dist_rmsnorm_colshard_i_m512_n256_v7x_i32_bf16_1_alg».proof.Proof.ValueSpec
import proofs.«901006_g7700000000001007_dist_rmsnorm_colshard_i_m512_n256_v7x_i32_bf16_1_alg».proof.Proof.BlockIdx
import proofs.«901006_g7700000000001007_dist_rmsnorm_colshard_i_m512_n256_v7x_i32_bf16_1_alg».proof.Proof.RefIdx
import proofs.«901006_g7700000000001007_dist_rmsnorm_colshard_i_m512_n256_v7x_i32_bf16_1_alg».proof.Proof.KernelIdx

noncomputable section

namespace Cert.KernelIdeal.HandValue

open Idealize.ShloMosaic Idealize.SL.Sem Idealize.ShloMosaic.ValueIdx

/-- The reference runs and leaves its arguments unchanged: its run, with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Device `c`'s result, when every device's argument blocks are the blocks of whole arrays `X` and `Γ`, is block
    `c` of `G X Γ`. -/
theorem outAt_eq_block
    (m : (ℓ : Loc Cert.KernelIdeal.nD Cert.KernelIdeal.τ Cert.KernelIdeal.sig) → Buf (Elt Ideal) ℓ)
    (X : (⟨2, ![512, 8192]⟩ : Shape).Idx → EReal) (Γ : (⟨1, ![8192]⟩ : Shape).Idx → EReal)
    (hX : Layout.Tiles ⟨2, ![512, 256]⟩ ⟨2, ![512, 8192]⟩ 1 32) (hΓ : Layout.Tiles ⟨1, ![256]⟩ ⟨1, ![8192]⟩ 0 32)
    (hx : ∀ s : Dev Cert.KernelIdeal.nD,
      m ((s.tc : Thread Cert.KernelIdeal.nD Cert.KernelIdeal.τ).loc Cert.KernelIdeal.main_arg0)
        = Layout.block ⟨2, ![512, 256]⟩ ⟨2, ![512, 8192]⟩ 1 32 s X hX)
    (hg : ∀ s : Dev Cert.KernelIdeal.nD,
      m ((s.tc : Thread Cert.KernelIdeal.nD Cert.KernelIdeal.τ).loc Cert.KernelIdeal.main_arg1)
        = Layout.block ⟨1, ![256]⟩ ⟨1, ![8192]⟩ 0 32 s Γ hΓ)
    (c : Dev Cert.KernelIdeal.nD) :
    Cert.KernelIdeal.Hand.outAt (F := Ideal) m c
      = Layout.block ⟨2, ![512, 256]⟩ ⟨2, ![512, 8192]⟩ 1 32 c (G X Γ) hX := by
  funext i
  obtain ⟨r, j, rfl⟩ : ∃ (r : Fin 512) (j : Fin 256), i = ix2 r j := ⟨i 0, i 1, eq_ix2 i⟩
  exact ((outAt_apply m c r j).trans (kernelAt_congr hx (hg c) c r j)).trans (kernelAt_block X Γ hX hΓ c r j)

/-- THE ALGEBRAIC CLAIM, from the kernel's run stated with each device's result as `Hand.outAt`. -/
theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1)
            = Cert.KernelIdeal.Hand.outAt m c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))) :
    Cert.algebraic_KernelIdeal_ReferenceIdeal := by
  intro m ρ m' ρ' _ hagree
  refine ⟨G (m' (((0 : Dev Cert.ReferenceIdeal.nD).tc : Thread Cert.ReferenceIdeal.nD Cert.ReferenceIdeal.τ).loc
        Cert.ReferenceIdeal.main_arg0))
      (m' (((0 : Dev Cert.ReferenceIdeal.nD).tc : Thread Cert.ReferenceIdeal.nD Cert.ReferenceIdeal.τ).loc
        Cert.ReferenceIdeal.main_arg1)), ?_, ?_⟩
  · exact (θ_run (Cert.KernelIdeal.defs (F := Ideal)) _ _).mono
      (fun _ h c => ⟨(h c).1.trans
          (outAt_eq_block m _ _ _ _ (fun s => (hagree s).1) (fun s => (hagree s).2) c), (h c).2⟩)
      (hrun m ρ)
  · exact (θ_run (Cert.ReferenceIdeal.defs (F := Ideal)) _ _).mono
      (fun _ h => ⟨((h 0).1.trans (Cert.ReferenceIdeal.Read.val_main_v12_eq _ _)).trans
          (Cert.ReferenceIdeal.RefValue.ref_eq_G _ _), (h 0).2⟩)
      (Cert.ReferenceIdeal.Value.run (F := Ideal) m' ρ')

/-- info: 'Cert.KernelIdeal.HandValue.frame_ri' depends on axioms: [propext, Classical.choice, Quot.sound] -/
#guard_msgs in #print axioms frame_ri

/-- info: 'Cert.KernelIdeal.HandValue.algebraic_of_run' depends on axioms: [propext, Classical.choice, Quot.sound] -/
#guard_msgs in #print axioms algebraic_of_run

end Cert.KernelIdeal.HandValue

end
-- ==== Proof.lean ====
/-
  The certificate: on the mesh of 32 devices the kernel and its reading over the extended reals run to the end
  and leave their arguments alone, so does the one-device reference, and device `c` of the idealized kernel ends
  holding block `c` of what the reference computes.

  Each device sums the squares of its 256 columns row by row; the 32 devices exchange these partial sums (each
  device's row of a 32 × 512 table goes to every other device once all have entered), and each scales its block of
  `x · gamma` by `rsqrt (total · 2⁻¹³ + ε)`. The reference divides `gamma · x` by `sqrt (rowsum / 8192 + ε)`. Over the
  extended reals the total of the 32 partial sums is the row sum over all 8192 columns, `· 2⁻¹³` is `/ 8192`, and
  for a nonnegative sum the product with the reciprocal square root is the quotient by the square root.
-/
import proofs.«901006_g7700000000001007_dist_rmsnorm_colshard_i_m512_n256_v7x_i32_bf16_1_alg».proof.Defs
import proofs.«901006_g7700000000001007_dist_rmsnorm_colshard_i_m512_n256_v7x_i32_bf16_1_alg».proof.Proof.Gen.Kernel
import proofs.«901006_g7700000000001007_dist_rmsnorm_colshard_i_m512_n256_v7x_i32_bf16_1_alg».proof.Proof.Gen.KernelIdeal
import proofs.«901006_g7700000000001007_dist_rmsnorm_colshard_i_m512_n256_v7x_i32_bf16_1_alg».proof.Proof.Gen.ReferenceIdeal
import proofs.«901006_g7700000000001007_dist_rmsnorm_colshard_i_m512_n256_v7x_i32_bf16_1_alg».proof.Proof.Gen.Pre_finite_inputs_Kernel
import proofs.«901006_g7700000000001007_dist_rmsnorm_colshard_i_m512_n256_v7x_i32_bf16_1_alg».proof.Proof.Gen.Pre_finite_inputs_ReferenceIdeal
import proofs.«901006_g7700000000001007_dist_rmsnorm_colshard_i_m512_n256_v7x_i32_bf16_1_alg».proof.Proof.Kernel.Run
import proofs.«901006_g7700000000001007_dist_rmsnorm_colshard_i_m512_n256_v7x_i32_bf16_1_alg».proof.Proof.KernelIdeal.Run
import proofs.«901006_g7700000000001007_dist_rmsnorm_colshard_i_m512_n256_v7x_i32_bf16_1_alg».proof.Proof.Alg

noncomputable section

namespace Cert.Proof

open Idealize.ShloMosaic Idealize.SL.Sem

theorem frame_p : Cert.frame_Kernel := fun m ρ _ =>
  (θ_run (Cert.Kernel.defs (F := Bits)) _ _).mono (fun _ h c => (h c).2) (Cert.Kernel.Hand.run_main (F := Bits) m ρ)

theorem frame_pi : Cert.frame_KernelIdeal := fun m ρ _ =>
  (θ_run (Cert.KernelIdeal.defs (F := Ideal)) _ _).mono (fun _ h c => (h c).2) (Cert.KernelIdeal.Hand.run_main (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, Cert.KernelIdeal.HandValue.frame_ri, trivial,
  Cert.KernelIdeal.HandValue.algebraic_of_run fun m ρ => Cert.KernelIdeal.Hand.run_main (F := Ideal) m ρ⟩

end Cert.Proof

end
